-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x50000x1 : Shape := ⟨3, ![16, 50000, 1]⟩
abbrev S1600000 : Shape := ⟨1, ![1600000]⟩
abbrev S50000x1 : Shape := ⟨2, ![50000, 1]⟩
abbrev S2x1600000 : Shape := ⟨2, ![2, 1600000]⟩
abbrev S_ : Shape := ⟨0, ![]⟩
abbrev S1x1600000 : Shape := ⟨2, ![1, 1600000]⟩

class Facts : Prop where
  bcast_S_S16x50000x1 : S_.BroadcastsInDim S16x50000x1 (![] : Fin 0 → Fin S16x50000x1.rank)
  reducesTo_S16x50000x1_S_d0_1_2 : S16x50000x1.ReducesTo [0, 1, 2] S_
  h_S_ : 0 < S_.numel
  bcast_S_S1600000 : S_.BroadcastsInDim S1600000 (![] : Fin 0 → Fin S1600000.rank)
  reducesTo_S1600000_S_d0 : S1600000.ReducesTo [0] S_
  bcast_S_S50000x1 : S_.BroadcastsInDim S50000x1 (![] : Fin 0 → Fin S50000x1.rank)
  reducesTo_S50000x1_S_d0_1 : S50000x1.ReducesTo [0, 1] S_
  slices_S2x1600000_S1x1600000_0_0 : S2x1600000.Slices ![0, 0] S1x1600000
  shapeCasts_S1x1600000_S1600000 : S1x1600000.ShapeCasts S1600000

variable [Facts]

def fn_part1 {F : FTy → Type} [FloatOps F] (main_arg3 : IVec S2x1600000 32) (main_v13 : IVec S_ 1) (main_v15 : IVec S1600000 32) (main_v16 : IVec S1600000 32) : IVec S_ 1 :=
  let main_v17 : IVec S1600000 1 := cmpi .sge main_v15 main_v16
  let main_v18 : IVec S1x1600000 32 := (extractStridedSlice S1x1600000 ![0, 0] · slices_S2x1600000_S1x1600000_0_0) main_arg3
  let main_v19 : IVec S1600000 32 := shapeCast S1600000 main_v18 shapeCasts_S1x1600000_S1600000
  let main_c_5 : IVec S_ 32 := constantI S_ 32 50000#32
  let main_v20 : IVec S1600000 32 := broadcastInDim S1600000 ![] bcast_S_S1600000 main_c_5
  let main_v21 : IVec S1600000 1 := cmpi .slt main_v19 main_v20
  let main_v22 : IVec S1600000 1 := andi main_v17 main_v21
  let main_c_6 : IVec S_ 1 := constantI S_ 1 1#1
  let main_v23 : IVec S_ 1 := (fun x v => Host.reduce IntOp.andi x v reducesTo_S1600000_S_d0 h_S_) main_v22 main_c_6
  let main_v24 : IVec S_ 1 := andi main_v13 main_v23
  main_v24

def fn {F : FTy → Type} [FloatOps F] (main_arg0 : FVec F S16x50000x1 .f32) (main_arg1 : FVec F S1600000 .f32) (main_arg2 : FVec F S50000x1 .f32) (main_arg3 : IVec S2x1600000 32) : IVec S_ 1 :=
  let main_v0 : FVec F S16x50000x1 .f32 := Host.absf main_arg0
  let main_cst : FVec F S_ .f32 := constant S_ .f32 0x7F800000#32
  let main_v1 : FVec F S16x50000x1 .f32 := broadcastInDim S16x50000x1 ![] bcast_S_S16x50000x1 main_cst
  let main_v2 : IVec S16x50000x1 1 := cmpf .olt main_v0 main_v1
  let main_c : IVec S_ 1 := constantI S_ 1 1#1
  let main_v3 : IVec S_ 1 := (fun x v => Host.reduce IntOp.andi x v reducesTo_S16x50000x1_S_d0_1_2 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : IVec S1x1600000 32 := (extractStridedSlice S1x1600000 ![0, 0] · slices_S2x1600000_S1x1600000_0_0) main_arg3
  let main_v15 : IVec S1600000 32 := shapeCast S1600000 main_v14 shapeCasts_S1x1600000_S1600000
  let main_c_4 : IVec S_ 32 := constantI S_ 32 0#32
  let main_v16 : IVec S1600000 32 := broadcastInDim S1600000 ![] bcast_S_S1600000 main_c_4
  fn_part1 (F := F) main_arg3 main_v13 main_v15 main_v16
-- ==== Kernel.lean ====
abbrev S16x50000x1 : Shape := ⟨3, ![16, 50000, 1]⟩
abbrev S1600000 : Shape := ⟨1, ![1600000]⟩
abbrev S50000x1 : Shape := ⟨2, ![50000, 1]⟩
abbrev S2x1600000 : Shape := ⟨2, ![2, 1600000]⟩
abbrev S16x50000 : Shape := ⟨2, ![16, 50000]⟩
abbrev S1x1600000 : Shape := ⟨2, ![1, 1600000]⟩
abbrev S_ : Shape := ⟨0, ![]⟩
abbrev S1601536 : Shape := ⟨1, ![1601536]⟩
abbrev S16x51200 : Shape := ⟨2, ![16, 51200]⟩
abbrev S1x1601536 : Shape := ⟨2, ![1, 1601536]⟩
abbrev S16x1601536 : Shape := ⟨2, ![16, 1601536]⟩
abbrev S1x2048 : Shape := ⟨2, ![1, 2048]⟩
abbrev S16x2048 : Shape := ⟨2, ![16, 2048]⟩
abbrev S2048x1 : Shape := ⟨2, ![2048, 1]⟩
abbrev S2048x2048 : Shape := ⟨2, ![2048, 2048]⟩
abbrev S50000 : Shape := ⟨1, ![50000]⟩
abbrev S1x50000 : Shape := ⟨2, ![1, 50000]⟩

abbrev nBuf : Space → Nat
  | .hbm => 32
  | .vmem => 16
  | .smem => 0
  | _ => 0

abbrev bufTy : (tb : Table) → Fin (tcTables nBuf tb) → BufTy
  | .hbm, ⟨0, _⟩ => ⟨S16x50000x1, .f32⟩
  | .hbm, ⟨1, _⟩ => ⟨S1600000, .f32⟩
  | .hbm, ⟨2, _⟩ => ⟨S50000x1, .f32⟩
  | .hbm, ⟨3, _⟩ => ⟨S2x1600000, .i32⟩
  | .hbm, ⟨4, _⟩ => ⟨S16x50000, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S_, .i32⟩
  | .hbm, ⟨11, _⟩ => ⟨S1601536, .i32⟩
  | .hbm, ⟨12, _⟩ => ⟨S_, .i32⟩
  | .hbm, ⟨13, _⟩ => ⟨S_, .i32⟩
  | .hbm, ⟨14, _⟩ => ⟨S1601536, .i32⟩
  | .hbm, ⟨15, _⟩ => ⟨S_, .i32⟩
  | .hbm, ⟨16, _⟩ => ⟨S_, .f32⟩
  | .hbm, ⟨17, _⟩ => ⟨S1601536, .f32⟩
  | .hbm, ⟨18, _⟩ => ⟨S_, .i32⟩
  | .hbm, ⟨19, _⟩ => ⟨S_, .f32⟩
  | .hbm, ⟨20, _⟩ => ⟨S16x51200, .f32⟩
  | .hbm, ⟨21, _⟩ => ⟨S1x1601536, .i32⟩
  | .hbm, ⟨22, _⟩ => ⟨S1x1601536, .i32⟩
  | .hbm, ⟨23, _⟩ => ⟨S1x1601536, .f32⟩
  | .hbm, ⟨24, _⟩ => ⟨S16x1601536, .f32⟩
  | .hbm, ⟨25, _⟩ => ⟨S16x51200, .f32⟩
  | .hbm, ⟨26, _⟩ => ⟨S16x50000, .f32⟩
  | .hbm, ⟨27, _⟩ => ⟨S50000, .f32⟩
  | .hbm, ⟨28, _⟩ => ⟨S1x50000, .f32⟩
  | .hbm, ⟨29, _⟩ => ⟨S16x50000, .f32⟩
  | .hbm, ⟨30, _⟩ => ⟨S16x50000, .f32⟩
  | .hbm, ⟨31, _⟩ => ⟨S16x50000x1, .f32⟩
  | .local _ .vmem, ⟨0, _⟩ => ⟨S1x2048, .i32⟩
  | .local _ .vmem, ⟨1, _⟩ => ⟨S1x2048, .i32⟩
  | .local _ .vmem, ⟨2, _⟩ => ⟨S1x2048, .f32⟩
  | .local _ .vmem, ⟨3, _⟩ => ⟨S1x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | .local _ .vmem, ⟨8, _⟩ => ⟨S16x2048, .f32⟩
  | .local _ .vmem, ⟨9, _⟩ => ⟨S1x2048, .i32⟩
  | .local _ .vmem, ⟨10, _⟩ => ⟨S1x2048, .i32⟩
  | .local _ .vmem, ⟨11, _⟩ => ⟨S16x2048, .f32⟩
  | .local _ .vmem, ⟨12, _⟩ => ⟨S16x2048, .f32⟩
  | .local _ .vmem, ⟨13, _⟩ => ⟨S16x2048, .f32⟩
  | .local _ .vmem, ⟨14, _⟩ => ⟨S16x2048, .f32⟩
  | .local _ .vmem, ⟨15, _⟩ => ⟨S16x2048, .f32⟩
  | _, _ => ⟨S16x50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_c_2 : Ref sig .tc := ⟨.hbm, 18, rfl⟩
abbrev main_call3_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![782, 25], ![false, false]⟩

def k0_cond2 (i : grid0.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_8 : BitVec 32 := 0#32
  let v26 : BitVec 1 := Scalar.cmpi .ne v25 c0_i32_8
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![25, 782], ![false, false]⟩

def k1_cond2 (i : grid1.Coords) : BitVec 1 :=
  let arg1 : BitVec 32 := BitVec.ofNat 32 (i 1).val
  let c781_i32 : BitVec 32 := 781#32
  let v24 : BitVec 1 := Scalar.cmpi .eq arg1 c781_i32
  let v25 : BitVec 32 := Scalar.extui v24
  let c0_i32_8 : BitVec 32 := 0#32
  let v26 : BitVec 1 := Scalar.cmpi .ne v25 c0_i32_8
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S16x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S16x50000x1_S16x50000 : S16x50000x1.ShapeCasts S16x50000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S1600000_S1601536_015360 : S1600000.Pads (![0] : Fin 1 → Nat) ![1536] ![0] S1601536
  h_S_ : 0 < S_.numel
  pads_S16x50000_S16x51200_000_012000 : S16x50000.Pads (![0, 0] : Fin 2 → Nat) ![0, 1200] ![0, 0] S16x51200
  shapeCasts_S1601536_S1x1601536 : S1601536.ShapeCasts S1x1601536
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  iota_S2048x1_d0_w32 : S2048x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  natLt_1_32 : 1 < 32
  bitsLt_bf16_f32 : FTy.bits .bf16 < FTy.bits .f32
  broadcasts_S1x2048_S16x2048 : S1x2048.Broadcasts S16x2048
  slices_S16x51200_S16x50000_0_0 : S16x51200.Slices ![0, 0] S16x50000
  shapeCasts_S50000x1_S50000 : S50000x1.ShapeCasts S50000
  bcast_S50000_S1x50000_1 : S50000.BroadcastsInDim S1x50000 (![1] : Fin 1 → Fin S1x50000.rank)
  bcast_S1x50000_S16x50000_0_1 : S1x50000.BroadcastsInDim S16x50000 (![0, 1] : Fin 2 → Fin S16x50000.rank)
  bcast_S16x50000_S16x50000x1_0_1 : S16x50000.BroadcastsInDim S16x50000x1 (![0, 1] : Fin 2 → Fin S16x50000x1.rank)
  dot_S16x2048_S2048x2048_S16x2048_1_0_0_1_n_n_wf : DotDims.WF S16x2048 S2048x2048 S16x2048 [1] [0] [0] [1] [] []
  dot_S16x2048_S2048x2048_S16x2048_1_1_0_0_n_n_wf : DotDims.WF S16x2048 S2048x2048 S16x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x1601536.size a
  hwx0_0 : ∀ i : grid0.Coords, EltTy.bits .i32 = 32 ∨ (Rect.block (s := S1x1601536) S1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x1601536.size a
  hwx0_1 : ∀ i : grid0.Coords, EltTy.bits .f32 = 32 ∨ (Rect.block (s := S1x1601536) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x51200.size a
  hwx0_2 : ∀ i : grid0.Coords, EltTy.bits .f32 = 32 ∨ (Rect.block (s := S16x51200) S16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x1601536.size a
  hwx0_3 : ∀ i : grid0.Coords, EltTy.bits .f32 = 32 ∨ (Rect.block (s := S16x1601536) S16x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x1601536.size a
  hwx1_0 : ∀ i : grid1.Coords, EltTy.bits .i32 = 32 ∨ (Rect.block (s := S1x1601536) S1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x2048.size a ≤ S16x1601536.size a
  hwx1_1 : ∀ i : grid1.Coords, EltTy.bits .f32 = 32 ∨ (Rect.block (s := S16x1601536) S16x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x2048.size a ≤ S16x51200.size a
  hwx1_2 : ∀ i : grid1.Coords, EltTy.bits .f32 = 32 ∨ (Rect.block (s := S16x51200) S16x2048.size (cc1_transform_2 i) (hinb1_2 i)).WholeWords (EltTy.packing .f32)

variable [Facts₀]

def dot_S16x2048_S2048x2048_S16x2048_1_0_0_1_n_n : DotDims S16x2048 S2048x2048 S16x2048 where
  lhsContracting := [1]
  rhsContracting := [0]
  lhsNonContracting := [0]
  rhsNonContracting := [1]
  lhsBatch := []
  rhsBatch := []
  wf := dot_S16x2048_S2048x2048_S16x2048_1_0_0_1_n_n_wf
def dot_S16x2048_S2048x2048_S16x2048_1_1_0_0_n_n : DotDims S16x2048 S2048x2048 S16x2048 where
  lhsContracting := [1]
  rhsContracting := [1]
  lhsNonContracting := [0]
  rhsNonContracting := [0]
  lhsBatch := []
  rhsBatch := []
  wf := dot_S16x2048_S2048x2048_S16x2048_1_1_0_0_n_n_wf

abbrev win0_0 : Pipeline.Window sig grid0 :=
  Pipeline.Window.ofSpec (Memref.whole main_v9) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S16x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S16x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v10) S1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S16x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S16x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16x50000x1 : Shape := ⟨3, ![16, 50000, 1]⟩
abbrev S1600000 : Shape := ⟨1, ![1600000]⟩
abbrev S50000x1 : Shape := ⟨2, ![50000, 1]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x2 : Shape := ⟨2, ![1600000, 2]⟩
abbrev S16x1600000 : Shape := ⟨2, ![16, 1600000]⟩
abbrev S1600000x16 : Shape := ⟨2, ![1600000, 16]⟩
abbrev S50000x16 : Shape := ⟨2, ![50000, 16]⟩
abbrev S16x50000 : Shape := ⟨2, ![16, 50000]⟩
abbrev S50000 : Shape := ⟨1, ![50000]⟩
abbrev S1x50000 : Shape := ⟨2, ![1, 50000]⟩

abbrev nBuf : Space → Nat
  | .hbm => 36
  | .vmem => 0
  | .smem => 0
  | _ => 0

abbrev bufTy : (tb : Table) → Fin (tcTables nBuf tb) → BufTy
  | .hbm, ⟨0, _⟩ => ⟨S16x50000x1, .f32⟩
  | .hbm, ⟨1, _⟩ => ⟨S1600000, .f32⟩
  | .hbm, ⟨2, _⟩ => ⟨S50000x1, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x1, .i32⟩
  | .hbm, ⟨20, _⟩ => ⟨S1600000x2, .i32⟩
  | .hbm, ⟨21, _⟩ => ⟨S16x1600000, .f32⟩
  | .hbm, ⟨22, _⟩ => ⟨S1x1600000, .f32⟩
  | .hbm, ⟨23, _⟩ => ⟨S16x1600000, .f32⟩
  | .hbm, ⟨24, _⟩ => ⟨S16x1600000, .f32⟩
  | .hbm, ⟨25, _⟩ => ⟨S1600000x16, .f32⟩
  | .hbm, ⟨26, _⟩ => ⟨S_, .f32⟩
  | .hbm, ⟨27, _⟩ => ⟨S50000x16, .f32⟩
  | .hbm, ⟨28, _⟩ => ⟨S1600000x1, .i32⟩
  | .hbm, ⟨29, _⟩ => ⟨S50000x16, .f32⟩
  | .hbm, ⟨30, _⟩ => ⟨S16x50000, .f32⟩
  | .hbm, ⟨31, _⟩ => ⟨S50000, .f32⟩
  | .hbm, ⟨32, _⟩ => ⟨S1x50000, .f32⟩
  | .hbm, ⟨33, _⟩ => ⟨S16x50000, .f32⟩
  | .hbm, ⟨34, _⟩ => ⟨S16x50000, .f32⟩
  | .hbm, ⟨35, _⟩ => ⟨S16x50000x1, .f32⟩
  | _, _ => ⟨S16x50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S1600000_S1x1600000_1 : S1600000.BroadcastsInDim S1x1600000 (![1] : Fin 1 → Fin S1x1600000.rank)
  bcast_S1x1600000_S16x1600000_0_1 : S1x1600000.BroadcastsInDim S16x1600000 (![0, 1] : Fin 2 → Fin S16x1600000.rank)
  transposes_S16x1600000_S1600000x16_1_0 : S16x1600000.Transposes [1, 0] S1600000x16
  bcast_S_S50000x16 : S_.BroadcastsInDim S50000x16 (![] : Fin 0 → Fin S50000x16.rank)
  transposes_S50000x16_S16x50000_1_0 : S50000x16.Transposes [1, 0] S16x50000
  shapeCasts_S50000x1_S50000 : S50000x1.ShapeCasts S50000
  bcast_S50000_S1x50000_1 : S50000.BroadcastsInDim S1x50000 (![1] : Fin 1 → Fin S1x50000.rank)
  bcast_S1x50000_S16x50000_0_1 : S1x50000.BroadcastsInDim S16x50000 (![0, 1] : Fin 2 → Fin S16x50000.rank)
  bcast_S16x50000_S16x50000x1_0_1 : S16x50000.BroadcastsInDim S16x50000x1 (![0, 1] : Fin 2 → Fin S16x50000x1.rank)
  gather_S16x50000x1_S1600000x2_S16x1600000_0_12_n_n_12_1_1611_wf : GatherDims.WF S16x50000x1 S1600000x2 S16x1600000 [0] [1, 2] [] [1, 2] [] 1 ![16, 1, 1]
  scatter_S50000x16_S1600000x1_S1600000x16_1_0_0_1_wf : ScatterDims.WF S50000x16 S1600000x1 S1600000x16 [1] [0] [0] 1

variable [Facts₀]

def gather_S16x50000x1_S1600000x2_S16x1600000_0_12_n_n_12_1_1611 : GatherDims S16x50000x1 S1600000x2 S16x1600000 where
  offsetDims := [0]
  collapsedSliceDims := [1, 2]
  operandBatchingDims := []
  startIndicesBatchingDims := []
  startIndexMap := [1, 2]
  indexVectorDim := 1
  sliceSizes := ![16, 1, 1]
  wf := gather_S16x50000x1_S1600000x2_S16x1600000_0_12_n_n_12_1_1611_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf

class Facts : Prop extends Facts₀ where

variable [Facts]
-- ==== Proof.KI.Data.lean ====
/-
  The proof data of the two kernel regions, at any float instance, over the contents `V` a region finds in the
  core's buffers when it is entered.

  Both kernels keep a running sum in a scratch buffer across the inner grid axis: at the first inner point the scratch is
  reset to zero, at every point a one-hot matrix product is added to it, and at the last inner point the output block is
  written from it. So the scratch after grid position n is the body's update applied to zero (at a first inner point) or to
  the scratch after position n - 1 (elsewhere): `acc0`, `acc1`, by recursion on the position. The output block a point
  would write is the body's output expression of that scratch: `out0`, `out1`. The region invariant holds the scratch at
  the previous position's contents beside the other scoped buffers at anything and the generator register at some state.
-/
import proofs.«430482_j26018911879781_1_alg».proof.Proof.Gen.KernelIdeal.Launch
import proofs.«430482_j26018911879781_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0 (the gather): blocks, the running sum, the output block -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The source-index block (1 × 2048 words), the edge-value block (1 × 2048) and the feature block (16 × 2048) at a point. -/
abbrev srcB0 (c : Dev nD) (t : Fin cfg0.N) : Vec F S1x2048 .i32 := iblk0 V c 0 t
abbrev valB0 (c : Dev nD) (t : Fin cfg0.N) : Vec F S1x2048 .f32 := iblk0 V c 1 t
abbrev xB0 (c : Dev nD) (t : Fin cfg0.N) : Vec F S16x2048 .f32 := iblk0 V c 2 t

/-- The scratch after the body at grid position `n`: the update of zero at a first inner point (n ≡ 0 mod 25), of the
    scratch after position n - 1 elsewhere. -/
def acc0 (c : Dev nD) : (n : ℕ) → n < cfg0.N → Vec F S16x2048 .f32
  | 0, hn => k0_pay2 (grid0.coords ⟨0, hn⟩) (srcB0 V c ⟨0, hn⟩) (xB0 V c ⟨0, hn⟩) (k0_pay1 (F := F))
  | n + 1, hn => k0_pay2 (grid0.coords ⟨n + 1, hn⟩) (srcB0 V c ⟨n + 1, hn⟩) (xB0 V c ⟨n + 1, hn⟩)
      (if (n + 1) % 25 = 0 then (k0_pay1 (F := F)) else acc0 c n (Nat.lt_of_succ_lt hn))

/-- The output block point `t` writes when it is a last inner point: the scratch times the edge values. -/
def out0 (c : Dev nD) (t : Fin cfg0.N) : Vec F S16x2048 .f32 := k0_pay3 (acc0 V c t.val t.isLt) (valB0 V c t)

theorem acc0_first (c : Dev nD) (t : Fin cfg0.N) (h : t.val % 25 = 0) :
    acc0 V c t.val t.isLt = k0_pay2 (grid0.coords t) (srcB0 V c t) (xB0 V c t) (k0_pay1 (F := F)) := by
  obtain ⟨n, hn⟩ := t
  cases n with
  | zero => rfl
  | succ n => exact congrArg _ (if_pos h)

theorem acc0_next (c : Dev nD) (t : Fin cfg0.N) (h : ¬ t.val % 25 = 0) :
    acc0 V c t.val t.isLt = k0_pay2 (grid0.coords t) (srcB0 V c t) (xB0 V c t)
      (acc0 V c (t.val - 1) (Nat.lt_of_le_of_lt (Nat.sub_le _ _) t.isLt)) := by
  obtain ⟨n, hn⟩ := t
  cases n with
  | zero => exact absurd (Nat.zero_mod _) h
  | succ n => exact congrArg _ (if_neg h)

/-- The scratch of region 0 as a whole memref. -/
abbrev scM0 : Memref sig .tc .vmem S16x2048 .f32 := Memref.whole cc0_scratch0

/-- The core's scoped buffers other than region 0's staging buffers and its scratch, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant of region 0 with its scratch named: the scratch at some contents, the other scoped buffers, the generator register. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-- The invariant of region 0 before grid position `n`: at the first position the class's; afterwards the scratch at what
    the position before left. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c n hn) ∗ rest0 (F := F) c) ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-- The proof data of region 0 on core `c`: the arrays as the region finds them; after the body each input's buffer at its
    block and the output's at `out0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]
theorem Phi0_castSucc (c : Dev nD) (t : Fin cfg0.N) :
    (dat0 V c).Φ t.castSucc = Phi0 V c t.val (Nat.le_of_lt t.isLt) := by
  dsimp only [dat0]; simp only [Fin.coe_castSucc]

/-! ## Region 1 (the scatter): blocks, the running sum, the output block -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The destination-index block (1 × 2048 words) and the message block (16 × 2048) at a point. -/
abbrev dstB1 (c : Dev nD) (t : Fin cfg1.N) : Vec F S1x2048 .i32 := iblk1 V c 0 t
abbrev msgB1 (c : Dev nD) (t : Fin cfg1.N) : Vec F S16x2048 .f32 := iblk1 V c 1 t

/-- The scratch after the body at grid position `n`: the update of zero at a first inner point (n ≡ 0 mod 782), of the
    scratch after position n - 1 elsewhere. -/
def acc1 (c : Dev nD) : (n : ℕ) → n < cfg1.N → Vec F S16x2048 .f32
  | 0, hn => k1_pay2 (grid1.coords ⟨0, hn⟩) (dstB1 V c ⟨0, hn⟩) (msgB1 V c ⟨0, hn⟩) (k1_pay1 (F := F))
  | n + 1, hn => k1_pay2 (grid1.coords ⟨n + 1, hn⟩) (dstB1 V c ⟨n + 1, hn⟩) (msgB1 V c ⟨n + 1, hn⟩)
      (if (n + 1) % 782 = 0 then (k1_pay1 (F := F)) else acc1 c n (Nat.lt_of_succ_lt hn))

/-- The output block point `t` writes when it is a last inner point: the scratch itself. -/
def out1 (c : Dev nD) (t : Fin cfg1.N) : Vec F S16x2048 .f32 := acc1 V c t.val t.isLt

theorem acc1_first (c : Dev nD) (t : Fin cfg1.N) (h : t.val % 782 = 0) :
    acc1 V c t.val t.isLt = k1_pay2 (grid1.coords t) (dstB1 V c t) (msgB1 V c t) (k1_pay1 (F := F)) := by
  obtain ⟨n, hn⟩ := t
  cases n with
  | zero => rfl
  | succ n => exact congrArg _ (if_pos h)

theorem acc1_next (c : Dev nD) (t : Fin cfg1.N) (h : ¬ t.val % 782 = 0) :
    acc1 V c t.val t.isLt = k1_pay2 (grid1.coords t) (dstB1 V c t) (msgB1 V c t)
      (acc1 V c (t.val - 1) (Nat.lt_of_le_of_lt (Nat.sub_le _ _) t.isLt)) := by
  obtain ⟨n, hn⟩ := t
  cases n with
  | zero => exact absurd (Nat.zero_mod _) h
  | succ n => exact congrArg _ (if_neg h)

/-- The scratch of region 1 as a whole memref. -/
abbrev scM1 : Memref sig .tc .vmem S16x2048 .f32 := Memref.whole cc1_scratch0

/-- The core's scoped buffers other than region 1's staging buffers, each at some contents, the last of them — region 1's
    scratch — replaced by the assertion `X` (the order is the one the launch enumerates them in). -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

/-- The class invariant of region 1 with its scratch named. -/
theorem PhiA1_eq (c : Dev nD) :
    (Pipeline.ΦA spec1 c : sProp 𝕄)
      = iprop(rest1 (F := F) c (iprop(∃ d, owns (c : Thread nD τ) scM1 fullShare d)) ∗ (∃ r, prngReg c r)) := by
  unfold Pipeline.ΦA rest1; rw [scopedRest1_eq]; simp only [scM1, owns_whole]; try rfl

/-- The invariant of region 1 before grid position `n`. -/
def Phi1 (c : Dev nD) : (n : ℕ) → n ≤ cfg1.N → sProp 𝕄
  | 0, _ => Pipeline.ΦA spec1 c
  | n + 1, hn => iprop(rest1 (F := F) c (owns (c : Thread nD τ) scM1 fullShare (acc1 V c n hn)) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(rest1 (F := F) c (owns (c : Thread nD τ) scM1 fullShare (acc1 V c n hn)) ∗ (∃ r, prngReg c r)) := rfl

theorem Phi1_pos (c : Dev nD) (n : ℕ) (h : n ≤ cfg1.N) (hz : n ≠ 0) :
    Phi1 V c n h = iprop(rest1 (F := F) c (owns (c : Thread nD τ) scM1 fullShare (acc1 V c (n - 1) (by omega))) ∗ (∃ r, prngReg c r)) := by
  cases n with
  | zero => exact absurd rfl hz
  | succ n => rfl

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]
theorem Phi1_castSucc (c : Dev nD) (t : Fin cfg1.N) :
    (dat1 V c).Φ t.castSucc = Phi1 V c t.val (Nat.le_of_lt t.isLt) := by
  dsimp only [dat1]; simp only [Fin.coe_castSucc]

end Regions

end Cert.KernelIdeal.Hand

end
-- ==== Proof.KI.Sched.lean ====
/-
  The two grids' coordinates in closed form, and the kernels' two conditions read off the inner coordinate.

  Grid 0 runs 782 × 25 points and grid 1 runs 25 × 782, last axis fastest: point t of grid 0 has coordinates
  (t / 25, t mod 25), point t of grid 1 has (t / 782, t mod 782). Each kernel's first condition says its inner coordinate is
  0 and its second that it is the last one (24, resp. 781); both are scalar chains over the coordinate's 32-bit word, and
  the coordinate is small, so the chains are decided coordinate by coordinate.
-/
import proofs.«430482_j26018911879781_1_alg».proof.Proof.Gen.KernelIdeal

noncomputable section

namespace Cert.KernelIdeal.Hand

open Idealize.ShloMosaic Cert.KernelIdeal

theorem N0_eq : grid0.N = 19550 := by decide
theorem N1_eq : grid1.N = 19550 := by decide

theorem coords0_1 (t : Fin grid0.N) : ((grid0.coords t) 1).val = t.val % 25 := by
  show t.val / grid0.stride 1 % 25 = t.val % 25
  rw [show grid0.stride 1 = 1 from by decide, Nat.div_one]
theorem coords0_0 (t : Fin grid0.N) : ((grid0.coords t) 0).val = t.val / 25 := by
  show t.val / grid0.stride 0 % 782 = t.val / 25
  rw [show grid0.stride 0 = 25 from by decide]
  have h : t.val < 19550 := lt_of_lt_of_eq t.isLt N0_eq
  exact Nat.mod_eq_of_lt (by omega)
theorem coords1_1 (t : Fin grid1.N) : ((grid1.coords t) 1).val = t.val % 782 := by
  show t.val / grid1.stride 1 % 782 = t.val % 782
  rw [show grid1.stride 1 = 1 from by decide, Nat.div_one]
theorem coords1_0 (t : Fin grid1.N) : ((grid1.coords t) 0).val = t.val / 782 := by
  show t.val / grid1.stride 0 % 25 = t.val / 782
  rw [show grid1.stride 0 = 782 from by decide]
  have h : t.val < 19550 := lt_of_lt_of_eq t.isLt N1_eq
  exact Nat.mod_eq_of_lt (by omega)

/-- The body's first condition in either kernel: the inner grid coordinate is 0 (the scalar chain the kernels compute). -/
abbrev first0 (i : grid0.Coords) : Prop := (Scalar.cmpi .ne (Scalar.extui (Scalar.cmpi .eq (BitVec.ofNat 32 (i 1).val) 0#32)) 0#32) = 1#1
/-- Kernel 0's second condition: the inner grid coordinate is 24. -/
abbrev last0 (i : grid0.Coords) : Prop := k0_cond2 i = 1#1
abbrev first1 (i : grid1.Coords) : Prop := (Scalar.cmpi .ne (Scalar.extui (Scalar.cmpi .eq (BitVec.ofNat 32 (i 1).val) 0#32)) 0#32) = 1#1
/-- Kernel 1's second condition: the inner grid coordinate is 781. -/
abbrev last1 (i : grid1.Coords) : Prop := k1_cond2 i = 1#1

theorem first0_iff (i : grid0.Coords) : first0 i ↔ (i 1).val = 0 :=
  (by decide : ∀ a : Fin 25, (Scalar.cmpi .ne (Scalar.extui (Scalar.cmpi .eq (BitVec.ofNat 32 a.val) 0#32)) 0#32) = 1#1 ↔ a.val = 0) (i 1)
theorem last0_iff (i : grid0.Coords) : last0 i ↔ (i 1).val = 24 := by
  unfold last0 k0_cond2
  exact (by decide : ∀ a : Fin 25, (Scalar.cmpi .ne (Scalar.extui (Scalar.cmpi .eq (BitVec.ofNat 32 a.val) 24#32)) 0#32) = 1#1 ↔ a.val = 24) (i 1)
theorem first1_iff (i : grid1.Coords) : first1 i ↔ (i 1).val = 0 :=
  (by decide : ∀ a : Fin 782, (Scalar.cmpi .ne (Scalar.extui (Scalar.cmpi .eq (BitVec.ofNat 32 a.val) 0#32)) 0#32) = 1#1 ↔ a.val = 0) (i 1)
theorem last1_iff (i : grid1.Coords) : last1 i ↔ (i 1).val = 781 := by
  unfold last1 k1_cond2
  exact (by decide : ∀ a : Fin 782, (Scalar.cmpi .ne (Scalar.extui (Scalar.cmpi .eq (BitVec.ofNat 32 a.val) 781#32)) 0#32) = 1#1 ↔ a.val = 781) (i 1)

theorem hfirst0 (t : Fin grid0.N) : first0 (grid0.coords t) ↔ t.val % 25 = 0 := by rw [first0_iff, coords0_1]
theorem hlast0 (t : Fin grid0.N) : last0 (grid0.coords t) ↔ t.val % 25 = 24 := by rw [last0_iff, coords0_1]
theorem hfirst1 (t : Fin grid1.N) : first1 (grid1.coords t) ↔ t.val % 782 = 0 := by rw [first1_iff, coords1_1]
theorem hlast1 (t : Fin grid1.N) : last1 (grid1.coords t) ↔ t.val % 782 = 781 := by rw [last1_iff, coords1_1]

end Cert.KernelIdeal.Hand

end
-- ==== Proof.KI.Body0.lean ====
/-
  Region 0's kernel body as a separation-logic triple, at any float instance, and the schedule facts about its two
  conditions. The body resets the scratch when the inner grid coordinate is 0, adds the one-hot product to it, and writes
  the output block (scratch times edge values) when the inner coordinate is 24. So, whatever the point: the scratch ends
  at the update of zero (first inner point) or of what it held; the output buffer ends at the product (last inner point)
  or as it was found; the three input buffers are unchanged.
-/
import proofs.«430482_j26018911879781_1_alg».proof.Proof.KI.Data
import proofs.«430482_j26018911879781_1_alg».proof.Proof.KI.Sched
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The three inputs are never idle; the output is idle exactly off the last inner points (the configuration's table says so by
    definition). -/
theorem liveAt0_0 (i : grid0.Coords) : cfg0.idle 0 i = false := rfl
theorem liveAt0_1 (i : grid0.Coords) : cfg0.idle 1 i = false := rfl
theorem liveAt0_2 (i : grid0.Coords) : cfg0.idle 2 i = false := rfl
theorem idle0_3_eq (i : grid0.Coords) : cfg0.idle 3 i = !(k0_cond2 i == 1#1) := rfl
theorem idleAt0_3 (i : grid0.Coords) (h : ¬last0 i) : cfg0.idle 3 i = true := by
  rw [idle0_3_eq]; simp only [Bool.not_eq_true', beq_eq_false_iff_ne, ne_eq]; exact h
theorem liveAt0_3 (i : grid0.Coords) (h : last0 i) : cfg0.idle 3 i = false := by
  rw [idle0_3_eq]; simp only [Bool.not_eq_false', beq_iff_eq]; exact h

/-- The scratch after the body at coordinates `i`, from the source block `x0`, the feature block `x2` and what the scratch held. -/
def upd0 (i : grid0.Coords) (x0 : Vec F S1x2048 .i32) (x2 : Vec F S16x2048 .f32) (s : Vec F S16x2048 .f32) : Vec F S16x2048 .f32 :=
  k0_pay2 i x0 x2 (if first0 i then (k0_pay1 (F := F)) else s)

/-! ## The three kinds of point

Every access of the body is of a whole buffer, so each buffer's contents after the body are the payload of the last store
into it, and a load made after a store reads that store's payload. The inner grid coordinate cannot be 0 and 24 at once,
which leaves three kinds of point: a first inner point (the scratch is reset, then updated from the zeros it reads back),
a last inner point (the scratch is updated, then the output block is written from the scratch it reads back), and the
points between (the scratch is updated; the output buffer is not touched). -/

/-- A whole-buffer access has zero offsets, however the zeros are spelt. -/
private theorem offs_zero : (![0, 0] : Fin 2 → Nat) = fun _ => 0 := funext fun a => by fin_cases a <;> rfl

/-- A list of stores whose last is a store of the whole 16 × 2048 buffer covers the buffer. -/
private theorem cover_whole (p : Vec F S16x2048 .f32) (L : List (View.Piece (Elt F) S16x2048 .f32)) (y : S16x2048.Idx) :
    ∃ pc ∈ ((⟨Rect.unit (s := S16x2048) ![0, 0] S16x2048.size inb_S16x2048_S16x2048_0_0, p⟩ : View.Piece (Elt F) S16x2048 .f32) :: L), y ∈ pc.1.set :=
  ⟨_, List.mem_cons_self .., View.mem_set_unit_zero offs_zero inb_S16x2048_S16x2048_0_0 y⟩

set_option maxHeartbeats 1000000 in
/-- Between the first and the last inner point: the scratch's one store is the update of what it held (each of the update's
    three loads reads a buffer no store has touched yet); the output buffer is left as found. -/
theorem sound_kernel0_mid (c : Dev nD) (E : Set ℕ) (i : grid0.Coords)
    (arg2 : Memref sig .tc .vmem S1x2048 .i32) (harg2 : arg2.IsWhole) (arg3 : Memref sig .tc .vmem S1x2048 .f32) (harg3 : arg3.IsWhole)
    (arg4 : Memref sig .tc .vmem S16x2048 .f32) (harg4 : arg4.IsWhole) (arg5 : Memref sig .tc .vmem S16x2048 .f32) (harg5 : arg5.IsWhole)
    (arg6 : Memref sig .tc .vmem S16x2048 .f32) (harg6 : arg6.IsWhole) (hf : ¬first0 i) (hl : ¬last0 i)
    (x0 : Vec F S1x2048 .i32) (x1 : Vec F S1x2048 .f32) (x2 : Vec F S16x2048 .f32) (d : Vec F S16x2048 .f32) (s : Vec F S16x2048 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare d
            ∗ owns (c : Thread nD τ) arg6 fullShare (k0_pay2 i x0 x2 s)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hf | exact hl)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  iexists _; isplitr
  swap; · iexact H6
  ipureintro
  refine (View.read_writes_eq_canon _ _ _ (cover_whole _ _)).trans ?_
  rw [View.canon_unit_zero offs_zero]
  simp only [View.readAt_eq_ld, harg2.read_unread, harg3.read_unread, harg4.read_unread, harg6.read_unread,
      View.ld_unit_zero (S := S1x2048) offs_zero, View.ld_unit_zero (S := S16x2048) offs_zero]

set_option maxHeartbeats 1000000 in
/-- At a first inner point: the scratch is stored twice, zeros and then the update; the update's load of the scratch reads the
    zeros back, so the scratch ends at the update of zero whatever it held. The output buffer is left as found. -/
theorem sound_kernel0_first (c : Dev nD) (E : Set ℕ) (i : grid0.Coords)
    (arg2 : Memref sig .tc .vmem S1x2048 .i32) (harg2 : arg2.IsWhole) (arg3 : Memref sig .tc .vmem S1x2048 .f32) (harg3 : arg3.IsWhole)
    (arg4 : Memref sig .tc .vmem S16x2048 .f32) (harg4 : arg4.IsWhole) (arg5 : Memref sig .tc .vmem S16x2048 .f32) (harg5 : arg5.IsWhole)
    (arg6 : Memref sig .tc .vmem S16x2048 .f32) (harg6 : arg6.IsWhole) (hf : first0 i) (hl : ¬last0 i)
    (x0 : Vec F S1x2048 .i32) (x1 : Vec F S1x2048 .f32) (x2 : Vec F S16x2048 .f32) (d : Vec F S16x2048 .f32) (s : Vec F S16x2048 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare d
            ∗ owns (c : Thread nD τ) arg6 fullShare (k0_pay2 i x0 x2 (k0_pay1 (F := F)))) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hf | exact hl)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  iexists _; isplitr
  swap; · iexact H6
  ipureintro
  sl_unfold_run_names
  refine (View.read_writes_eq_canon _ _ _ (cover_whole _ _)).trans ?_
  rw [View.canon_cons_unit_zero (S := S16x2048) offs_zero, View.readCov_unit_zero (S := S16x2048) _ offs_zero]
  simp only [View.readAt_eq_ld, harg2.read_unread, harg3.read_unread, harg4.read_unread, harg6.read_unread,
      View.ld_unit_zero (S := S1x2048) offs_zero, View.ld_unit_zero (S := S16x2048) offs_zero]

set_option maxHeartbeats 1000000 in
/-- At a last inner point that is not a first one: the scratch ends at the update of what it held, and the output buffer's one
    store is the product of the scratch read back — the update just stored — and the edge values. -/
theorem sound_kernel0_last (c : Dev nD) (E : Set ℕ) (i : grid0.Coords)
    (arg2 : Memref sig .tc .vmem S1x2048 .i32) (harg2 : arg2.IsWhole) (arg3 : Memref sig .tc .vmem S1x2048 .f32) (harg3 : arg3.IsWhole)
    (arg4 : Memref sig .tc .vmem S16x2048 .f32) (harg4 : arg4.IsWhole) (arg5 : Memref sig .tc .vmem S16x2048 .f32) (harg5 : arg5.IsWhole)
    (arg6 : Memref sig .tc .vmem S16x2048 .f32) (harg6 : arg6.IsWhole) (hf : ¬first0 i) (hl : last0 i)
    (x0 : Vec F S1x2048 .i32) (x1 : Vec F S1x2048 .f32) (x2 : Vec F S16x2048 .f32) (d : Vec F S16x2048 .f32) (s : Vec F S16x2048 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 i x0 x2 s) x1)
            ∗ owns (c : Thread nD τ) arg6 fullShare (k0_pay2 i x0 x2 s)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hf | exact hl)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    swap; · iexact H5
    ipureintro
    sl_unfold_run_names
    refine (View.read_writes_eq_canon _ _ _ (cover_whole _ _)).trans ?_
    rw [View.canon_unit_zero offs_zero, View.readCov_unit_zero (S := S16x2048) _ offs_zero]
    simp only [View.readAt_eq_ld, harg2.read_unread, harg3.read_unread, harg4.read_unread, harg6.read_unread,
      View.ld_unit_zero (S := S1x2048) offs_zero, View.ld_unit_zero (S := S16x2048) offs_zero]
  iexists _; isplitr
  swap; · iexact H6
  ipureintro
  sl_unfold_run_names
  refine (View.read_writes_eq_canon _ _ _ (cover_whole _ _)).trans ?_
  rw [View.canon_unit_zero offs_zero]
  simp only [View.readAt_eq_ld, harg2.read_unread, harg3.read_unread, harg4.read_unread, harg6.read_unread,
      View.ld_unit_zero (S := S1x2048) offs_zero, View.ld_unit_zero (S := S16x2048) offs_zero]

/-- THE BODY'S TRIPLE. On whole memrefs — the three inputs at `x0 x1 x2`, the output buffer at `d`, the scratch at `s` — the
    body runs to the continuation holding the inputs as they were, the scratch at `upd0`, and the output buffer at the scratch
    times the edge values when the inner coordinate is 24, as it was found otherwise. -/
theorem sound_kernel0 (c : Dev nD) (E : Set ℕ) (i : grid0.Coords)
    (arg2 : Memref sig .tc .vmem S1x2048 .i32) (harg2 : arg2.IsWhole) (arg3 : Memref sig .tc .vmem S1x2048 .f32) (harg3 : arg3.IsWhole)
    (arg4 : Memref sig .tc .vmem S16x2048 .f32) (harg4 : arg4.IsWhole) (arg5 : Memref sig .tc .vmem S16x2048 .f32) (harg5 : arg5.IsWhole)
    (arg6 : Memref sig .tc .vmem S16x2048 .f32) (harg6 : arg6.IsWhole)
    (x0 : Vec F S1x2048 .i32) (x1 : Vec F S1x2048 .f32) (x2 : Vec F S16x2048 .f32) (d : Vec F S16x2048 .f32) (s : Vec F S16x2048 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (if last0 i then k0_pay3 (upd0 i x0 x2 s) x1 else d)
            ∗ owns (c : Thread nD τ) arg6 fullShare (upd0 i x0 x2 s)) -∗ K ⟨⟩))
      ⊢ wp frame (wpE (defs₀ (F := F)) Variants.none c none) E (cc0__gather_kernel i arg2 harg2 arg3 harg3 arg4 harg4 arg5 harg5 arg6 harg6) K := by
  by_cases hf : first0 i
  · have hl : ¬last0 i := fun h => by
      have h0 := (first0_iff i).mp hf
      have h24 := (last0_iff i).mp h
      omega
    rw [if_neg hl]; unfold upd0; rw [if_pos hf]
    exact sound_kernel0_first c E i arg2 harg2 arg3 harg3 arg4 harg4 arg5 harg5 arg6 harg6 hf hl x0 x1 x2 d s K
  · by_cases hl : last0 i
    · rw [if_pos hl]; unfold upd0; rw [if_neg hf]
      exact sound_kernel0_last c E i arg2 harg2 arg3 harg3 arg4 harg4 arg5 harg5 arg6 harg6 hf hl x0 x1 x2 d s K
    · rw [if_neg hl]; unfold upd0; rw [if_neg hf]
      exact sound_kernel0_mid c E i arg2 harg2 arg3 harg3 arg4 harg4 arg5 harg5 arg6 harg6 hf hl x0 x1 x2 d s K

end Cert.KernelIdeal.Hand

end
-- ==== Proof.KI.Points.lean ====
/-
  The schedule facts the proof uses, by arithmetic: at which grid points each region's output block is written back.

  A window's block is written back at the last grid point and wherever the next point's block index differs. Region 0's
  output block index at point t is (0, t / 25), so it is written back exactly when t mod 25 = 24; region 1's is
  (0, t / 782), written back exactly when t mod 782 = 781. Also spelled here: each window's current staging buffer at a
  point and the kernel body as the pipeline calls it there.
-/
import proofs.«430482_j26018911879781_1_alg».proof.Proof.KI.Sched
import proofs.«430482_j26018911879781_1_alg».proof.Proof.Gen.KernelIdeal.Launch
import Idealize.ShloMosaic.Lib.Pipeline.Kit

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-! ## Region 0 -/

/-- The current staging memref of each window at point `t`. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)

/-- The kernel body at point `t`, on what the pipeline calls it with. -/
abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

/-- Region 0's output block index at point `t`: (0, t / 25). -/
theorem index0_3 (t : Fin cfg0.N) : (cfg0.win 3).index t = ![0, t.val / 25] := by
  show cc0_transform_3 (grid0.coords t) = _
  unfold cc0_transform_3
  have h : t.val / 25 < 2 ^ 32 := by have := lt_of_lt_of_eq t.isLt N0_eq; omega
  simp only [coords0_0, BitVec.toNat_ofNat, Nat.mod_eq_of_lt h]

/-- Region 0's output window is written back exactly at the last inner points. -/
theorem flush0_3 (t : Fin cfg0.N) : (cfg0.win 3).flush t = true ↔ t.val % 25 = 24 := by
  have hN : t.val < 19550 := lt_of_lt_of_eq t.isLt N0_eq
  unfold Pipeline.Window.flush
  have hNe : cfg0.grid.N = 19550 := N0_eq
  rw [show (cfg0.win 3).isOut = true from rfl, Bool.true_and, Bool.or_eq_true, decide_eq_true_eq, decide_eq_true_eq]
  constructor
  · rintro (h | ⟨h, hne⟩)
    · omega
    · rw [index0_3, index0_3] at hne
      by_contra hc
      exact hne (by show ![0, (t.val + 1) / 25] = ![0, t.val / 25]; rw [show (t.val + 1) / 25 = t.val / 25 from by omega])
  · intro h
    by_cases hl : t.val + 1 = cfg0.grid.N
    · exact Or.inl hl
    · refine Or.inr ⟨by omega, fun he => ?_⟩
      rw [index0_3, index0_3] at he
      have := congrFun he 1
      simp only [Matrix.cons_val_one, Matrix.cons_val_zero] at this
      omega

/-! ## Region 1 -/

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)

abbrev bodyAt1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)

/-- Region 1's output block index at point `t`: (0, t / 782). -/
theorem index1_2 (t : Fin cfg1.N) : (cfg1.win 2).index t = ![0, t.val / 782] := by
  show cc1_transform_2 (grid1.coords t) = _
  unfold cc1_transform_2
  have h : t.val / 782 < 2 ^ 32 := by have := lt_of_lt_of_eq t.isLt N1_eq; omega
  simp only [coords1_0, BitVec.toNat_ofNat, Nat.mod_eq_of_lt h]

/-- Region 1's output window is written back exactly at the last inner points. -/
theorem flush1_2 (t : Fin cfg1.N) : (cfg1.win 2).flush t = true ↔ t.val % 782 = 781 := by
  have hN : t.val < 19550 := lt_of_lt_of_eq t.isLt N1_eq
  unfold Pipeline.Window.flush
  have hNe : cfg1.grid.N = 19550 := N1_eq
  rw [show (cfg1.win 2).isOut = true from rfl, Bool.true_and, Bool.or_eq_true, decide_eq_true_eq, decide_eq_true_eq]
  constructor
  · rintro (h | ⟨h, hne⟩)
    · omega
    · rw [index1_2, index1_2] at hne
      by_contra hc
      exact hne (by show ![0, (t.val + 1) / 782] = ![0, t.val / 782]; rw [show (t.val + 1) / 782 = t.val / 782 from by omega])
  · intro h
    by_cases hl : t.val + 1 = cfg1.grid.N
    · exact Or.inl hl
    · refine Or.inr ⟨by omega, fun he => ?_⟩
      rw [index1_2, index1_2] at he
      have := congrFun he 1
      simp only [Matrix.cons_val_one, Matrix.cons_val_zero] at this
      omega

end Cert.KernelIdeal.Hand

end
-- ==== Proof.KI.Obl0.lean ====
/-
  Region 0's body obligation: at every grid point the kernel body, handed the region invariant and each window's
  current staging buffer at what the pipeline left in it, runs to the invariant at the next point with each buffer at what
  the proof data names. The inputs' buffers hold their blocks (fetched at the point or kept from an earlier one); the
  scratch comes from the invariant at what the point before left (at anything before the first point) and goes back at this
  point's running sum; off the last inner points the output buffer is handed back as found.
-/
import proofs.«430482_j26018911879781_1_alg».proof.Proof.KI.Body0
import proofs.«430482_j26018911879781_1_alg».proof.Proof.KI.Points

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What each window's staging buffer holds when the body runs -/

/-- The source-index window's buffer holds its block at every point: where the pipeline does not fetch it the block index
    has not moved, and the body left the block in place. -/
theorem before0_0 (c : Dev nD) (t : Fin cfg0.N) (d) : (dat0 V c).before 0 t d = iblk0 V c 0 t := by
  refine ((dat0 V c).before_in_eq_fetched 0 rfl (fun _ => rfl) (fun _ _ _ => rfl) (fun t' => ?_) t d).trans ?_
  · rw [after0_0]; unfold Dat.blockOf iblk0; rw [A_eq0]; try rfl
  · unfold Dat.fetched Dat.blockOf iblk0; rw [A_eq0]; try rfl

/-- The same for the edge-value window. -/
theorem before0_1 (c : Dev nD) (t : Fin cfg0.N) (d) : (dat0 V c).before 1 t d = iblk0 V c 1 t := by
  refine ((dat0 V c).before_in_eq_fetched 1 rfl (fun _ => rfl) (fun _ _ _ => rfl) (fun t' => ?_) t d).trans ?_
  · rw [after0_1]; unfold Dat.blockOf iblk0; rw [A_eq0]; try rfl
  · unfold Dat.fetched Dat.blockOf iblk0; rw [A_eq0]; try rfl

/-- The same for the feature window (fetched at every point). -/
theorem before0_2 (c : Dev nD) (t : Fin cfg0.N) (d) : (dat0 V c).before 2 t d = iblk0 V c 2 t := by
  refine ((dat0 V c).before_in_eq_fetched 2 rfl (fun _ => rfl) (fun _ _ _ => rfl) (fun t' => ?_) t d).trans ?_
  · rw [after0_2]; unfold Dat.blockOf iblk0; rw [A_eq0]; try rfl
  · unfold Dat.fetched Dat.blockOf iblk0; rw [A_eq0]; try rfl

/-- Off the last inner points the pipeline does not write the output block back. -/
theorem noFlush0_3 (t : Fin cfg0.N) (h : ¬last0 (grid0.coords t)) : (cfg0.win 3).flush t = false := by
  rw [← Bool.not_eq_true]
  exact fun hfl => h ((hlast0 t).mpr ((flush0_3 t).mp hfl))

/-! ## The obligation at a generic point -/

/-- What the body is handed at point `t`: the invariant, what the core owes, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

/-- THE POINT, GIVEN THE SCRATCH. If the scratch holds contents `s` from which this point's update gives the running sum
    `acc0` at the point, the body — handed the scratch at `s` beside the other scoped buffers and the generator register, what
    the core owes, and every window's buffer as the pipeline left it — hands all of it back with the scratch at the running
    sum, the inputs' buffers at their blocks, and the output buffer at the product at a last inner point, as found elsewhere. -/
theorem sound_body0_of (c : Dev nD) (t : Fin cfg0.N) (s : Vec F S16x2048 .f32)
    (hs : upd0 (grid0.coords t) (srcB0 V c t) (xB0 V c t) s = acc0 V c t.val t.isLt) :
    iprop(iprop(iprop(owns (c : Thread nD τ) scM0 fullShare s ∗ rest0 (F := F) c) ∗ (∃ r, prngReg c r)) ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ => bodyPost0 V c t) := by
  unfold bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 _], after0_0]
  rw [show (dat0 V c).leavesExact 1 t = owns (c : Thread nD τ) (st0_1 t) fullShare ((dat0 V c).after 1 t) from by
    unfold Dat.leavesExact; rw [liveAt0_1 _], after0_1]
  rw [show (dat0 V c).leavesExact 2 t = owns (c : Thread nD τ) (st0_2 t) fullShare ((dat0 V c).after 2 t) from by
    unfold Dat.leavesExact; rw [liveAt0_2 _], after0_2]
  by_cases hl : last0 (grid0.coords t)
  · -- a last inner point: the output buffer ends at the product of the running sum and the edge values
    rw [show (dat0 V c).leavesExact 3 t = owns (c : Thread nD τ) (st0_3 t) fullShare ((dat0 V c).after 3 t) from by
      unfold Dat.leavesExact; rw [liveAt0_3 _ hl], after0_3]
    unfold out0
    iintro ⟨⟨⟨HS, Hr⟩, Hg⟩, Ho, ⟨%d0, H0⟩, ⟨%d1, H1⟩, ⟨%d2, H2⟩, ⟨%d3, H3⟩⟩
    iapply (sound_kernel0 c Set.univ (grid0.coords t) _ _ _ _ _ _ _ _ _ _ (iblk0 V c 0 t) (iblk0 V c 1 t) (iblk0 V c 2 t)
      ((dat0 V c).before 3 t d3) s _)
    isplitl [H0]; · iexact H0
    isplitl [H1]; · iexact H1
    isplitl [H2]; · iexact H2
    isplitl [H3]; · iexact H3
    isplitl [HS]; · iexact HS
    rw [if_pos hl, hs]
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · -- any other point: the output buffer is idle and not written back, so it goes back as it was found
    rw [Dat.leavesExact_idle (dat0 V c) 3 t (idleAt0_3 _ hl) (noFlush0_3 t hl)]
    iintro ⟨⟨⟨HS, Hr⟩, Hg⟩, Ho, ⟨%d0, H0⟩, ⟨%d1, H1⟩, ⟨%d2, H2⟩, ⟨%d3, H3⟩⟩
    iapply (sound_kernel0 c Set.univ (grid0.coords t) _ _ _ _ _ _ _ _ _ _ (iblk0 V c 0 t) (iblk0 V c 1 t) (iblk0 V c 2 t)
      ((dat0 V c).before 3 t d3) s _)
    isplitl [H0]; · iexact H0
    isplitl [H1]; · iexact H1
    isplitl [H2]; · iexact H2
    isplitl [H3]; · iexact H3
    isplitl [HS]; · iexact HS
    rw [if_neg hl, hs]
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexists _; iexact H3

/-- The body at any point. Before the first point the invariant holds the scratch at anything, and the point is a first inner
    one, whose update ignores what the scratch held; afterwards it holds the scratch at the running sum of the point before,
    and this point's update of it (of zero, at a first inner point) is this point's running sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0
  by_cases hz : t.val = 0
  · have hf : first0 (grid0.coords t) := (hfirst0 t).mpr (by omega)
    have hs : ∀ s, upd0 (grid0.coords t) (srcB0 V c t) (xB0 V c t) s = acc0 V c t.val t.isLt := fun s => by
      unfold upd0; rw [if_pos hf]; exact (acc0_first V c t (by omega)).symm
    rw [Phi0_castSucc V c t, Phi0_zero V c _ _ hz, PhiA0_eq]
    iintro ⟨⟨⟨⟨%s, HS⟩, Hr⟩, Hg⟩, Ho, H0, H1, H2, H3⟩
    iapply (sound_body0_of V c t s (hs s))
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · have hs : upd0 (grid0.coords t) (srcB0 V c t) (xB0 V c t)
        (acc0 V c (t.val - 1) (Nat.lt_of_le_of_lt (Nat.sub_le _ _) t.isLt)) = acc0 V c t.val t.isLt := by
      unfold upd0
      by_cases h25 : t.val % 25 = 0
      · rw [if_pos ((hfirst0 t).mpr h25)]; exact (acc0_first V c t h25).symm
      · rw [if_neg (fun h => h25 ((hfirst0 t).mp h))]; exact (acc0_next V c t h25).symm
    rw [Phi0_castSucc V c t, Phi0_pos V c _ _ hz]
    exact sound_body0_of V c t _ hs

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class's back: the scratch's named contents are forgotten. -/
theorem hout0 (c : Dev nD) : (dat0 V c).Φ (Fin.last cfg0.N) ⊢ (Pipeline.ΦA spec0 c : sProp 𝕄) := by
  have hne : (Fin.last cfg0.N).val ≠ 0 := by
    rw [Fin.val_last]; have hN : cfg0.N = 19550 := N0_eq; omega
  rw [show (dat0 V c).Φ (Fin.last cfg0.N) = Phi0 V c (Fin.last cfg0.N).val (Nat.le_of_lt_succ (Fin.last cfg0.N).isLt) from rfl,
    Phi0_pos V c _ _ hne, PhiA0_eq]
  iintro ⟨⟨HS, Hr⟩, Hg⟩
  isplitl [HS Hr]
  · isplitl [HS]
    · iexists _; iexact HS
    iexact Hr
  iexact Hg

end Regions

end Cert.KernelIdeal.Hand

end
-- ==== Proof.KI.Body1.lean ====
/-
  Region 1's kernel body as a separation-logic triple, at any float instance, and the schedule facts about its two
  conditions. The body resets the scratch when the inner grid coordinate is 0, adds the one-hot product to it, and copies
  the scratch to the output block when the inner coordinate is 781. So, whatever the point: the scratch ends at the update
  of zero (first inner point) or of what it held; the output buffer ends at the scratch (last inner point) or as it was
  found; the two input buffers are unchanged.
-/
import proofs.«430482_j26018911879781_1_alg».proof.Proof.KI.Data
import proofs.«430482_j26018911879781_1_alg».proof.Proof.KI.Sched
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two inputs are never idle; the output is idle exactly off the last inner points (the configuration's table says so by
    definition). -/
theorem liveAt1_0 (i : grid1.Coords) : cfg1.idle 0 i = false := rfl
theorem liveAt1_1 (i : grid1.Coords) : cfg1.idle 1 i = false := rfl
theorem idle1_2_eq (i : grid1.Coords) : cfg1.idle 2 i = !(k1_cond2 i == 1#1) := rfl
theorem idleAt1_2 (i : grid1.Coords) (h : ¬last1 i) : cfg1.idle 2 i = true := by
  rw [idle1_2_eq]; simp only [Bool.not_eq_true', beq_eq_false_iff_ne, ne_eq]; exact h
theorem liveAt1_2 (i : grid1.Coords) (h : last1 i) : cfg1.idle 2 i = false := by
  rw [idle1_2_eq]; simp only [Bool.not_eq_false', beq_iff_eq]; exact h

/-- The offsets of every access of the body: zero on both axes. -/
private theorem off_zero1 : (![0, 0] : Fin 2 → Nat) = fun _ => 0 := funext fun a => by fin_cases a <;> rfl

/-- A list of stores whose last one goes through the whole-shape rectangle covers every index. -/
private theorem cover_last1 {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ pc ∈ ((⟨Rect.unit off S.size inb, w⟩ : View.Piece Val S e) :: L), y ∈ pc.1.set :=
  ⟨_, List.mem_cons_self, View.mem_set_unit_zero h inb y⟩

/-- A whole-shape load after stores of which the last went through the whole shape reads that store's payload. -/
private theorem readCov_last1 {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (cover_last1 h inb w L), View.canon_cons_unit_zero h, View.ld_unit_zero h]

/-- The scratch after the body at coordinates `i`, from the destination block `x0`, the message block `x1` and what the scratch held. -/
def upd1 (i : grid1.Coords) (x0 : Vec F S1x2048 .i32) (x1 : Vec F S16x2048 .f32) (s : Vec F S16x2048 .f32) : Vec F S16x2048 .f32 :=
  k1_pay2 i x0 x1 (if first1 i then (k1_pay1 (F := F)) else s)

/-- THE BODY'S TRIPLE. On whole memrefs — the two inputs at `x0 x1`, the output buffer at `d`, the scratch at `s` — the body
    runs to the continuation holding the inputs as they were, the scratch at `upd1`, and the output buffer at the scratch when
    the inner coordinate is 781, as it was found otherwise. -/
theorem sound_kernel1 (c : Dev nD) (E : Set ℕ) (i : grid1.Coords)
    (arg2 : Memref sig .tc .vmem S1x2048 .i32) (harg2 : arg2.IsWhole) (arg3 : Memref sig .tc .vmem S16x2048 .f32) (harg3 : arg3.IsWhole)
    (arg4 : Memref sig .tc .vmem S16x2048 .f32) (harg4 : arg4.IsWhole) (arg5 : Memref sig .tc .vmem S16x2048 .f32) (harg5 : arg5.IsWhole)
    (x0 : Vec F S1x2048 .i32) (x1 : Vec F S16x2048 .f32) (d : Vec F S16x2048 .f32) (s : Vec F S16x2048 .f32)
    (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare s
        ∗ (iprop(owns (c : Thread nD τ) arg2 fullShare x0 ∗ owns (c : Thread nD τ) arg3 fullShare x1
            ∗ owns (c : Thread nD τ) arg4 fullShare (if last1 i then upd1 i x0 x1 s else d)
            ∗ owns (c : Thread nD τ) arg5 fullShare (upd1 i x0 x1 s)) -∗ K ⟨⟩))
      ⊢ wp frame (wpE (defs₀ (F := F)) Variants.none c none) E (cc1__scatter_kernel i arg2 harg2 arg3 harg3 arg4 harg4 arg5 harg5) K := by
  by_cases hf : first1 i
  · by_cases hl : last1 i
    · -- first and last inner point: reset, update, copy out
      rw [if_pos hl]; unfold upd1; rw [if_pos hf]
      simp only [cc1__scatter_kernel_eq_skeleton]; unfold cc1__scatter_kernel_skel
      unfold owns
      iintro ⟨⟨%f2, %hf2, H2⟩, ⟨%f3, %hf3, H3⟩, ⟨%f4, %hf4, H4⟩, ⟨%f5, %hf5, H5⟩, Hk⟩
      obtain rfl := harg2.eq_unread hf2; obtain rfl := harg3.eq_unread hf3
      obtain rfl := harg4.eq_unread hf4; obtain rfl := harg5.eq_unread hf5
      sl_exec (disch := first | exact hf | exact hl)
      sl_step
      iapply Hk
      isplitl [H2]
      · iexists _; isplitr; · ipureintro; exact hf2
        iexact H2
      isplitl [H3]
      · iexists _; isplitr; · ipureintro; exact hf3
        iexact H3
      isplitl [H4]
      · iexists _; isplitr
        swap; · iexact H4
        ipureintro
        sl_unfold_words
        rw [View.read_writes_eq_canon _ _ _ (cover_last1 off_zero1 _ _ _)]
        simp only [View.canon_cons_unit_zero (S := S16x2048) off_zero1, readCov_last1 (S := S16x2048) _ off_zero1, View.readAt_eq_ld,
          harg2.read_unread, harg3.read_unread, harg5.read_unread,
          View.ld_unit_zero (S := S1x2048) off_zero1, View.ld_unit_zero (S := S16x2048) off_zero1]
      iexists _; isplitr
      swap; · iexact H5
      ipureintro
      sl_unfold_words
      rw [View.read_writes_eq_canon _ _ _ (cover_last1 off_zero1 _ _ _)]
      simp only [View.canon_cons_unit_zero (S := S16x2048) off_zero1, readCov_last1 (S := S16x2048) _ off_zero1, View.readAt_eq_ld,
        harg2.read_unread, harg3.read_unread, harg5.read_unread,
        View.ld_unit_zero (S := S1x2048) off_zero1, View.ld_unit_zero (S := S16x2048) off_zero1]
    · -- first inner point only: reset, update
      rw [if_neg hl]; unfold upd1; rw [if_pos hf]
      simp only [cc1__scatter_kernel_eq_skeleton]; unfold cc1__scatter_kernel_skel
      unfold owns
      iintro ⟨⟨%f2, %hf2, H2⟩, ⟨%f3, %hf3, H3⟩, ⟨%f4, %hf4, H4⟩, ⟨%f5, %hf5, H5⟩, Hk⟩
      obtain rfl := harg2.eq_unread hf2; obtain rfl := harg3.eq_unread hf3
      obtain rfl := harg4.eq_unread hf4; obtain rfl := harg5.eq_unread hf5
      sl_exec (disch := first | exact hf | exact hl)
      sl_step
      iapply Hk
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      iexists _; isplitr
      swap; · iexact H5
      ipureintro
      sl_unfold_words
      rw [View.read_writes_eq_canon _ _ _ (cover_last1 off_zero1 _ _ _)]
      simp only [View.canon_cons_unit_zero (S := S16x2048) off_zero1, readCov_last1 (S := S16x2048) _ off_zero1, View.readAt_eq_ld,
        harg2.read_unread, harg3.read_unread, harg5.read_unread,
        View.ld_unit_zero (S := S1x2048) off_zero1, View.ld_unit_zero (S := S16x2048) off_zero1]
  · by_cases hl : last1 i
    · -- last inner point only: update, copy out
      rw [if_pos hl]; unfold upd1; rw [if_neg hf]
      simp only [cc1__scatter_kernel_eq_skeleton]; unfold cc1__scatter_kernel_skel
      unfold owns
      iintro ⟨⟨%f2, %hf2, H2⟩, ⟨%f3, %hf3, H3⟩, ⟨%f4, %hf4, H4⟩, ⟨%f5, %hf5, H5⟩, Hk⟩
      obtain rfl := harg2.eq_unread hf2; obtain rfl := harg3.eq_unread hf3
      obtain rfl := harg4.eq_unread hf4; obtain rfl := harg5.eq_unread hf5
      sl_exec (disch := first | exact hf | exact hl)
      sl_step
      iapply Hk
      isplitl [H2]
      · iexists _; isplitr; · ipureintro; exact hf2
        iexact H2
      isplitl [H3]
      · iexists _; isplitr; · ipureintro; exact hf3
        iexact H3
      isplitl [H4]
      · iexists _; isplitr
        swap; · iexact H4
        ipureintro
        sl_unfold_words
        rw [View.read_writes_eq_canon _ _ _ (cover_last1 off_zero1 _ _ _)]
        simp only [View.canon_cons_unit_zero (S := S16x2048) off_zero1, readCov_last1 (S := S16x2048) _ off_zero1, View.readAt_eq_ld,
          harg2.read_unread, harg3.read_unread, harg5.read_unread,
          View.ld_unit_zero (S := S1x2048) off_zero1, View.ld_unit_zero (S := S16x2048) off_zero1]
      iexists _; isplitr
      swap; · iexact H5
      ipureintro
      sl_unfold_words
      rw [View.read_writes_eq_canon _ _ _ (cover_last1 off_zero1 _ _ _)]
      simp only [View.canon_cons_unit_zero (S := S16x2048) off_zero1, readCov_last1 (S := S16x2048) _ off_zero1, View.readAt_eq_ld,
        harg2.read_unread, harg3.read_unread, harg5.read_unread,
        View.ld_unit_zero (S := S1x2048) off_zero1, View.ld_unit_zero (S := S16x2048) off_zero1]
    · -- an interior point: update only
      rw [if_neg hl]; unfold upd1; rw [if_neg hf]
      simp only [cc1__scatter_kernel_eq_skeleton]; unfold cc1__scatter_kernel_skel
      unfold owns
      iintro ⟨⟨%f2, %hf2, H2⟩, ⟨%f3, %hf3, H3⟩, ⟨%f4, %hf4, H4⟩, ⟨%f5, %hf5, H5⟩, Hk⟩
      obtain rfl := harg2.eq_unread hf2; obtain rfl := harg3.eq_unread hf3
      obtain rfl := harg4.eq_unread hf4; obtain rfl := harg5.eq_unread hf5
      sl_exec (disch := first | exact hf | exact hl)
      sl_step
      iapply Hk
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      iexists _; isplitr
      swap; · iexact H5
      ipureintro
      sl_unfold_words
      rw [View.read_writes_eq_canon _ _ _ (cover_last1 off_zero1 _ _ _)]
      simp only [View.canon_cons_unit_zero (S := S16x2048) off_zero1, readCov_last1 (S := S16x2048) _ off_zero1, View.readAt_eq_ld,
        harg2.read_unread, harg3.read_unread, harg5.read_unread,
        View.ld_unit_zero (S := S1x2048) off_zero1, View.ld_unit_zero (S := S16x2048) off_zero1]

end Cert.KernelIdeal.Hand

end
-- ==== Proof.KI.Obl1.lean ====
/-
  Region 1's body obligation: at every grid point the kernel body, handed the region invariant and each window's
  current staging buffer at what the pipeline left in it, runs to the invariant at the next point with each buffer at what
  the proof data names. The inputs' buffers hold their blocks (fetched at the point or kept from an earlier one); the
  scratch comes from the invariant at what the point before left (at anything before the first point) and goes back at this
  point's running sum; off the last inner points the output buffer is handed back as found.
-/
import proofs.«430482_j26018911879781_1_alg».proof.Proof.KI.Body1
import proofs.«430482_j26018911879781_1_alg».proof.Proof.KI.Points

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The inputs' staging buffers hold their blocks -/

/-- The destination-index window's current staging buffer holds its block at every point: the window is fetched there, or its
    block index has not moved since it was. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The same for the message window. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The scratch among the other scoped buffers -/

/-- The scratch's assertion is taken out of the scoped rest, and any other may be put back in its place. -/
theorem rest1_open (c : Dev nD) (X Y : sProp 𝕄) : rest1 (F := F) c X ⊢ iprop(X ∗ (Y -∗ rest1 (F := F) c Y)) := by
  unfold rest1
  iintro ⟨R0, R1, R2, R3, R4, R5, R6, R7, R8, HX⟩
  isplitl [HX]; · iexact HX
  iintro HY
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact HY

/-- A scratch held at some contents is, for some contents, held at them. -/
theorem rest1_exists (c : Dev nD) (P : Vec F S16x2048 .f32 → sProp 𝕄) :
    rest1 (F := F) c (iprop(∃ d, P d)) ⊢ iprop(∃ d, rest1 (F := F) c (P d)) := by
  unfold rest1
  iintro ⟨R0, R1, R2, R3, R4, R5, R6, R7, R8, ⟨%d, HX⟩⟩
  iexists d
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact HX

/-! ## The running sum at a point from what the scratch held -/

/-- The running sum after point `t` is the body's update of what the scratch held before it: of anything at a first inner
    point (the update starts from zero there), of the running sum after `t - 1` elsewhere. -/
theorem acc1_eq_upd1 (c : Dev nD) (t : Fin cfg1.N) (s : Vec F S16x2048 .f32)
    (hs : ¬ t.val % 782 = 0 → s = acc1 V c (t.val - 1) (Nat.lt_of_le_of_lt (Nat.sub_le _ _) t.isLt)) :
    acc1 V c t.val t.isLt = upd1 (grid1.coords t) (iblk1 V c 0 t) (iblk1 V c 1 t) s := by
  unfold upd1
  by_cases hf : t.val % 782 = 0
  · rw [if_pos ((hfirst1 t).mpr hf), acc1_first V c t hf]
  · rw [if_neg (fun h => hf ((hfirst1 t).mp h)), acc1_next V c t hf, hs hf]

/-- Before point `t` the invariant holds the scratch at some contents, which off the first inner points (the grid's first
    point is one) is the running sum after `t - 1`. -/
theorem Phi1_scratch (c : Dev nD) (t : Fin cfg1.N) :
    (dat1 V c).Φ t.castSucc ⊢ iprop(∃ s : Vec F S16x2048 .f32,
      ⌜¬ t.val % 782 = 0 → s = acc1 V c (t.val - 1) (Nat.lt_of_le_of_lt (Nat.sub_le _ _) t.isLt)⌝
        ∗ rest1 (F := F) c (owns (c : Thread nD τ) scM1 fullShare s) ∗ (∃ r, prngReg c r)) := by
  rw [Phi1_castSucc]
  by_cases hz : t.val = 0
  · rw [Phi1_zero V c _ _ hz, PhiA1_eq]
    iintro ⟨HR, Hg⟩
    icases (rest1_exists c _) $$ HR with ⟨%s, HR⟩
    iexists s
    isplitr; · ipureintro; intro h; exact absurd (by rw [hz]) h
    isplitl [HR]; · iexact HR
    iexact Hg
  · rw [Phi1_pos V c _ _ hz]
    iintro ⟨HR, Hg⟩
    iexists _
    isplitr; · ipureintro; intro _; rfl
    isplitl [HR]; · iexact HR
    iexact Hg

/-! ## The body obligation, at a generic point -/

/-- What the body is called with at point `t`: the invariant, what the core owes, each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The output window's post from what the body's triple leaves in its buffer: at a last inner point the running sum, which
    is the block the proof data names; elsewhere the buffer as it was found, which is what an idle, unflushed point owes. -/
theorem leaves1_2 (c : Dev nD) (t : Fin cfg1.N) (s d : Vec F S16x2048 .f32)
    (hacc : acc1 V c t.val t.isLt = upd1 (grid1.coords t) (iblk1 V c 0 t) (iblk1 V c 1 t) s) :
    owns (c : Thread nD τ) (st1_2 t) fullShare
        (if last1 (grid1.coords t) then upd1 (grid1.coords t) (iblk1 V c 0 t) (iblk1 V c 1 t) s else (dat1 V c).before 2 t d)
      ⊢ ((dat1 V c).leavesExact 2 t : sProp 𝕄) := by
  by_cases hl : last1 (grid1.coords t)
  · rw [if_pos hl, show (dat1 V c).leavesExact 2 t = owns (c : Thread nD τ) (st1_2 t) fullShare ((dat1 V c).after 2 t) from by
      unfold Dat.leavesExact; rw [liveAt1_2 (grid1.coords t) hl], after1_2]
    unfold out1; rw [hacc]
    try exact Entails.refl _
  · have hnf : (cfg1.win 2).flush t = false :=
      Bool.eq_false_iff.mpr fun h => hl ((hlast1 t).mpr ((flush1_2 t).mp h))
    rw [if_neg hl, Dat.leavesExact_idle (dat1 V c) 2 t (idleAt1_2 (grid1.coords t) hl) hnf]
    iintro H; iexists d; iexact H

/-- The body at any point. The inputs' buffers hold their blocks; the invariant hands the scratch at what the point before
    left (at anything before the grid's first point, where the update starts from zero); the body's triple applies with the
    output buffer at what it was found holding; the scratch goes back into the invariant at this point's running sum, and the
    output buffer is the point's block at a last inner point and untouched elsewhere. The other scoped buffers, the generator
    register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 (grid1.coords t)], after1_0]
  rw [show (dat1 V c).leavesExact 1 t = owns (c : Thread nD τ) (st1_1 t) fullShare ((dat1 V c).after 1 t) from by
    unfold Dat.leavesExact; rw [liveAt1_1 (grid1.coords t)], after1_1]
  iintro ⟨HΦ, Ho, ⟨%d0, H0⟩, ⟨%d1, H1⟩, ⟨%d2, H2⟩⟩
  icases (Phi1_scratch V c t) $$ HΦ with ⟨%s, %hs, HR, Hg⟩
  have hacc := acc1_eq_upd1 V c t s hs
  rw [hacc]
  icases (rest1_open c _ (owns (c : Thread nD τ) scM1 fullShare (upd1 (grid1.coords t) (iblk1 V c 0 t) (iblk1 V c 1 t) s))) $$ HR with ⟨HS, Hback⟩
  iapply (sound_kernel1 c Set.univ (grid1.coords t) _ _ _ _ _ _ _ _ (iblk1 V c 0 t) (iblk1 V c 1 t) ((dat1 V c).before 2 t d2) s _)
  isplitl [H0]; · iexact H0
  isplitl [H1]; · iexact H1
  isplitl [H2]; · iexact H2
  isplitl [HS]; · iexact HS
  iintro ⟨H0, H1, H2, HS⟩
  isplitl [HS Hback Hg]
  · isplitl [HS Hback]
    · iapply Hback; iexact HS
    iexact Hg
  isplitl [Ho]; · iexact Ho
  isplitl [H0]; · iexact H0
  isplitl [H1]; · iexact H1
  iapply (leaves1_2 V c t s d2 hacc); iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Entails.refl _

/-- After the last point the invariant gives the class's back: the scratch's named contents are forgotten. -/
theorem hout1 (c : Dev nD) : (dat1 V c).Φ (Fin.last cfg1.N) ⊢ (Pipeline.ΦA spec1 c : sProp 𝕄) := by
  have hN : (Fin.last cfg1.N).val ≠ 0 := by
    rw [Fin.val_last]; have : cfg1.N = 19550 := N1_eq; omega
  rw [show (dat1 V c).Φ (Fin.last cfg1.N) = Phi1 V c (Fin.last cfg1.N).val (Nat.le_of_lt_succ (Fin.last cfg1.N).isLt) from rfl,
    Phi1_pos V c _ _ hN, PhiA1_eq]
  iintro ⟨HR, Hg⟩
  isplitl [HR]
  · icases (rest1_open c _ (iprop(∃ d, owns (c : Thread nD τ) scM1 fullShare d))) $$ HR with ⟨HS, Hback⟩
    iapply Hback; iexists _; iexact HS
  iexact Hg

end Regions

end Cert.KernelIdeal.Hand

end
-- ==== Proof.KI.Run.lean ====
/-
  The launch side of the program's two kernel regions, at any float instance.

  Between @main's items a core holds every unscoped buffer whole; the conditional frame names the contents at each
  boundary over unknowns, "what region 0 leaves in its output array" and "what region 1 leaves in its". Here the unknowns
  are named: a region leaves each of its arrays at what its pipeline has written back after the last grid point and every
  other buffer as it found it. Over those contents each region is a segment record: its arrays are taken out of the
  unscoped buffers on entry and put back on exit, the generator register and the scoped buffers no window stages make the
  region invariant before the first point and are given back after the last, and the core owes nothing throughout. The
  conditional frame then gives the frame claim: every argument array ends holding what it was launched with.
-/
import proofs.«430482_j26018911879781_1_alg».proof.Proof.KI.Obl0
import proofs.«430482_j26018911879781_1_alg».proof.Proof.KI.Obl1
import proofs.«430482_j26018911879781_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Two facts about any proof data that owes nothing -/

section Owing

variable {cfg : Cfg sig Λ₀} {c : Dev nD} (dat : Dat τ (Elt F) Unit ℕ (UR sig nD τ) ℕ cfg c)

/-- Before a point where the proof data owes nothing and bounds the recorded pairs by everything, a core that owes
    nothing, whatever set its waits recorded, holds what the pipeline asks of it. -/
theorem owesAt_of_nothing (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩
  iexists W
  isplitr
  · ipureintro
    intro p _
    exact Or.inl (hrec ▸ Set.mem_univ p)
  iexact HO

/-- Conversely the bound on the recorded set is forgotten. -/
theorem nothing_of_owesAt (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

end Owing

variable (m : (ℓ : Loc nD τ sig) → Buf (Elt F) ℓ) (ρ : Dev nD → PrngReg)

/-! ## What the buffers hold around the regions -/

/-- What region 0 finds in the core's buffers: the contents after the last host stretch before it, read at the
    TensorCore's references. -/
abbrev Vin0 : (c : Dev nD) → (b : Ref sig .tc) → Buf (Elt F) ((c : Thread nD τ).loc b) := fun c b => Gen.V9 m c b

/-- The core's buffers when region 0 is left: each of its arrays at what the pipeline has written back after the last
    point (an input as found), every other buffer as found. -/
def W10 (c : Dev nD) : Valuation τ sig (Elt F) :=
  Pipeline.withArrays spec0 c (Gen.V9 m c) fun w => (dat0 (Vin0 m) c).arrAt w cfg0.N

/-- The unknowns with region 0's answer at every index: enough to name what region 1 finds. -/
def outs0 : Gen.Outs (F := F) := fun _ r c => W10 m c r

/-- What region 1 finds in the core's buffers: region 0's entry contents with its output array at what it left. -/
abbrev Vin1 : (c : Dev nD) → (b : Ref sig .tc) → Buf (Elt F) ((c : Thread nD τ).loc b) := fun c b => Gen.V10 m (outs0 m) c b

/-- The core's buffers when region 1 is left. -/
def W11 (c : Dev nD) : Valuation τ sig (Elt F) :=
  Pipeline.withArrays spec1 c (Gen.V10 m (outs0 m) c) fun w => (dat1 (Vin1 m) c).arrAt w cfg1.N

/-- The unknowns of the conditional frame, named: after region 0 its exit contents, after region 1 its. -/
def outs : Gen.Outs (F := F) := fun J r c =>
  match J with
  | 10 => W10 m c r
  | _ => W11 m c r

/-- Region 0 leaves its output array at what its pipeline wrote back. -/
theorem outs_10 (c : Dev nD) : outs m 10 main_v12 c = (dat0 (Vin0 m) c).arrAt 3 cfg0.N := by
  show W10 m c main_v12 = _
  unfold W10
  exact Pipeline.withArrays_arr spec0 launch0.win.arr_inj c _ _ 3

/-- Region 1 leaves its output array at what its pipeline wrote back. -/
theorem outs_11 (c : Dev nD) : outs m 11 main_v13 c = (dat1 (Vin1 m) c).arrAt 2 cfg1.N := by
  show W11 m c main_v13 = _
  unfold W11
  exact Pipeline.withArrays_arr spec1 launch1.win.arr_inj c _ _ 2

/-- The contents after region 0 read the unknowns at region 0's index only. -/
theorem V10_outs (c : Dev nD) : Gen.V10 m (outs m) c = Gen.V10 m (outs0 m) c := rfl

/-- The contents after each region, read at the TensorCore's references. -/
abbrev Vout0 : (c : Dev nD) → (b : Ref sig .tc) → Buf (Elt F) ((c : Thread nD τ).loc b) := fun c b => Gen.V10 m (outs m) c b
abbrev Vout1 : (c : Dev nD) → (b : Ref sig .tc) → Buf (Elt F) ((c : Thread nD τ).loc b) := fun c b => Gen.V11 m (outs m) c b

/-- After region 0 each of its arrays holds what the pipeline leaves there: the three inputs (source words, edge values,
    features) are not the array the region may change and the pipeline leaves an input as found; the output is the
    array updated. -/
theorem exit0_arr (c : Dev nD) : ∀ w : Fin cfg0.W, (dat0 (Vin0 m) c).arrAt w cfg0.N = Vout0 m c (Pipeline.arrRef spec0 w)
  | ⟨0, _⟩ => (((dat0 (Vin0 m) c).arrAt_in 0 rfl _).trans (A_eq0 (Vin0 m) c 0)).trans (Gen.V10_of m (outs m) c main_v9 (by decide)).symm
  | ⟨1, _⟩ => (((dat0 (Vin0 m) c).arrAt_in 1 rfl _).trans (A_eq0 (Vin0 m) c 1)).trans (Gen.V10_of m (outs m) c main_v11 (by decide)).symm
  | ⟨2, _⟩ => (((dat0 (Vin0 m) c).arrAt_in 2 rfl _).trans (A_eq0 (Vin0 m) c 2)).trans (Gen.V10_of m (outs m) c main_v8 (by decide)).symm
  | ⟨3, _⟩ => by
      show _ = Function.update (Gen.V9 m c) (Proc.devRef .tc main_v12 : DevRef τ sig) (outs m 10 main_v12 c) (Proc.devRef .tc main_v12 : DevRef τ sig)
      rw [Function.update_self]
      exact (outs_10 m c).symm
  | ⟨_ + 4, h⟩ => absurd h (Nat.not_lt.2 (Nat.le_add_left _ _))

/-- Off region 0's arrays nothing changed. -/
theorem exit0_rest (c : Dev nD) : ∀ b, b ∉ Finset.univ.image (Pipeline.arrRef spec0) → Vout0 m c b = Vin0 m c b :=
  fun b hb => Gen.V10_of m (outs m) c b fun h =>
    hb (Finset.mem_image.mpr ⟨3, Finset.mem_univ _, (List.mem_singleton.mp h).symm⟩)

/-- After region 1 each of its arrays holds what the pipeline leaves there. -/
theorem exit1_arr (c : Dev nD) : ∀ w : Fin cfg1.W, (dat1 (Vin1 m) c).arrAt w cfg1.N = Vout1 m c (Pipeline.arrRef spec1 w)
  | ⟨0, _⟩ => (((dat1 (Vin1 m) c).arrAt_in 0 rfl _).trans (A_eq1 (Vin1 m) c 0)).trans (Gen.V11_of m (outs m) c main_v10 (by decide)).symm
  | ⟨1, _⟩ => (((dat1 (Vin1 m) c).arrAt_in 1 rfl _).trans (A_eq1 (Vin1 m) c 1)).trans (Gen.V11_of m (outs m) c main_v12 (by decide)).symm
  | ⟨2, _⟩ => by
      show _ = Function.update (Gen.V10 m (outs m) c) (Proc.devRef .tc main_v13 : DevRef τ sig) (outs m 11 main_v13 c) (Proc.devRef .tc main_v13 : DevRef τ sig)
      rw [Function.update_self]
      exact (outs_11 m c).symm
  | ⟨_ + 3, h⟩ => absurd h (Nat.not_lt.2 (Nat.le_add_left _ _))

/-- Off region 1's arrays nothing changed. -/
theorem exit1_rest (c : Dev nD) : ∀ b, b ∉ Finset.univ.image (Pipeline.arrRef spec1) → Vout1 m c b = Vin1 m c b :=
  fun b hb => Gen.V11_of m (outs m) c b fun h =>
    hb (Finset.mem_image.mpr ⟨2, Finset.mem_univ _, (List.mem_singleton.mp h).symm⟩)

/-! ## The proof data family, the algebra, the rest state -/

/-- Each pipeline's proof data at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- No pair of cores is assigned a level: no core owes another anything. -/
abbrev noPairs : GSem nD τ sig → Finset Unit := fun _ => ∅
abbrev noLv : GSem nD τ sig → Unit → ℕ := fun _ _ => 0

/-- What a core holds beside its unscoped buffers between any two items: its generator register at some state, and
    nothing owed. -/
abbrev restState (c : Dev nD) : sProp 𝕄 :=
  iprop((∃ r, prngReg c r) ∗ ∃ W, owes (c : Thread nD τ) (0 : CellTallies nD τ sig Unit) W)

/-- The class invariant from its two parts, the (absent) prefetched tables dropped. -/
theorem PhiA_of_parts {gr W : ℕ} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hg, -, Hs⟩
  isplitl [Hs]
  · iexact Hs
  iexact Hg

/-- The class invariant into its two parts, beside no semaphore of the kernel's own. -/
theorem parts_of_PhiA {gr W : ℕ} (win : Fin W → Pipeline.WinSpec sig gr) (c : Dev nD) :
    (Pipeline.ΦA win c : sProp 𝕄) ⊢ iprop((∃ r, prngReg c r) ∗ Pipeline.ownSems0 (fun k : PEmpty => k.elim) c ∗ Pipeline.scopedRest win c) := by
  rw [Pipeline.ownSems0_none]
  unfold Pipeline.ΦA
  iintro ⟨Hs, Hg⟩
  isplitl [Hg]
  · iexact Hg
  isplitr
  · iempintro
  iexact Hs

/-! ## The regions as segment records -/

set_option backward.isDefEq.respectTransparency.types false in
/-- Region 0 (the gather), entered from the unscoped buffers at the contents after the ninth host stretch and left at
    those contents with its output array updated. -/
def reg0 : Pipeline.RegionSeg (pcfgs (F := F)) adm (pdats m) () defs₀ Variants.none noPairs noLv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ noPairs noLv 0 fun _ _ => rfl
  pre c := iprop(StableHlo.held (c : Thread nD τ) (Pipeline.ucRefs τ sig) (Gen.V9 m c) ∗ restState c)
  post c := iprop(StableHlo.held (c : Thread nD τ) (Pipeline.ucRefs τ sig) (Gen.V10 m (outs m) c) ∗ restState c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    -- the arrays out of the unscoped buffers; the rest state sorted into the register and the core's dues
    have hsplit : (StableHlo.held (c : Thread nD τ) (Pipeline.ucRefs τ sig) (Gen.V9 m c) : sProp 𝕄)
        ⊢ iprop((pdats m 0 c).arrays ((pdats m 0 c).arrAt · 0)
            ∗ Pipeline.unscopedRest (Ix := Unit) (Name := ℕ) (U := UR sig nD τ) (Lvl := ℕ) spec0 c (Vin0 m c)) := by
      have h := Pipeline.arrays_of_unscopedBufs (p := 0) (pcfgs (F := F)) adm (pdats m) launch0.win launch0.arr_whole c
        ((pdats m 0 c).share_full fun _ => rfl) (Vin0 m c) fun _ => rfl
      rw [Pipeline.unscopedBufs_held] at h
      exact h
    have howe := owesAt_of_nothing (pdats m 0 c) 0 rfl rfl
    iintro ⟨⟨Hbufs, Hg, Ho⟩, -, -⟩
    ihave Hsp := hsplit $$ Hbufs
    icases Hsp with ⟨Harr, Hrest⟩
    imodintro
    isplitl [Harr]
    · iexact Harr
    isplitr
    · unfold Pipeline.prefHeld
      rw [show (Finset.univ : Finset (Fin 0)) = ∅ from rfl, BI.bigSep_empty]
      iempintro
    isplitl [Ho]
    · iapply howe
      iexact Ho
    isplitl [Hg]
    · iexact Hg
    iexact Hrest
  hin c := (PhiA_of_parts spec0 c _).trans (hin0 (Vin0 m) c)
  hout c := (hout0 (Vin0 m) c).trans (parts_of_PhiA spec0 c)
  hexit c := by
    -- the arrays back among the unscoped buffers, at the contents updated at the output array
    have hjoin : iprop((pdats m 0 c).arrays ((pdats m 0 c).arrAt · cfg0.N)
          ∗ Pipeline.unscopedRest (Ix := Unit) (Name := ℕ) (U := UR sig nD τ) (Lvl := ℕ) spec0 c (Vin0 m c))
        ⊢ (StableHlo.held (c : Thread nD τ) (Pipeline.ucRefs τ sig) (Gen.V10 m (outs m) c) : sProp 𝕄) := by
      have h := Pipeline.unscopedBufs_of_arrays (p := 0) (pcfgs (F := F)) adm (Ix := Unit) (Name := ℕ) (U := UR sig nD τ) (Lvl := ℕ)
        launch0.win launch0.arr_whole c (pdats m) ((pdats m 0 c).share_full fun _ => rfl)
        (Vin0 m c) (Vout0 m c) ((pdats m 0 c).arrAt · cfg0.N) (exit0_arr m c) (exit0_rest m c)
      rw [Pipeline.unscopedBufs_held] at h
      exact h
    have howe := nothing_of_owesAt (pdats m 0 c) (Fin.last cfg0.N) rfl
    iintro ⟨Harr, Ho, Hg, Hrest⟩
    imodintro
    isplitl [Harr Hrest]
    · iapply hjoin
      isplitl [Harr]
      · iexact Harr
      iexact Hrest
    isplitl [Hg]
    · iexact Hg
    iapply howe
    iexact Ho

set_option backward.isDefEq.respectTransparency.types false in
/-- Region 1 (the scatter), entered from the contents region 0 left and left at those with its output array updated. -/
def reg1 : Pipeline.RegionSeg (pcfgs (F := F)) adm (pdats m) () defs₀ Variants.none noPairs noLv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ noPairs noLv 1 fun _ _ => rfl
  pre c := iprop(StableHlo.held (c : Thread nD τ) (Pipeline.ucRefs τ sig) (Gen.V10 m (outs m) c) ∗ restState c)
  post c := iprop(StableHlo.held (c : Thread nD τ) (Pipeline.ucRefs τ sig) (Gen.V11 m (outs m) c) ∗ restState c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    have hsplit : (StableHlo.held (c : Thread nD τ) (Pipeline.ucRefs τ sig) (Gen.V10 m (outs m) c) : sProp 𝕄)
        ⊢ iprop((pdats m 1 c).arrays ((pdats m 1 c).arrAt · 0)
            ∗ Pipeline.unscopedRest (Ix := Unit) (Name := ℕ) (U := UR sig nD τ) (Lvl := ℕ) spec1 c (Vin1 m c)) := by
      have h := Pipeline.arrays_of_unscopedBufs (p := 1) (pcfgs (F := F)) adm (pdats m) launch1.win launch1.arr_whole c
        ((pdats m 1 c).share_full fun _ => rfl) (Vin1 m c) fun _ => rfl
      rw [Pipeline.unscopedBufs_held] at h
      exact h
    have howe := owesAt_of_nothing (pdats m 1 c) 0 rfl rfl
    iintro ⟨⟨Hbufs, Hg, Ho⟩, -, -⟩
    ihave Hsp := hsplit $$ Hbufs
    icases Hsp with ⟨Harr, Hrest⟩
    imodintro
    isplitl [Harr]
    · iexact Harr
    isplitr
    · unfold Pipeline.prefHeld
      rw [show (Finset.univ : Finset (Fin 0)) = ∅ from rfl, BI.bigSep_empty]
      iempintro
    isplitl [Ho]
    · iapply howe
      iexact Ho
    isplitl [Hg]
    · iexact Hg
    iexact Hrest
  hin c := (PhiA_of_parts spec1 c _).trans (hin1 (Vin1 m) c)
  hout c := (hout1 (Vin1 m) c).trans (parts_of_PhiA spec1 c)
  hexit c := by
    have hjoin : iprop((pdats m 1 c).arrays ((pdats m 1 c).arrAt · cfg1.N)
          ∗ Pipeline.unscopedRest (Ix := Unit) (Name := ℕ) (U := UR sig nD τ) (Lvl := ℕ) spec1 c (Vin1 m c))
        ⊢ (StableHlo.held (c : Thread nD τ) (Pipeline.ucRefs τ sig) (Gen.V11 m (outs m) c) : sProp 𝕄) := by
      have h := Pipeline.unscopedBufs_of_arrays (p := 1) (pcfgs (F := F)) adm (Ix := Unit) (Name := ℕ) (U := UR sig nD τ) (Lvl := ℕ)
        launch1.win launch1.arr_whole c (pdats m) ((pdats m 1 c).share_full fun _ => rfl)
        (Vin1 m c) (Vout1 m c) ((pdats m 1 c).arrAt · cfg1.N) (exit1_arr m c) (exit1_rest m c)
      rw [Pipeline.unscopedBufs_held] at h
      exact h
    have howe := nothing_of_owesAt (pdats m 1 c) (Fin.last cfg1.N) rfl
    iintro ⟨Harr, Ho, Hg, Hrest⟩
    imodintro
    isplitl [Harr Hrest]
    · iapply hjoin
      isplitl [Harr]
      · iexact Harr
      iexact Hrest
    isplitl [Hg]
    · iexact Hg
    iapply howe
    iexact Ho

/-! ## The launch -/

/-- The launch element is the pipelines' own; no ghost resource beside it. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [ownU_emb₁, BI.bigSep_emp_const]
  iintro Hu
  imodintro
  isplitl [Hu]
  · iexact Hu
  iempintro

/-- Every core makes its rest state from what the launch deals it: its generator register, and its dues, none. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs noLv)
      ⊢ (|={Set.univ}=> bigSep Finset.univ (restState (F := F)) : sProp 𝕄) := by
  refine Pipeline.initEach noPairs noLv fun c => ?_
  iintro ⟨⟨-, Ho, -, Hg, -⟩, -⟩
  imodintro
  isplitl [Hg]
  · iexists _
    iexact Hg
  iexists ∅
  iexact Ho

set_option backward.isDefEq.respectTransparency.types false in
/-- THE FRAME: from any memory with zero counters every weakly fair execution of @main on the TensorCores terminates and
    every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond (m := m) (EP := emb₁) (ι := ()) (𝒱₀ := Variants.none) (L := noPairs) (lv := noLv) (hL := fun _ _ => rfl)
    (ρ := ρ) (outs := outs m) (pdats := pdats m) (O₀ := 0) (G := fun _ => iprop(emp))
    (u₀ := initOf (Pipeline.cells cfgs cellOf_inj) (Pipeline.launchToks cfgs cellOf_inj)) (hu₀ := launch_elem)
    (E := fun _ c => restState c) (hE0 := launch_rest ρ)
    (hE2 := fun c => by
      iintro ⟨-, Ho⟩
      iexact Ho)
    (R0 := reg0 m) (hpre0 := fun _ => .rfl) (hpost0 := fun _ => .rfl)
    (R1 := reg1 m) (hpre1 := fun _ => .rfl) (hpost1 := fun _ => .rfl)

end Cert.KernelIdeal.Hand

end
-- ==== Proof.KI.RunValue.lean ====
/-
  The run with the result named: beside every argument array ending as launched, every final memory holds in the result
  buffer what the last host stretch computes from what region 1 left. The hypotheses are the frame's, word for word: the
  same algebra, rest state, proof data and segment records; only the conclusion reads one more buffer off the last
  thread state.
-/
import proofs.«430482_j26018911879781_1_alg».proof.Proof.KI.Run
import proofs.«430482_j26018911879781_1_alg».proof.Proof.KI.RegionsValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- THE RUN, WITH THE RESULT NAMED: from any memory with zero counters every weakly fair execution of @main on the
    TensorCores terminates, and on every core every final memory holds in the result buffer the last valuation's contents
    there, at the regions' named results, and each argument array as launched. -/
theorem run_value : θ_run defs (onTc (τ := τ) (main (F := F))) ⟨m, fun _ => 0, ρ⟩ (fun r => ∀ c : Dev nD,
      r.2.mem ((c.tc : Thread nD τ).loc main_v19) = Gen.V12 m (outs m) c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond_value (m := m) (EP := emb₁) (ι := ()) (𝒱₀ := Variants.none) (L := noPairs) (lv := noLv) (hL := fun _ _ => rfl)
    (ρ := ρ) (outs := outs m) (pdats := pdats m) (O₀ := 0) (G := fun _ => iprop(emp))
    (u₀ := initOf (Pipeline.cells cfgs cellOf_inj) (Pipeline.launchToks cfgs cellOf_inj)) (hu₀ := launch_elem)
    (E := fun _ c => restState c) (hE0 := launch_rest ρ)
    (hE2 := fun c => by
      iintro ⟨-, Ho⟩
      iexact Ho)
    (R0 := reg0 m) (hpre0 := fun _ => .rfl) (hpost0 := fun _ => .rfl)
    (R1 := reg1 m) (hpre1 := fun _ => .rfl) (hpost1 := fun _ => .rfl)

end Cert.KernelIdeal.Hand

end
-- ==== Proof.Spec.lean ====
/-
  The function both programs compute, over the extended reals.

  The inputs are node features x[b, n, 0] (16 × 50000 × 1), one weight per edge v[e] (1600000), a bias per output node
  bias[m, 0] (50000 × 1) and two rows of edge end points idx[0, e] (source) and idx[1, e] (destination), 32-bit words.
  Output entry (b, m, 0) is

      (Σ over the edges e whose destination word, read signed, is m)  x[b, source e, 0] · v[e]   +   bias[m, 0].

  The source word is read as a natural number; the statement's precondition keeps it below 50000, and the total
  definition here reduces it modulo 50000 only so that it is an index whatever the word is.

  The two elementary facts about a 0/1 selector used everywhere below: a sum of y(n) · [n = a] over all n is y(a), and a
  sum of y(e) · [P e] is the sum of y over the e with P e. Both hold on the extended reals for every y, infinite values
  included, because y · 0 = 0 and y · 1 = y there.
-/
import Idealize.ShloMosaic.PureOps.Ideal
import Idealize.ShloMosaic.Lib.ValueIdx
import Mathlib.Data.EReal.Operations
import Mathlib.Algebra.BigOperators.Group.Finset.Basic

open Idealize.ShloMosaic Idealize.ShloMosaic.ValueIdx
open scoped BigOperators

noncomputable section

namespace Cert.Spec

abbrev SX : Shape := ⟨3, ![16, 50000, 1]⟩
abbrev SVal : Shape := ⟨1, ![1600000]⟩
abbrev SBias : Shape := ⟨2, ![50000, 1]⟩
abbrev SIdx : Shape := ⟨2, ![2, 1600000]⟩

/-- The source node of edge `e`: its source word as a natural number (reduced modulo 50000 to be an index for every word). -/
def srcOf (idx : IVec SIdx 32) (e : Fin 1600000) : Fin 50000 :=
  ⟨(idx (ix2 (0 : Fin 2) e)).toNat % 50000, Nat.mod_lt _ (by decide)⟩

/-- Whether edge `e` ends at output node `m`: its destination word, read signed, is m. -/
def endsAt (idx : IVec SIdx 32) (m : Fin 50000) (e : Fin 1600000) : Prop :=
  (idx (ix2 (1 : Fin 2) e)).toInt = (m.val : Int)

instance (idx : IVec SIdx 32) (m : Fin 50000) : DecidablePred (endsAt idx m) := fun _ => by unfold endsAt; infer_instance

/-- Output entry (b, m, 0). -/
def Gval (x : FVec Ideal SX .f32) (v : FVec Ideal SVal .f32) (bias : FVec Ideal SBias .f32) (idx : IVec SIdx 32)
    (b : Fin 16) (m : Fin 50000) : EReal :=
  (∑ e ∈ Finset.univ.filter (endsAt idx m), (x (ix3 b (srcOf idx e) (0 : Fin 1)) : EReal) * (v (ix1 e) : EReal))
    + (bias (ix2 m (0 : Fin 1)) : EReal)

/-- The output array. -/
def G (x : FVec Ideal SX .f32) (v : FVec Ideal SVal .f32) (bias : FVec Ideal SBias .f32) (idx : IVec SIdx 32) :
    FVec Ideal SX .f32 :=
  fun j => Gval x v bias idx (j 0) (j 1)

/-- Selecting one term: the sum of y(n) · [n = a] over all n is y(a), for extended-real y. -/
theorem sum_mul_indicator_eq {ι : Type} [Fintype ι] [DecidableEq ι] (y : ι → EReal) (a : ι) :
    ∑ n : ι, y n * (if n = a then (1 : EReal) else 0) = y a := by
  rw [Finset.sum_eq_single a]
  · rw [if_pos rfl, mul_one]
  · intro n _ hn; rw [if_neg hn, mul_zero]
  · intro h; exact absurd (Finset.mem_univ a) h

/-- Selecting a subset: the sum of y(e) · [P e] over all e is the sum of y over the e with P e. -/
theorem sum_mul_indicator_filter {ι : Type} [Fintype ι] (P : ι → Prop) [DecidablePred P] (y : ι → EReal) :
    ∑ e : ι, y e * (if P e then (1 : EReal) else 0) = ∑ e ∈ Finset.univ.filter P, y e := by
  rw [Finset.sum_filter]
  refine Finset.sum_congr rfl fun e _ => ?_
  by_cases h : P e
  · rw [if_pos h, if_pos h, mul_one]
  · rw [if_neg h, if_neg h, mul_zero]

end Cert.Spec

end
-- ==== Proof.SpecK.lean ====
/-
  The kernel's route to the same function, as pure whole-array functions over the extended reals.

  The kernel pads the two index rows and the edge values to 1601536 = 782 · 2048 entries (index 0, value 0) and the features
  to 51200 = 25 · 2048 columns (value 0). Its first call produces the message array

      msg[b, e] = (Σ over n < 51200 of xp[b, n] · [word n = source word e]) · value e,

  a one-hot selection of the source node's feature, and its second the scattered array

      out[b, m] = Σ over e < 1601536 of msg[b, e] · [word m = destination word e],

  of which the first 50000 columns plus the bias are the result. `kernelFn` composes them; that it is the specification's
  `G` when every source word is below 50000 is the arithmetic of the two selectors (the padded edges carry value 0 and so
  contribute 0; a source word below 50000 selects exactly its own column; word m equals the destination word exactly when
  that word read signed is m, m being below 2³¹).
-/
import proofs.«430482_j26018911879781_1_alg».proof.Proof.Spec

open Idealize.ShloMosaic Idealize.ShloMosaic.ValueIdx
open scoped BigOperators

noncomputable section

namespace Cert.Spec

abbrev SE2 : Shape := ⟨2, ![1, 1601536]⟩
abbrev SXP : Shape := ⟨2, ![16, 51200]⟩
abbrev SMsg : Shape := ⟨2, ![16, 1601536]⟩

/-- Node or column number n as a 32-bit word. -/
def nodeWord (n : ℕ) : BitVec 32 := BitVec.ofNat 32 n

/-- Row `row` of the index pairs, padded with the zero word to 1601536 entries, as a 1 × 1601536 array. -/
def padIdx (idx : IVec SIdx 32) (row : Fin 2) : IVec SE2 32 :=
  fun j => if h : (j 1).val < 1600000 then idx (ix2 row ⟨(j 1).val, h⟩) else 0#32

/-- The edge values padded with 0 to 1601536 entries, as a 1 × 1601536 array. -/
def padVal (v : FVec Ideal SVal .f32) : FVec Ideal SE2 .f32 :=
  fun j => if h : (j 1).val < 1600000 then v (ix1 ⟨(j 1).val, h⟩) else (0 : EReal)

/-- The features x[b, n, 0] padded with 0 to 51200 columns, as a 16 × 51200 array. -/
def padX (x : FVec Ideal SX .f32) : FVec Ideal SXP .f32 :=
  fun j => if h : (j 1).val < 50000 then x (ix3 (j 0) ⟨(j 1).val, h⟩ (0 : Fin 1)) else (0 : EReal)

/-- The message array of the first call. -/
def msgArr (src2 : IVec SE2 32) (vals2 : FVec Ideal SE2 .f32) (xp : FVec Ideal SXP .f32) : FVec Ideal SMsg .f32 :=
  fun j => (∑ n : Fin 51200, (xp (ix2 (j 0) n) : EReal) * (if nodeWord n.val = src2 (ix2 (0 : Fin 1) (j 1)) then (1 : EReal) else 0))
    * (vals2 (ix2 (0 : Fin 1) (j 1)) : EReal)

/-- The scattered array of the second call. -/
def outArr (dst2 : IVec SE2 32) (msg : FVec Ideal SMsg .f32) : FVec Ideal SXP .f32 :=
  fun j => ∑ e : Fin 1601536, (msg (ix2 (j 0) e) : EReal) * (if nodeWord (j 1).val = dst2 (ix2 (0 : Fin 1) e) then (1 : EReal) else 0)

/-- Column m < 50000 as a column of the padded array. -/
def colOf (m : Fin 50000) : Fin 51200 := ⟨m.val, by omega⟩

/-- The kernel's result as one function of the arguments. -/
def kernelFn (x : FVec Ideal SX .f32) (v : FVec Ideal SVal .f32) (bias : FVec Ideal SBias .f32) (idx : IVec SIdx 32) :
    FVec Ideal SX .f32 :=
  fun j => (outArr (padIdx idx 1) (msgArr (padIdx idx 0) (padVal v) (padX x)) (ix2 (j 0) (colOf (j 1))) : EReal)
    + (bias (ix2 (j 1) (0 : Fin 1)) : EReal)

end Cert.Spec

end
-- ==== Proof.LibBlockSum.lean ====
/-
  A sum over n·b terms taken block by block, and an accumulator that adds one block's sum per step.

  Position t·b + r is the r-th term of block t. Over a commutative monoid the sum of all n·b terms is the sum over the
  blocks of each block's sum: this is only a re-indexing of the positions by (block, place in block). An accumulator
  that holds 0 + g 0 after step 0 and adds g (k+1) at step k+1 holds g 0 + … + g k after step k; with g t the sum of
  block t, after the last step it holds the sum of all terms.
-/
import Mathlib.Algebra.BigOperators.Fin
import Mathlib.Logic.Equiv.Fin.Basic

namespace Cert.BlockSum

open scoped BigOperators

variable {M : Type*} [AddCommMonoid M]

/-- Among `N = n * b` positions, the one of block `t` at place `r`: `t * b + r`. -/
def pos {N : ℕ} (n b : ℕ) (h : N = n * b) (t : Fin n) (r : Fin b) : Fin N :=
  ⟨t.val * b + r.val, by
    subst h
    calc t.val * b + r.val < t.val * b + b := Nat.add_lt_add_left r.isLt _
      _ = (t.val + 1) * b := (Nat.succ_mul _ _).symm
      _ ≤ n * b := Nat.mul_le_mul_right _ t.isLt⟩

@[simp] theorem pos_val {N : ℕ} (n b : ℕ) (h : N = n * b) (t : Fin n) (r : Fin b) :
    (pos n b h t r).val = t.val * b + r.val := rfl

/-- The sum of all terms is the sum over the blocks of each block's sum. -/
theorem sum_blocks {N : ℕ} (n b : ℕ) (h : N = n * b) (f : Fin N → M) :
    ∑ i : Fin N, f i = ∑ t : Fin n, ∑ r : Fin b, f (pos n b h t r) := by
  subst h
  rw [← Fintype.sum_prod_type']
  refine (Fintype.sum_equiv finProdFinEquiv _ _ fun x => ?_).symm
  congr 1
  apply Fin.ext
  show x.1.val * b + x.2.val = x.2.val + b * x.1.val
  rw [Nat.mul_comm, Nat.add_comm]

/-- An accumulator that holds `0 + g 0` after step 0 and adds `g (k + 1)` at step `k + 1` holds, after step `k`,
    the sum of `g 0, …, g k`. -/
theorem chain_eq_sum (N : ℕ) (a g : (k : ℕ) → k < N → M)
    (h0 : ∀ h, a 0 h = 0 + g 0 h)
    (hs : ∀ (k : ℕ) (h : k + 1 < N), a (k + 1) h = a k (Nat.lt_of_succ_lt h) + g (k + 1) h) :
    ∀ (k : ℕ) (h : k < N), a k h = ∑ t : Fin (k + 1), g t.val (Nat.lt_of_lt_of_le t.isLt h)
  | 0, h => by
    rw [h0, zero_add, Fin.sum_univ_castSucc, Fin.sum_univ_zero, zero_add]
    rfl
  | k + 1, h => by
    rw [hs, chain_eq_sum N a g h0 hs k, Fin.sum_univ_castSucc (n := k + 1)]
    rfl

/-- After its last step the accumulator holds the sum of all the `g t`. -/
theorem chain_last (n : ℕ) (a g : (k : ℕ) → k < n + 1 → M)
    (h0 : ∀ h, a 0 h = 0 + g 0 h)
    (hs : ∀ (k : ℕ) (h : k + 1 < n + 1), a (k + 1) h = a k (Nat.lt_of_succ_lt h) + g (k + 1) h) :
    a n (Nat.lt_succ_self n) = ∑ t : Fin (n + 1), g t.val t.isLt :=
  chain_eq_sum (n + 1) a g h0 hs n (Nat.lt_succ_self n)

/-- An accumulator that adds block `t`'s sum at step `t`, starting from `0`, holds after the last of the `n + 1`
    steps the sum of all `(n + 1) * b` terms. -/
theorem chain_blocks_eq_sum {N : ℕ} (n b : ℕ) (hN : N = (n + 1) * b) (f : Fin N → M)
    (a : (k : ℕ) → k < n + 1 → M)
    (h0 : ∀ h, a 0 h = 0 + ∑ r : Fin b, f (pos (n + 1) b hN ⟨0, h⟩ r))
    (hs : ∀ (k : ℕ) (h : k + 1 < n + 1),
      a (k + 1) h = a k (Nat.lt_of_succ_lt h) + ∑ r : Fin b, f (pos (n + 1) b hN ⟨k + 1, h⟩ r)) :
    a n (Nat.lt_succ_self n) = ∑ i : Fin N, f i := by
  rw [sum_blocks (n + 1) b hN f]
  exact chain_last n a (fun k hk => ∑ r : Fin b, f (pos (n + 1) b hN ⟨k, hk⟩ r)) h0 hs

end Cert.BlockSum
-- ==== Proof.Pay.lean ====
/-
  The two kernel bodies' stored values, read entry by entry over the extended reals.

  Each body keeps a 16 × 2048 accumulator. It is reset to zero at the first inner grid point; at every point it gains the
  matrix product of a 16 × 2048 block with a 2048 × 2048 matrix of zeros and ones, whose entry (r, k) is one exactly when
  the 32-bit word of row r of the current tile, tile · 2048 + r, equals the k-th word of the block of edge end points.
  The first body contracts the block's columns with the matrix's rows; the second contracts the block's columns with the
  matrix's columns. At its last inner point the first body multiplies the accumulator, column by column, by a row of
  weights.

  Over the extended reals every format change is the identity and a sum has no order, so each of these values is, at entry
  (b, k), a plain finite sum; the statements below say which.
-/
import proofs.«430482_j26018911879781_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The word of row r of tile nt: nt*2048 + r as a 32-bit word. -/
def rowWord (nt : ℕ) (r : Fin 2048) : BitVec 32 := BitVec.ofNat 32 (nt * 2048 + r.val)

/-! ## Words -/

/-- The row's position inside the tile plus the tile's first row, added as words, is the row's word. -/
theorem addi_muli_eq_rowWord (nt : ℕ) (r : Fin 2048) :
    IntOp.addi (BitVec.ofNat 32 r.val) (Scalar.muli (BitVec.ofNat 32 nt) 2048#32) = rowWord nt r := by
  show BitVec.ofNat 32 r.val + BitVec.ofNat 32 nt * BitVec.ofNat 32 2048 = BitVec.ofNat 32 (nt * 2048 + r.val)
  rw [Nat.add_comm, BitVec.ofNat_add, BitVec.ofNat_mul]

/-- An equality test of two words, widened to 32 bits and converted as a signed integer, is 1 or 0. -/
theorem sitofp_cmpi_eq (x y : BitVec 32) :
    (FloatOps.sitofp (F := Ideal) .f32 ((IntOp.cmpi .eq x y).setWidth 32) : EReal) = if x = y then (1 : EReal) else 0 := by
  show ((((BitVec.ofBool (x == y)).setWidth 32).toInt : ℝ) : EReal) = _
  by_cases h : x = y
  · rw [if_pos h, beq_iff_eq.mpr h]
    show (((1 : ℤ) : ℝ) : EReal) = 1
    simp
  · rw [if_neg h, beq_eq_false_iff_ne.mpr h]
    show (((0 : ℤ) : ℝ) : EReal) = 0
    simp

/-! ## Layout -/

/-- A column broadcast across a square matrix reads, at (r, k), the column's entry r. -/
theorem broadcastTo_col_apply (c : IVec S2048x1 32) (r k : Fin 2048) :
    broadcastTo S2048x2048 c broadcasts_S2048x1_S2048x2048 (ix2 r k) = c (ix2 r (0 : Fin 1)) := by
  refine broadcastTo_apply c _ (ix2 r k) (ix2 r (0 : Fin 1)) fun a => ?_
  match a with
  | ⟨0, _⟩ => rfl
  | ⟨1, _⟩ => rfl

/-- The column of row words of tile nt: position in the tile plus the tile's first row. -/
theorem rows_apply (nt : ℕ) (r : Fin 2048) :
    addi (iota .tc S2048x1 32 [0] iota_S2048x1_d0_w32) (broadcast S2048x1 (Scalar.muli (BitVec.ofNat 32 nt) 2048#32))
        (ix2 r (0 : Fin 1)) = rowWord nt r := by
  show IntOp.addi (iota .tc S2048x1 32 [0] iota_S2048x1_d0_w32 (ix2 r (0 : Fin 1))) (Scalar.muli (BitVec.ofNat 32 nt) 2048#32) = _
  rw [iota_single_apply]
  exact addi_muli_eq_rowWord nt r

/-! ## The matrix of zeros and ones -/

/-- The matrix both bodies build from the tile number and the block of end-point words. -/
def sel (nt : ℕ) (v7 : Vec Ideal S1x2048 .i32) : FVec Ideal S2048x2048 .bf16 :=
  truncf .bf16 (sitofp .f32 (extui 32 (cmpi .eq
    (broadcastTo S2048x2048
      (addi (iota .tc S2048x1 32 [0] iota_S2048x1_d0_w32) (broadcast S2048x1 (Scalar.muli (BitVec.ofNat 32 nt) 2048#32)))
      broadcasts_S2048x1_S2048x2048)
    (broadcastTo S2048x2048 (shapeCast S1x2048 v7 shapeCasts_S1x2048_S1x2048) broadcasts_S1x2048_S2048x2048))
    natLt_1_32)) bitsLt_bf16_f32

/-- Its entry (r, k) is one when row r's word is the k-th end-point word, else zero. -/
theorem sel_apply (nt : ℕ) (v7 : Vec Ideal S1x2048 .i32) (r k : Fin 2048) :
    (sel nt v7 (ix2 r k) : EReal) = if rowWord nt r = v7 (ix2 (0 : Fin 1) k) then (1 : EReal) else 0 := by
  show (FloatOps.sitofp (F := Ideal) .f32 ((IntOp.cmpi .eq
      (broadcastTo S2048x2048
        (addi (iota .tc S2048x1 32 [0] iota_S2048x1_d0_w32) (broadcast S2048x1 (Scalar.muli (BitVec.ofNat 32 nt) 2048#32)))
        broadcasts_S2048x1_S2048x2048 (ix2 r k))
      (broadcastTo S2048x2048 (shapeCast S1x2048 v7 shapeCasts_S1x2048_S1x2048) broadcasts_S1x2048_S2048x2048 (ix2 r k))).setWidth 32) : EReal) = _
  rw [broadcastTo_col_apply, rows_apply, broadcastTo_1b_ab_apply, shapeCast_self, sitofp_cmpi_eq]

/-! ## The two matrix products

Each contracts one axis of length 2048. For each product: the coordinates of the two operands' indices at an output index
and a contraction position, then the product's entry as a sum over the 2048 positions. -/

theorem lhs0_0 (i : S16x2048.Idx) (q : dot_S16x2048_S2048x2048_S16x2048_1_0_0_1_n_n.contr.Idx) :
    (dot_S16x2048_S2048x2048_S16x2048_1_0_0_1_n_n.lhsIdx i q 0).val = (i 0).val := by
  unfold DotDims.lhsIdx
  rw [dif_neg (show ¬(0 : Fin S16x2048.rank) ∈ dot_S16x2048_S2048x2048_S16x2048_1_0_0_1_n_n.lhsBatch by decide),
    dif_pos (show (0 : Fin S16x2048.rank) ∈ dot_S16x2048_S2048x2048_S16x2048_1_0_0_1_n_n.lhsNonContracting by decide)]
  rfl

theorem lhs0_1 (i : S16x2048.Idx) (q : dot_S16x2048_S2048x2048_S16x2048_1_0_0_1_n_n.contr.Idx) :
    (dot_S16x2048_S2048x2048_S16x2048_1_0_0_1_n_n.lhsIdx i q 1).val = (q ⟨0, by decide⟩).val :=
  dot_S16x2048_S2048x2048_S16x2048_1_0_0_1_n_n.lhsIdx_val_of_single rfl i q

theorem rhs0_0 (i : S16x2048.Idx) (q : dot_S16x2048_S2048x2048_S16x2048_1_0_0_1_n_n.contr.Idx) :
    (dot_S16x2048_S2048x2048_S16x2048_1_0_0_1_n_n.rhsIdx i q 0).val = (q ⟨0, by decide⟩).val :=
  dot_S16x2048_S2048x2048_S16x2048_1_0_0_1_n_n.rhsIdx_val_of_single rfl i q

theorem rhs0_1 (i : S16x2048.Idx) (q : dot_S16x2048_S2048x2048_S16x2048_1_0_0_1_n_n.contr.Idx) :
    (dot_S16x2048_S2048x2048_S16x2048_1_0_0_1_n_n.rhsIdx i q 1).val = (i 1).val := by
  unfold DotDims.rhsIdx
  rw [dif_neg (show ¬(1 : Fin S2048x2048.rank) ∈ dot_S16x2048_S2048x2048_S16x2048_1_0_0_1_n_n.rhsBatch by decide),
    dif_pos (show (1 : Fin S2048x2048.rank) ∈ dot_S16x2048_S2048x2048_S16x2048_1_0_0_1_n_n.rhsNonContracting by decide)]
  rfl

/-- The first product, into the zero accumulator: entry (b, k) is the sum over r of x(b, r) · m(r, k). -/
theorem matmul0_apply (x : FVec Ideal S16x2048 .bf16) (m : FVec Ideal S2048x2048 .bf16) (b : Fin 16) (k : Fin 2048) :
    (matmul dot_S16x2048_S2048x2048_S16x2048_1_0_0_1_n_n none x m (constant (F := Ideal) S16x2048 .f32 0x00000000#32) (ix2 b k) : EReal)
      = ∑ r : Fin 2048, (x (ix2 b r) : EReal) * (m (ix2 r k) : EReal) := by
  simp only [matmul]
  rw [Ideal.matmul_constant_zero_apply,
    ← Equiv.sum_comp (contrEquiv1 dot_S16x2048_S2048x2048_S16x2048_1_0_0_1_n_n 2048 rfl rfl).symm]
  refine Finset.sum_congr rfl fun r _ => ?_
  have hk := contrEquiv1_symm_val dot_S16x2048_S2048x2048_S16x2048_1_0_0_1_n_n 2048 rfl rfl r
  have el : dot_S16x2048_S2048x2048_S16x2048_1_0_0_1_n_n.lhsIdx (ix2 b k)
      ((contrEquiv1 dot_S16x2048_S2048x2048_S16x2048_1_0_0_1_n_n 2048 rfl rfl).symm r) = ix2 b r :=
    funext fun a => Fin.ext (by
      match a with
      | ⟨0, _⟩ => exact lhs0_0 _ _
      | ⟨1, _⟩ => exact (lhs0_1 _ _).trans hk)
  have er : dot_S16x2048_S2048x2048_S16x2048_1_0_0_1_n_n.rhsIdx (ix2 b k)
      ((contrEquiv1 dot_S16x2048_S2048x2048_S16x2048_1_0_0_1_n_n 2048 rfl rfl).symm r) = ix2 r k :=
    funext fun a => Fin.ext (by
      match a with
      | ⟨0, _⟩ => exact (rhs0_0 _ _).trans hk
      | ⟨1, _⟩ => exact rhs0_1 _ _)
  rw [el, er]

theorem lhs1_0 (i : S16x2048.Idx) (q : dot_S16x2048_S2048x2048_S16x2048_1_1_0_0_n_n.contr.Idx) :
    (dot_S16x2048_S2048x2048_S16x2048_1_1_0_0_n_n.lhsIdx i q 0).val = (i 0).val := by
  unfold DotDims.lhsIdx
  rw [dif_neg (show ¬(0 : Fin S16x2048.rank) ∈ dot_S16x2048_S2048x2048_S16x2048_1_1_0_0_n_n.lhsBatch by decide),
    dif_pos (show (0 : Fin S16x2048.rank) ∈ dot_S16x2048_S2048x2048_S16x2048_1_1_0_0_n_n.lhsNonContracting by decide)]
  rfl

theorem lhs1_1 (i : S16x2048.Idx) (q : dot_S16x2048_S2048x2048_S16x2048_1_1_0_0_n_n.contr.Idx) :
    (dot_S16x2048_S2048x2048_S16x2048_1_1_0_0_n_n.lhsIdx i q 1).val = (q ⟨0, by decide⟩).val :=
  dot_S16x2048_S2048x2048_S16x2048_1_1_0_0_n_n.lhsIdx_val_of_single rfl i q

theorem rhs1_0 (i : S16x2048.Idx) (q : dot_S16x2048_S2048x2048_S16x2048_1_1_0_0_n_n.contr.Idx) :
    (dot_S16x2048_S2048x2048_S16x2048_1_1_0_0_n_n.rhsIdx i q 0).val = (i 1).val := by
  unfold DotDims.rhsIdx
  rw [dif_neg (show ¬(0 : Fin S2048x2048.rank) ∈ dot_S16x2048_S2048x2048_S16x2048_1_1_0_0_n_n.rhsBatch by decide),
    dif_pos (show (0 : Fin S2048x2048.rank) ∈ dot_S16x2048_S2048x2048_S16x2048_1_1_0_0_n_n.rhsNonContracting by decide)]
  rfl

theorem rhs1_1 (i : S16x2048.Idx) (q : dot_S16x2048_S2048x2048_S16x2048_1_1_0_0_n_n.contr.Idx) :
    (dot_S16x2048_S2048x2048_S16x2048_1_1_0_0_n_n.rhsIdx i q 1).val = (q ⟨0, by decide⟩).val :=
  dot_S16x2048_S2048x2048_S16x2048_1_1_0_0_n_n.rhsIdx_val_of_single rfl i q

/-- The second product, into the zero accumulator: entry (b, r) is the sum over k of x(b, k) · m(r, k). -/
theorem matmul1_apply (x : FVec Ideal S16x2048 .bf16) (m : FVec Ideal S2048x2048 .bf16) (b : Fin 16) (r : Fin 2048) :
    (matmul dot_S16x2048_S2048x2048_S16x2048_1_1_0_0_n_n none x m (constant (F := Ideal) S16x2048 .f32 0x00000000#32) (ix2 b r) : EReal)
      = ∑ k : Fin 2048, (x (ix2 b k) : EReal) * (m (ix2 r k) : EReal) := by
  simp only [matmul]
  rw [Ideal.matmul_constant_zero_apply,
    ← Equiv.sum_comp (contrEquiv1 dot_S16x2048_S2048x2048_S16x2048_1_1_0_0_n_n 2048 rfl rfl).symm]
  refine Finset.sum_congr rfl fun k _ => ?_
  have hk := contrEquiv1_symm_val dot_S16x2048_S2048x2048_S16x2048_1_1_0_0_n_n 2048 rfl rfl k
  have el : dot_S16x2048_S2048x2048_S16x2048_1_1_0_0_n_n.lhsIdx (ix2 b r)
      ((contrEquiv1 dot_S16x2048_S2048x2048_S16x2048_1_1_0_0_n_n 2048 rfl rfl).symm k) = ix2 b k :=
    funext fun a => Fin.ext (by
      match a with
      | ⟨0, _⟩ => exact lhs1_0 _ _
      | ⟨1, _⟩ => exact (lhs1_1 _ _).trans hk)
  have er : dot_S16x2048_S2048x2048_S16x2048_1_1_0_0_n_n.rhsIdx (ix2 b r)
      ((contrEquiv1 dot_S16x2048_S2048x2048_S16x2048_1_1_0_0_n_n 2048 rfl rfl).symm k) = ix2 r k :=
    funext fun a => Fin.ext (by
      match a with
      | ⟨0, _⟩ => exact rhs1_0 _ _
      | ⟨1, _⟩ => exact (rhs1_1 _ _).trans hk)
  rw [el, er]

/-! ## The stored values at an entry -/

/-- The reset value of the first body's accumulator is zero everywhere. -/
theorem k0_pay1_apply (b : Fin 16) (k : Fin 2048) : (k0_pay1 (F := Ideal) (ix2 b k) : EReal) = 0 := by
  unfold k0_pay1
  refine (congrFun (shapeCast_self _ _) (ix2 b k)).trans ?_
  exact Ideal.ofBits_zero_f32

/-- The reset value of the second body's accumulator is zero everywhere. -/
theorem k1_pay1_apply (b : Fin 16) (k : Fin 2048) : (k1_pay1 (F := Ideal) (ix2 b k) : EReal) = 0 := by
  unfold k1_pay1
  refine (congrFun (shapeCast_self _ _) (ix2 b k)).trans ?_
  exact Ideal.ofBits_zero_f32

/-- The first body's update as one term: the accumulator plus the block times the matrix of zeros and ones. -/
theorem k0_pay2_eq (i : grid0.Coords) (v7 : Vec Ideal S1x2048 .i32) (v15 v19 : Vec Ideal S16x2048 .f32) :
    k0_pay2 i v7 v15 v19 = addf v19 (matmul dot_S16x2048_S2048x2048_S16x2048_1_0_0_1_n_n none
      (truncf .bf16 v15 bitsLt_bf16_f32) (sel (i 1).val v7) (constant (F := Ideal) S16x2048 .f32 0x00000000#32)) := by
  unfold k0_pay2 sel
  simp only [shapeCast_self]

/-- The first body's update at entry (b, k): the accumulator plus the sum, over the tile's rows r whose word is the k-th
    source word, of the block's entry (b, r). -/
theorem k0_pay2_apply (i : grid0.Coords) (v7 : Vec Ideal S1x2048 .i32) (v15 v19 : Vec Ideal S16x2048 .f32) (b : Fin 16) (k : Fin 2048) :
    (k0_pay2 i v7 v15 v19 (ix2 b k) : EReal)
      = (v19 (ix2 b k) : EReal) + ∑ r : Fin 2048, (v15 (ix2 b r) : EReal) * (if rowWord (i 1).val r = v7 (ix2 (0 : Fin 1) k) then (1 : EReal) else 0) := by
  rw [k0_pay2_eq, addf_apply, matmul0_apply]
  refine congrArg (_ + ·) (Finset.sum_congr rfl fun r _ => ?_)
  rw [sel_apply, truncf_apply]

/-- The first body's last value at entry (b, k): the accumulator times the k-th weight. -/
theorem k0_pay3_apply (v27 : Vec Ideal S16x2048 .f32) (v28 : Vec Ideal S1x2048 .f32) (b : Fin 16) (k : Fin 2048) :
    (k0_pay3 v27 v28 (ix2 b k) : EReal) = (v27 (ix2 b k) : EReal) * (v28 (ix2 (0 : Fin 1) k) : EReal) := by
  unfold k0_pay3
  refine (mulf_apply _ _ _).trans ?_
  refine congrArg (_ * ·) ?_
  refine (broadcastTo_1b_ab_apply _ _ b k).trans ?_
  exact congrFun (shapeCast_self _ _) _

/-- The second body's update as one term. -/
theorem k1_pay2_eq (i : grid1.Coords) (v7 : Vec Ideal S1x2048 .i32) (v15 v19 : Vec Ideal S16x2048 .f32) :
    k1_pay2 i v7 v15 v19 = addf v19 (matmul dot_S16x2048_S2048x2048_S16x2048_1_1_0_0_n_n none
      (truncf .bf16 v15 bitsLt_bf16_f32) (sel (i 0).val v7) (constant (F := Ideal) S16x2048 .f32 0x00000000#32)) := by
  unfold k1_pay2 sel
  simp only [shapeCast_self]

/-- The second body's update at entry (b, r): the accumulator plus the sum, over the block's columns k whose destination
    word is row r's word, of the block's entry (b, k). -/
theorem k1_pay2_apply (i : grid1.Coords) (v7 : Vec Ideal S1x2048 .i32) (v15 v19 : Vec Ideal S16x2048 .f32) (b : Fin 16) (r : Fin 2048) :
    (k1_pay2 i v7 v15 v19 (ix2 b r) : EReal)
      = (v19 (ix2 b r) : EReal) + ∑ k : Fin 2048, (v15 (ix2 b k) : EReal) * (if rowWord (i 0).val r = v7 (ix2 (0 : Fin 1) k) then (1 : EReal) else 0) := by
  rw [k1_pay2_eq, addf_apply, matmul1_apply]
  refine congrArg (_ + ·) (Finset.sum_congr rfl fun k _ => ?_)
  rw [sel_apply, truncf_apply]

end Cert.KernelIdeal.Pay

end
-- ==== Proof.KI.Val0.lean ====
/-
  The array the first call leaves: the message array, as one function of the arrays the call finds.

  The first call runs 782 × 25 grid positions, the inner coordinate fastest: position t has edge tile t / 25 and column
  tile t mod 25. At every position its accumulator (16 × 2048) gains, at entry (b, k), the sum over the 2048 columns
  n = (t mod 25)·2048 + r of the column tile of  xp[b, n] · [word n = source word of edge (t / 25)·2048 + k];  it starts
  from zero at the first inner position. So along the 25 inner positions of one edge tile the accumulator collects, block
  by block, the sum over all 51200 = 25 · 2048 columns: the selection sum of that edge. At the last inner position the
  block written back is the accumulator times the edge values, which is the message array's block (0, t / 25). These 782
  blocks tile the 16 × 1601536 array, so after the call the array is the message array everywhere.
-/
import proofs.«430482_j26018911879781_1_alg».proof.Proof.SpecK
import proofs.«430482_j26018911879781_1_alg».proof.Proof.KI.Data
import proofs.«430482_j26018911879781_1_alg».proof.Proof.KI.Sched
import proofs.«430482_j26018911879781_1_alg».proof.Proof.KI.Points
import proofs.«430482_j26018911879781_1_alg».proof.Proof.LibBlockSum
import proofs.«430482_j26018911879781_1_alg».proof.Proof.Pay
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Pay
open scoped BigOperators

namespace Val0

/-- 51200 positions are 25 blocks of 2048. -/
theorem blocks51200 : 51200 = (24 + 1) * 2048 := rfl

/-- A natural number below 2³² is the value of its 32-bit word. -/
theorem toNat_word (n : ℕ) (h : n < 4294967296) : (BitVec.ofNat 32 n).toNat = n := by
  rw [BitVec.toNat_ofNat]; exact Nat.mod_eq_of_lt h

theorem lt_points (t : Fin cfg0.N) : t.val < 19550 := lt_of_lt_of_eq t.isLt N0_eq

/-! ## The block index of each window at grid position t: (0, t / 25) for the edge-indexed windows, (0, t mod 25) for the features -/

theorem blkIdx0_0 (t : Fin cfg0.N) : win0_0.index t (0 : Fin 2) = 0 ∧ win0_0.index t (1 : Fin 2) = t.val / 25 := by
  refine ⟨rfl, ?_⟩
  show (BitVec.ofNat 32 ((grid0.coords t) 0).val).toNat = t.val / 25
  have := lt_points t
  rw [coords0_0, toNat_word _ (by omega)]

theorem blkIdx0_1 (t : Fin cfg0.N) : win0_1.index t (0 : Fin 2) = 0 ∧ win0_1.index t (1 : Fin 2) = t.val / 25 := by
  refine ⟨rfl, ?_⟩
  show (BitVec.ofNat 32 ((grid0.coords t) 0).val).toNat = t.val / 25
  have := lt_points t
  rw [coords0_0, toNat_word _ (by omega)]

theorem blkIdx0_2 (t : Fin cfg0.N) : win0_2.index t (0 : Fin 2) = 0 ∧ win0_2.index t (1 : Fin 2) = t.val % 25 := by
  refine ⟨rfl, ?_⟩
  show (BitVec.ofNat 32 ((grid0.coords t) 1).val).toNat = t.val % 25
  rw [coords0_1, toNat_word _ (by omega)]

theorem blkIdx0_3 (t : Fin cfg0.N) : win0_3.index t (0 : Fin 2) = 0 ∧ win0_3.index t (1 : Fin 2) = t.val / 25 := by
  refine ⟨rfl, ?_⟩
  show (BitVec.ofNat 32 ((grid0.coords t) 0).val).toNat = t.val / 25
  have := lt_points t
  rw [coords0_0, toNat_word _ (by omega)]

variable (V : (c : Dev nD) → (b : Ref sig .tc) → Buf (Elt Ideal) ((c : Thread nD τ).loc b))

/-! ## The blocks a position reads, entry by entry

A block's entry sits in its array, on each axis, at the block index times the block's extent plus its place in the block. -/

/-- The feature block at position t: columns (t mod 25)·2048 + r of the padded features. -/
theorem xB0_apply (c : Dev nD) (t : Fin cfg0.N) (b : Fin 16) (r : Fin 2048) (h : t.val % 25 * 2048 + r.val < 51200) :
    (xB0 V c t (ix2 b r) : EReal)
      = ((V c main_v8 : S16x51200.Idx → Elt Ideal .f32) (ix2 b ⟨t.val % 25 * 2048 + r.val, h⟩) : EReal) := by
  show iblk0 V c 2 t (ix2 b r) = _
  unfold iblk0
  rw [View.read_apply]
  show V c main_v8 _ = V c main_v8 _
  congr 1
  funext a
  apply Fin.ext
  match a with
  | ⟨0, _⟩ => show win0_2.index t (0 : Fin 2) * 16 + 1 * b.val = b.val; rw [(blkIdx0_2 t).1]; omega
  | ⟨1, _⟩ => show win0_2.index t (1 : Fin 2) * 2048 + 1 * r.val = t.val % 25 * 2048 + r.val; rw [(blkIdx0_2 t).2]; omega

/-- The source-word block at position t: edges (t / 25)·2048 + k. -/
theorem srcB0_apply (c : Dev nD) (t : Fin cfg0.N) (k : Fin 2048) (h : t.val / 25 * 2048 + k.val < 1601536) :
    srcB0 V c t (ix2 (0 : Fin 1) k)
      = (V c main_v9 : S1x1601536.Idx → BitVec 32) (ix2 (0 : Fin 1) ⟨t.val / 25 * 2048 + k.val, h⟩) := by
  show iblk0 V c 0 t (ix2 (0 : Fin 1) k) = _
  unfold iblk0
  rw [View.read_apply]
  show V c main_v9 _ = V c main_v9 _
  congr 1
  funext a
  apply Fin.ext
  match a with
  | ⟨0, _⟩ => show win0_0.index t (0 : Fin 2) * 1 + 1 * (0 : Fin 1).val = (0 : Fin 1).val; rw [(blkIdx0_0 t).1]; omega
  | ⟨1, _⟩ => show win0_0.index t (1 : Fin 2) * 2048 + 1 * k.val = t.val / 25 * 2048 + k.val; rw [(blkIdx0_0 t).2]; omega

/-- The edge-value block at position t: edges (t / 25)·2048 + k. -/
theorem valB0_apply (c : Dev nD) (t : Fin cfg0.N) (k : Fin 2048) (h : t.val / 25 * 2048 + k.val < 1601536) :
    (valB0 V c t (ix2 (0 : Fin 1) k) : EReal)
      = ((V c main_v11 : S1x1601536.Idx → Elt Ideal .f32) (ix2 (0 : Fin 1) ⟨t.val / 25 * 2048 + k.val, h⟩) : EReal) := by
  show iblk0 V c 1 t (ix2 (0 : Fin 1) k) = _
  unfold iblk0
  rw [View.read_apply]
  show V c main_v11 _ = V c main_v11 _
  congr 1
  funext a
  apply Fin.ext
  match a with
  | ⟨0, _⟩ => show win0_1.index t (0 : Fin 2) * 1 + 1 * (0 : Fin 1).val = (0 : Fin 1).val; rw [(blkIdx0_1 t).1]; omega
  | ⟨1, _⟩ => show win0_1.index t (1 : Fin 2) * 2048 + 1 * k.val = t.val / 25 * 2048 + k.val; rw [(blkIdx0_1 t).2]; omega

/-! ## The selection sum, term by term -/

/-- One term of the selection: feature (b, n) where column n's word is the source word of edge e, else zero. -/
def selTerm (xp : FVec Ideal Cert.Spec.SXP .f32) (src2 : IVec Cert.Spec.SE2 32) (b : Fin 16) (e : Fin 1601536)
    (n : Fin 51200) : EReal :=
  (xp (ix2 b n) : EReal) * (if Cert.Spec.nodeWord n.val = src2 (ix2 (0 : Fin 1) e) then (1 : EReal) else 0)

/-- The message array at (b, e): the selection sum times the value of edge e. -/
theorem msgArr_apply (src2 : IVec Cert.Spec.SE2 32) (vals2 : FVec Ideal Cert.Spec.SE2 .f32) (xp : FVec Ideal Cert.Spec.SXP .f32)
    (b : Fin 16) (e : Fin 1601536) :
    (Cert.Spec.msgArr src2 vals2 xp (ix2 b e) : EReal)
      = (∑ n : Fin 51200, selTerm xp src2 b e n) * (vals2 (ix2 (0 : Fin 1) e) : EReal) := rfl

theorem selTerm_congr (xp : FVec Ideal Cert.Spec.SXP .f32) (src2 : IVec Cert.Spec.SE2 32) (b : Fin 16)
    {e e' : Fin 1601536} {n n' : Fin 51200} (he : e.val = e'.val) (hn : n.val = n'.val) :
    selTerm xp src2 b e n = selTerm xp src2 b e' n' := by
  rw [Fin.ext he, Fin.ext hn]

/-- The accumulator depends on the position's number only. -/
theorem acc0_congr (c : Dev nD) {n m : ℕ} (h : n = m) (hn : n < cfg0.N) (hm : m < cfg0.N) :
    acc0 V c n hn = acc0 V c m hm := by
  subst h; rfl

/-- One update at position t, entry (b, k): the accumulator gains block (t mod 25) of the selection sum of edge
    (t / 25)·2048 + k. -/
theorem pay2_step (c : Dev nD) (t : Fin cfg0.N) (v19 : Vec Ideal S16x2048 .f32) (b : Fin 16) (k : Fin 2048)
    (he : t.val / 25 * 2048 + k.val < 1601536) :
    (k0_pay2 (grid0.coords t) (srcB0 V c t) (xB0 V c t) v19 (ix2 b k) : EReal)
      = (v19 (ix2 b k) : EReal) + ∑ r : Fin 2048, selTerm (V c main_v8) (V c main_v9) b ⟨t.val / 25 * 2048 + k.val, he⟩
          (Cert.BlockSum.pos (24 + 1) 2048 blocks51200 ⟨t.val % 25, Nat.mod_lt _ (by decide)⟩ r) := by
  rw [k0_pay2_apply]
  refine congrArg (_ + ·) (Finset.sum_congr rfl fun r _ => ?_)
  have hw : rowWord ((grid0.coords t) 1).val r = Cert.Spec.nodeWord (t.val % 25 * 2048 + r.val) := by
    rw [coords0_1]; rfl
  rw [hw, xB0_apply V c t b r (Cert.BlockSum.pos (24 + 1) 2048 blocks51200 ⟨t.val % 25, Nat.mod_lt _ (by decide)⟩ r).isLt,
    srcB0_apply V c t k he]
  rfl

/-! ## The accumulator along the inner axis

Fix the edge tile et, the row b and the place k. Along the 25 inner positions et·25 + j the accumulator at (b, k) starts at
0 + (block 0 of the selection sum of edge et·2048 + k) and gains block j at step j; after the last step it is the whole sum. -/

theorem acc0_last (c : Dev nD) (et : Fin 782) (b : Fin 16) (k : Fin 2048)
    (hlt : et.val * 25 + 24 < cfg0.N) (he : et.val * 2048 + k.val < 1601536) :
    (acc0 V c (et.val * 25 + 24) hlt (ix2 b k) : EReal)
      = ∑ n : Fin 51200, selTerm (V c main_v8) (V c main_v9) b ⟨et.val * 2048 + k.val, he⟩ n := by
  have hN : cfg0.N = 19550 := N0_eq
  have het : et.val < 782 := et.isLt
  have hpos : ∀ j, j < 24 + 1 → et.val * 25 + j < cfg0.N := fun j hj => by rw [hN]; omega
  have step : ∀ (j : ℕ) (hj : j < 24 + 1) (v19 : Vec Ideal S16x2048 .f32),
      (k0_pay2 (grid0.coords ⟨et.val * 25 + j, hpos j hj⟩) (srcB0 V c ⟨et.val * 25 + j, hpos j hj⟩)
          (xB0 V c ⟨et.val * 25 + j, hpos j hj⟩) v19 (ix2 b k) : EReal)
        = (v19 (ix2 b k) : EReal) + ∑ r : Fin 2048, selTerm (V c main_v8) (V c main_v9) b ⟨et.val * 2048 + k.val, he⟩
            (Cert.BlockSum.pos (24 + 1) 2048 blocks51200 ⟨j, hj⟩ r) := by
    intro j hj v19
    refine (pay2_step V c ⟨et.val * 25 + j, hpos j hj⟩ v19 b k
      (by show (et.val * 25 + j) / 25 * 2048 + k.val < 1601536; omega)).trans ?_
    refine congrArg (_ + ·) (Finset.sum_congr rfl fun r _ => ?_)
    refine selTerm_congr _ _ _ ?_ ?_
    · show (et.val * 25 + j) / 25 * 2048 + k.val = et.val * 2048 + k.val; omega
    · show (et.val * 25 + j) % 25 * 2048 + r.val = j * 2048 + r.val; omega
  exact Cert.BlockSum.chain_blocks_eq_sum 24 2048 blocks51200
    (fun n => selTerm (V c main_v8) (V c main_v9) b ⟨et.val * 2048 + k.val, he⟩ n)
    (fun j hj => (acc0 V c (et.val * 25 + j) (hpos j hj) (ix2 b k) : EReal))
    (fun h => by
      have h1 := acc0_first V c ⟨et.val * 25 + 0, hpos 0 h⟩ (by show (et.val * 25 + 0) % 25 = 0; omega)
      refine (congrFun h1 (ix2 b k)).trans ?_
      refine (step 0 h _).trans ?_
      rw [k0_pay1_apply])
    (fun k' h => by
      have h1 := acc0_next V c ⟨et.val * 25 + (k' + 1), hpos (k' + 1) h⟩
        (by show ¬ (et.val * 25 + (k' + 1)) % 25 = 0; omega)
      refine (congrFun h1 (ix2 b k)).trans ?_
      refine (step (k' + 1) h _).trans ?_
      refine congrArg (· + _) ?_
      exact congrFun (acc0_congr V c (by show et.val * 25 + (k' + 1) - 1 = et.val * 25 + k'; omega) _ _) (ix2 b k))

/-- The block a last inner position t writes, at (b, k): the message array at (b, (t / 25)·2048 + k). -/
theorem out0_apply (c : Dev nD) (t : Fin cfg0.N) (h24 : t.val % 25 = 24) (b : Fin 16) (k : Fin 2048)
    (he : t.val / 25 * 2048 + k.val < 1601536) :
    (out0 V c t (ix2 b k) : EReal)
      = (Cert.Spec.msgArr (V c main_v9) (V c main_v11) (V c main_v8) (ix2 b ⟨t.val / 25 * 2048 + k.val, he⟩) : EReal) := by
  have ht := lt_points t
  have hN : cfg0.N = 19550 := N0_eq
  unfold out0
  rw [k0_pay3_apply, valB0_apply V c t k he, msgArr_apply]
  refine congrArg (· * _) ?_
  have e : t.val = t.val / 25 * 25 + 24 := by omega
  refine (congrFun (acc0_congr V c e t.isLt (lt_of_lt_of_eq (show t.val / 25 * 25 + 24 < 19550 by omega) hN.symm)) (ix2 b k)).trans ?_
  exact acc0_last V c ⟨t.val / 25, by omega⟩ b k _ he

/-! ## From the written blocks to the array -/

/-- What a last inner position writes back is its block of the message array. -/
theorem flushed0_eq (c : Dev nD) (t : Fin cfg0.N) (h24 : t.val % 25 = 24) :
    (dat0 V c).flushed 3 t = ((cfg0.win 3).blk t).view.read (Elt Ideal)
      (Cert.Spec.msgArr (V c main_v9) (V c main_v11) (V c main_v8)) := by
  have ht := lt_points t
  show (cfg0.win 3).cut (grid0.coords t) ((dat0 V c).after 3 t) = _
  rw [after0_3]
  funext j
  have hb : (j 0).val < 16 := (j 0).isLt
  have hk : (j 1).val < 2048 := (j 1).isLt
  have he : t.val / 25 * 2048 + (j 1).val < 1601536 := by omega
  have e1 : (cfg0.win 3).xinj (grid0.coords t) j = ix2 (⟨(j 0).val, hb⟩ : Fin 16) (⟨(j 1).val, hk⟩ : Fin 2048) :=
    funext fun a => by
      match a with
      | ⟨0, _⟩ => rfl
      | ⟨1, _⟩ => rfl
  have e2 : ((cfg0.win 3).blk t).view.emb j
      = ix2 (⟨(j 0).val, hb⟩ : Fin 16) (⟨t.val / 25 * 2048 + (j 1).val, he⟩ : Fin 1601536) :=
    funext fun a => Fin.ext (by
      match a with
      | ⟨0, _⟩ => show win0_3.index t (0 : Fin 2) * 16 + 1 * (j 0).val = (j 0).val; rw [(blkIdx0_3 t).1]; omega
      | ⟨1, _⟩ => show win0_3.index t (1 : Fin 2) * 2048 + 1 * (j 1).val = t.val / 25 * 2048 + (j 1).val
                  rw [(blkIdx0_3 t).2]; omega)
  rw [View.read_apply]
  show out0 V c t ((cfg0.win 3).xinj (grid0.coords t) j)
    = Cert.Spec.msgArr (V c main_v9) (V c main_v11) (V c main_v8) (((cfg0.win 3).blk t).view.emb j)
  rw [e1, e2]
  exact out0_apply V c t h24 _ _ he

end Val0

open Val0

/-- Every entry (b, e) of the array lies in the block of the last inner position of edge tile e / 2048. -/
theorem Val0.cover0 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0).val < 16 := (i 0).isLt
  have h1 : (i 1).val < 1601536 := (i 1).isLt
  have hN : cfg0.N = 19550 := N0_eq
  obtain ⟨t, htv⟩ : ∃ t : Fin cfg0.N, t.val = (i 1).val / 2048 * 25 + 24 := ⟨⟨_, by rw [hN]; omega⟩, rfl⟩
  refine ⟨t, (flush0_3 t).mpr (by omega), ?_⟩
  show i ∈ ((View.whole main_v12).slice (win0_3.rect t)).set
  rw [View.set_slice_whole, Rect.mem_set_unit]
  intro a
  match a with
  | ⟨0, _⟩ =>
    show win0_3.index t (0 : Fin 2) * 16 ≤ (i 0).val ∧ (i 0).val < win0_3.index t (0 : Fin 2) * 16 + 16
    rw [(blkIdx0_3 t).1]; omega
  | ⟨1, _⟩ =>
    show win0_3.index t (1 : Fin 2) * 2048 ≤ (i 1).val ∧ (i 1).val < win0_3.index t (1 : Fin 2) * 2048 + 2048
    rw [(blkIdx0_3 t).2]; omega

variable (V : (c : Dev nD) → (b : Ref sig .tc) → Buf (Elt Ideal) ((c : Thread nD τ).loc b))

/-- After the first call its result array is the message array of the arrays the call finds. -/
theorem arr0_fn (c : Dev nD) :
    (dat0 V c).arrAt 3 cfg0.N = Cert.Spec.msgArr (V c main_v9) (V c main_v11) (V c main_v8) :=
  (dat0 V c).arrAt_eq_of_cover 3 (Cert.Spec.msgArr (V c main_v9) (V c main_v11) (V c main_v8))
    (fun t hf => flushed0_eq V c t ((flush0_3 t).mp hf)) (cover0 c)

theorem arr0_eq (c : Dev nD) (b : Fin 16) (e : Fin 1601536) :
    ((dat0 (F := Ideal) V c).arrAt 3 cfg0.N) (ix2 b e)
      = Cert.Spec.msgArr (V c main_v9) (V c main_v11) (V c main_v8) (ix2 b e) :=
  congrFun (arr0_fn V c) (ix2 b e)

end Cert.KernelIdeal.Hand
end
-- ==== Proof.KI.Val1.lean ====
/-
  The array the scatter region leaves, as one function of the arrays it finds.

  The region runs 25 × 782 grid points, the inner axis fastest: point t works on output tile t / 782 (2048 output columns)
  and edge tile t mod 782 (2048 edges). Its scratch is a running sum along the inner axis: reset to zero at the first edge
  tile, and at edge tile j it gains, at entry (b, r), the sum over the tile's 2048 edges e of
  message(b, e) · [word of column (t / 782) · 2048 + r = destination word of e]. The 782 edge tiles cut the 1601536 edges
  into consecutive blocks of 2048, so after the last edge tile entry (b, r) of the scratch is the sum over all edges: the
  entry (b, (t / 782) · 2048 + r) of the scattered array. That is the block written back at the last edge tile, to columns
  (t / 782) · 2048 … of the output; the 25 output tiles cover its 51200 columns, so the whole array ends at the scattered
  array of the destination words and the messages the region found.
-/
import proofs.«430482_j26018911879781_1_alg».proof.Proof.SpecK
import proofs.«430482_j26018911879781_1_alg».proof.Proof.LibBlockSum
import proofs.«430482_j26018911879781_1_alg».proof.Proof.Pay
import proofs.«430482_j26018911879781_1_alg».proof.Proof.KI.Data
import proofs.«430482_j26018911879781_1_alg».proof.Proof.KI.Sched
import proofs.«430482_j26018911879781_1_alg».proof.Proof.KI.Points
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen Cert.KernelIdeal.Pay
open scoped BigOperators

variable (V : (c : Dev nD) → (b : Ref sig .tc) → Buf (Elt Ideal) ((c : Thread nD τ).loc b))

/-! ## The two arrays the region reads, and one term of an output entry -/

/-- The destination words (1 × 1601536) as the region finds them. -/
abbrev dstArr1 (c : Dev nD) : IVec Cert.Spec.SE2 32 := V c main_v10

/-- The messages (16 × 1601536) as the region finds them. -/
abbrev msgArr1 (c : Dev nD) : FVec Ideal Cert.Spec.SMsg .f32 := V c main_v12

/-- Edge e's contribution to entry (b, m): its message in row b if its destination word is m's word, else zero. -/
def term1 (c : Dev nD) (b : Fin 16) (m : ℕ) (e : Fin 1601536) : EReal :=
  (msgArr1 V c (ix2 b e) : EReal) * (if Cert.Spec.nodeWord m = dstArr1 V c (ix2 (0 : Fin 1) e) then (1 : EReal) else 0)

/-- An entry of the scattered array is the sum of all edges' contributions. -/
theorem outArr1_apply (c : Dev nD) (b : Fin 16) (q : Fin 51200) :
    Cert.Spec.outArr (dstArr1 V c) (msgArr1 V c) (ix2 b q) = ∑ e : Fin 1601536, term1 V c b q.val e := rfl

/-! ## The grid: 25 output tiles, 782 edge tiles each -/

theorem edges1_eq : 1601536 = (781 + 1) * 2048 := by norm_num

/-- The j-th inner point of output tile mt is a grid point. -/
theorem pt1_lt (mt : Fin 25) {j : ℕ} (hj : j < 781 + 1) : mt.val * 782 + j < cfg1.N := by
  have h := mt.isLt
  show mt.val * 782 + j < grid1.N
  rw [N1_eq]; omega

theorem val1_lt (t : Fin cfg1.N) : t.val < 19550 := lt_of_lt_of_eq t.isLt N1_eq

/-- A grid coordinate's 32-bit word read back as a number is the coordinate. -/
theorem toNat_ofNat_pt1 (n : ℕ) (h : n < 19550) : (BitVec.ofNat 32 n).toNat = n := by
  rw [BitVec.toNat_ofNat]; exact Nat.mod_eq_of_lt (by omega)

/-! ## The windows' block indices at a point -/

theorem index1_0_0 (t : Fin cfg1.N) : win1_0.index t (0 : Fin 2) = 0 := rfl
theorem index1_0_1 (t : Fin cfg1.N) : win1_0.index t (1 : Fin 2) = t.val % 782 := by
  show (BitVec.ofNat 32 ((grid1.coords t) 1).val).toNat = _
  rw [coords1_1, toNat_ofNat_pt1 _ (by omega)]
theorem index1_1_0 (t : Fin cfg1.N) : win1_1.index t (0 : Fin 2) = 0 := rfl
theorem index1_1_1 (t : Fin cfg1.N) : win1_1.index t (1 : Fin 2) = t.val % 782 := by
  show (BitVec.ofNat 32 ((grid1.coords t) 1).val).toNat = _
  rw [coords1_1, toNat_ofNat_pt1 _ (by omega)]
theorem index1_2_0 (t : Fin cfg1.N) : win1_2.index t (0 : Fin 2) = 0 := rfl
theorem index1_2_1 (t : Fin cfg1.N) : win1_2.index t (1 : Fin 2) = t.val / 782 := by
  show (BitVec.ofNat 32 ((grid1.coords t) 0).val).toNat = _
  have h := val1_lt t
  rw [coords1_0, toNat_ofNat_pt1 _ (by omega)]

/-! ## The input blocks are pieces of the arrays -/

/-- Word k of the destination block at point t is word (t mod 782) · 2048 + k of the array. -/
theorem dstB1_apply (c : Dev nD) (t : Fin cfg1.N) (k : Fin 2048) (e : Fin 1601536)
    (he : e.val = t.val % 782 * 2048 + k.val) :
    dstB1 V c t (ix2 (0 : Fin 1) k) = dstArr1 V c (ix2 (0 : Fin 1) e) := by
  unfold dstB1 iblk1
  rw [View.read_apply]
  show V c main_v10 _ = V c main_v10 _
  refine congrArg (V c main_v10) (funext fun a => Fin.ext ?_)
  match a with
  | ⟨0, _⟩ => rfl
  | ⟨1, _⟩ =>
    show win1_0.index t (1 : Fin 2) * 2048 + 1 * k.val = e.val
    rw [index1_0_1, he]; omega

/-- Entry (b, k) of the message block at point t is entry (b, (t mod 782) · 2048 + k) of the array. -/
theorem msgB1_apply (c : Dev nD) (t : Fin cfg1.N) (b : Fin 16) (k : Fin 2048) (e : Fin 1601536)
    (he : e.val = t.val % 782 * 2048 + k.val) :
    msgB1 V c t (ix2 b k) = msgArr1 V c (ix2 b e) := by
  unfold msgB1 iblk1
  rw [View.read_apply]
  show V c main_v12 _ = V c main_v12 _
  refine congrArg (V c main_v12) (funext fun a => Fin.ext ?_)
  match a with
  | ⟨0, _⟩ =>
    show win1_1.index t (0 : Fin 2) * 16 + 1 * b.val = b.val
    rw [index1_1_0]; omega
  | ⟨1, _⟩ =>
    show win1_1.index t (1 : Fin 2) * 2048 + 1 * k.val = e.val
    rw [index1_1_1, he]; omega

/-! ## One update of the scratch -/

/-- At the j-th inner point of output tile mt the update adds, at entry (b, r), the contributions of the 2048 edges of
    edge tile j to output entry (b, mt · 2048 + r). -/
theorem update1_apply (c : Dev nD) (mt : Fin 25) (j : ℕ) (hj : j < 781 + 1) (t : Fin cfg1.N)
    (ht : t.val = mt.val * 782 + j) (prev : Vec Ideal S16x2048 .f32) (b : Fin 16) (r : Fin 2048) :
    (k1_pay2 (grid1.coords t) (dstB1 V c t) (msgB1 V c t) prev (ix2 b r) : EReal)
      = (prev (ix2 b r) : EReal)
        + ∑ k : Fin 2048, term1 V c b (mt.val * 2048 + r.val) (Cert.BlockSum.pos (781 + 1) 2048 edges1_eq ⟨j, hj⟩ k) := by
  refine (k1_pay2_apply (grid1.coords t) (dstB1 V c t) (msgB1 V c t) prev b r).trans ?_
  refine congrArg (_ + ·) (Finset.sum_congr rfl fun k _ => ?_)
  have he : (Cert.BlockSum.pos (781 + 1) 2048 edges1_eq ⟨j, hj⟩ k).val = t.val % 782 * 2048 + k.val := by
    rw [Cert.BlockSum.pos_val, ht]
    show j * 2048 + k.val = (mt.val * 782 + j) % 782 * 2048 + k.val
    omega
  have hw : rowWord ((grid1.coords t) 0).val r = Cert.Spec.nodeWord (mt.val * 2048 + r.val) := by
    show BitVec.ofNat 32 (((grid1.coords t) 0).val * 2048 + r.val) = BitVec.ofNat 32 (mt.val * 2048 + r.val)
    rw [coords1_0, ht]
    refine congrArg (BitVec.ofNat 32) ?_
    have h := mt.isLt
    omega
  rw [msgB1_apply V c t b k _ he, dstB1_apply V c t k _ he, hw]
  rfl

/-! ## The scratch along the inner axis -/

theorem acc1_congr (c : Dev nD) {n n' : ℕ} (h : n = n') (hn : n < cfg1.N) (hn' : n' < cfg1.N) :
    acc1 V c n hn = acc1 V c n' hn' := by
  subst h; rfl

/-- After the last inner point of output tile mt the scratch holds, at (b, r), entry (b, mt · 2048 + r) of the
    scattered array: the running sum started at zero has by then added every edge tile's contributions. -/
theorem acc1_last (c : Dev nD) (mt : Fin 25) (b : Fin 16) (r : Fin 2048) :
    (acc1 V c (mt.val * 782 + 781) (pt1_lt mt (Nat.lt_succ_self 781)) (ix2 b r) : EReal)
      = ∑ e : Fin 1601536, term1 V c b (mt.val * 2048 + r.val) e := by
  refine Cert.BlockSum.chain_blocks_eq_sum 781 2048 edges1_eq (term1 V c b (mt.val * 2048 + r.val))
    (fun j hj => (acc1 V c (mt.val * 782 + j) (pt1_lt mt hj) (ix2 b r) : EReal)) ?_ ?_
  · intro h
    have hmod : (mt.val * 782 + 0) % 782 = 0 := by omega
    have e1 : acc1 V c (mt.val * 782 + 0) (pt1_lt mt h)
        = k1_pay2 (grid1.coords ⟨mt.val * 782 + 0, pt1_lt mt h⟩) (dstB1 V c ⟨mt.val * 782 + 0, pt1_lt mt h⟩)
            (msgB1 V c ⟨mt.val * 782 + 0, pt1_lt mt h⟩) (k1_pay1 (F := Ideal)) :=
      acc1_first V c ⟨mt.val * 782 + 0, pt1_lt mt h⟩ hmod
    refine (congrFun e1 (ix2 b r)).trans ?_
    refine (update1_apply V c mt 0 h ⟨mt.val * 782 + 0, pt1_lt mt h⟩ rfl (k1_pay1 (F := Ideal)) b r).trans ?_
    exact congrArg (· + _) (k1_pay1_apply b r)
  · intro j h
    have hmod : ¬ (mt.val * 782 + (j + 1)) % 782 = 0 := by omega
    have e1 : acc1 V c (mt.val * 782 + (j + 1)) (pt1_lt mt h)
        = k1_pay2 (grid1.coords ⟨mt.val * 782 + (j + 1), pt1_lt mt h⟩) (dstB1 V c ⟨mt.val * 782 + (j + 1), pt1_lt mt h⟩)
            (msgB1 V c ⟨mt.val * 782 + (j + 1), pt1_lt mt h⟩)
            (acc1 V c (mt.val * 782 + (j + 1) - 1) (Nat.lt_of_le_of_lt (Nat.sub_le _ _) (pt1_lt mt h))) :=
      acc1_next V c ⟨mt.val * 782 + (j + 1), pt1_lt mt h⟩ hmod
    refine (congrFun e1 (ix2 b r)).trans ?_
    refine (update1_apply V c mt (j + 1) h ⟨mt.val * 782 + (j + 1), pt1_lt mt h⟩ rfl _ b r).trans ?_
    exact congrArg (· + _) (congrFun (acc1_congr V c (by omega) _ _) (ix2 b r))

/-! ## What a flushing point writes back -/

/-- At a last inner point t the output block holds, at y, the entry of the scattered array that sits at row y₀ and column
    (t / 782) · 2048 + y₁. -/
theorem out1_last (c : Dev nD) (t : Fin cfg1.N) (hmod : t.val % 782 = 781) (y : S16x2048.Idx) (i : S16x51200.Idx)
    (h0 : (i 0).val = (y 0).val) (h1 : (i 1).val = t.val / 782 * 2048 + (y 1).val) :
    (out1 V c t y : EReal) = Cert.Spec.outArr (dstArr1 V c) (msgArr1 V c) i := by
  obtain ⟨b, r, rfl⟩ : ∃ (b : Fin 16) (r : Fin 2048), y = ix2 b r := ⟨y 0, y 1, eq_ix2 y⟩
  obtain ⟨b', q, rfl⟩ : ∃ (b' : Fin 16) (q : Fin 51200), i = ix2 b' q := ⟨i 0, i 1, eq_ix2 i⟩
  obtain rfl : b' = b := Fin.ext h0
  have hq : q.val = t.val / 782 * 2048 + r.val := h1
  have ht := val1_lt t
  have hmt : t.val / 782 < 25 := by omega
  rw [outArr1_apply, hq]
  unfold out1
  refine (congrFun (acc1_congr V c (n' := (⟨t.val / 782, hmt⟩ : Fin 25).val * 782 + 781) ?_ t.isLt
    (pt1_lt ⟨t.val / 782, hmt⟩ (Nat.lt_succ_self 781))) (ix2 b' r)).trans ?_
  · show t.val = t.val / 782 * 782 + 781
    omega
  · exact acc1_last V c ⟨t.val / 782, hmt⟩ b' r

/-- The part of the output block a write-back moves is the whole block: the blocks lie inside the array. -/
theorem cut1_apply (X : Vec Ideal S16x2048 .f32) (t : Fin cfg1.N) (y : S16x2048.Idx) :
    (cfg1.win 2).cut (grid1.coords t) X y = X y := rfl

/-- Point t's block of a 16 × 51200 array, read at y, is the array at the place y has in it. -/
theorem read_blk1_apply (G : FVec Ideal S16x51200 .f32) (t : Fin cfg1.N) (y : S16x2048.Idx) :
    ((cfg1.win 2).blk t).view.read (Elt Ideal) G y = G (((cfg1.win 2).blk t).view.emb y) := rfl

/-- The place of y in the array: row y₀, column (t / 782) · 2048 + y₁. -/
theorem emb_blk1 (t : Fin cfg1.N) (y : S16x2048.Idx) :
    ((((cfg1.win 2).blk t).view.emb y : S16x51200.Idx) 0).val = (y 0).val
      ∧ ((((cfg1.win 2).blk t).view.emb y : S16x51200.Idx) 1).val = t.val / 782 * 2048 + (y 1).val := by
  constructor
  · show win1_2.index t (0 : Fin 2) * 16 + 1 * (y 0).val = (y 0).val
    rw [index1_2_0]; omega
  · show win1_2.index t (1 : Fin 2) * 2048 + 1 * (y 1).val = t.val / 782 * 2048 + (y 1).val
    rw [index1_2_1]; omega

/-- What a flushing point writes back is its block of the scattered array. -/
theorem flushed1_eq (c : Dev nD) (t : Fin cfg1.N) (hf : (cfg1.win 2).flush t = true) :
    (dat1 V c).flushed 2 t
      = ((cfg1.win 2).blk t).view.read (Elt Ideal) (Cert.Spec.outArr (dstArr1 V c) (msgArr1 V c)) := by
  have hmod : t.val % 782 = 781 := (flush1_2 t).mp hf
  show (cfg1.win 2).cut (grid1.coords t) ((dat1 V c).after 2 t) = _
  rw [after1_2]
  funext y
  refine (cut1_apply (out1 V c t) t y).trans ?_
  refine Eq.trans ?_ (read_blk1_apply (Cert.Spec.outArr (dstArr1 V c) (msgArr1 V c)) t y).symm
  exact out1_last V c t hmod y _ (emb_blk1 t y).1 (emb_blk1 t y).2

/-! ## The output blocks cover the array -/

/-- An index of the array is in point t's block iff each coordinate is in the block's range on its axis. -/
theorem mem_blk1 (t : Fin cfg1.N) (i : S16x51200.Idx) :
    i ∈ ((cfg1.win 2).blk t).view.set
      ↔ ∀ a : Fin 2, win1_2.index t a * S16x2048.size a ≤ (i a).val
          ∧ (i a).val < win1_2.index t a * S16x2048.size a + S16x2048.size a := by
  show i ∈ ((View.whole main_v13).slice (win1_2.rect t)).set ↔ _
  rw [View.set_slice_whole, Rect.mem_set_unit]
  exact Iff.rfl

/-- Column q lies in the block written back at the last inner point of output tile q / 2048. -/
theorem cover1 (i : S16x51200.Idx) :
    ∃ t : Fin cfg1.N, (cfg1.win 2).flush t = true ∧ i ∈ ((cfg1.win 2).blk t).view.set := by
  have hi0 : (i 0).val < 16 := (i 0).isLt
  have hi1 : (i 1).val < 51200 := (i 1).isLt
  have hmt : (i 1).val / 2048 < 25 := by omega
  refine ⟨⟨(⟨(i 1).val / 2048, hmt⟩ : Fin 25).val * 782 + 781, pt1_lt _ (Nat.lt_succ_self 781)⟩, ?_, ?_⟩
  · refine (flush1_2 _).mpr ?_
    show ((i 1).val / 2048 * 782 + 781) % 782 = 781
    omega
  · rw [mem_blk1]
    intro a
    match a with
    | ⟨0, _⟩ =>
      show win1_2.index _ (0 : Fin 2) * 16 ≤ (i 0).val ∧ (i 0).val < win1_2.index _ (0 : Fin 2) * 16 + 16
      rw [index1_2_0]; omega
    | ⟨1, _⟩ =>
      show win1_2.index _ (1 : Fin 2) * 2048 ≤ (i 1).val ∧ (i 1).val < win1_2.index _ (1 : Fin 2) * 2048 + 2048
      rw [index1_2_1]
      show ((i 1).val / 2048 * 782 + 781) / 782 * 2048 ≤ (i 1).val
        ∧ (i 1).val < ((i 1).val / 2048 * 782 + 781) / 782 * 2048 + 2048
      omega

/-! ## The array the region leaves -/

/-- The scattered array after the region is the pure function of the two arrays the region finds. -/
theorem arr1_fn (c : Dev nD) :
    (dat1 (F := Ideal) V c).arrAt 2 cfg1.N = Cert.Spec.outArr (V c main_v10) (V c main_v12) :=
  (dat1 (F := Ideal) V c).arrAt_eq_of_cover 2 (Cert.Spec.outArr (dstArr1 V c) (msgArr1 V c))
    (fun t hf => flushed1_eq V c t hf) (fun i => cover1 i)

theorem arr1_eq (c : Dev nD) (b : Fin 16) (q : Fin 51200) :
    ((dat1 (F := Ideal) V c).arrAt 2 cfg1.N) (ix2 b q) = Cert.Spec.outArr (V c main_v10) (V c main_v12) (ix2 b q) :=
  congrFun (arr1_fn V c) (ix2 b q)

end Cert.KernelIdeal.Hand

end
-- ==== Proof.KI.Host.lean ====
/-
  What the host operations around the two kernel regions compute, at the extended reals.

  Before the first region the host lays out the kernel's operands: the two rows of the index pairs, each cut out of the
  2 × 1600000 array, flattened, padded with the zero word to 1601536 entries and written as a 1 × 1601536 array; the edge
  values padded with the real 0 (the integer zero converted) likewise; the features, their trailing unit axis dropped,
  padded with 0 to 51200 columns. After the second region the host keeps the first 50000 columns of its output, adds the
  bias row to every row and restores the trailing unit axis. Each is read here at an index as the specification's padded
  arrays and as the sum of the region's entry and the bias entry.

  A padded array read at position e is the operand's entry e while e is below the operand's length and the padding value
  from there on; a flattening or an added unit axis keeps row-major positions, so entry (0, e) of the 1 × n array is entry e
  of the vector, and entry (b, n) of the 16 × 50000 array is entry (b, n, 0) of the 16 × 50000 × 1 one.
-/
import proofs.«430482_j26018911879781_1_alg».proof.Proof.Gen.KernelIdeal.Regions
import proofs.«430482_j26018911879781_1_alg».proof.Proof.SpecK
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.KernelIdeal.Hand

open Idealize.ShloMosaic Idealize.ShloMosaic.TcCoe Idealize.ShloMosaic.ValueIdx
open Idealize.ShloMosaic.StableHlo
open Cert.KernelIdeal Cert.KernelIdeal.Gen

/-! ## Padding read at an index -/

section PadRead
variable {α : Type}

/-- A vector of length n padded behind to length t: position e holds the vector's entry e while e < n, the padding value
    from there on. -/
theorem pad_vec_apply {n t hi : ℕ} (x : (⟨1, ![n]⟩ : Shape).Idx → α) {u : Shape} (v : u.Idx → α)
    (h : (⟨1, ![n]⟩ : Shape).Pads (![0] : Fin 1 → Nat) ![hi] ![0] ⟨1, ![t]⟩) (hu : 0 < u.numel) (e : Fin t) :
    pad ⟨1, ![t]⟩ ![0] ![hi] ![0] x v h hu (ix1 e)
      = if hlt : e.val < n then x (ix1 ⟨e.val, hlt⟩) else v (Shape.Idx.first hu) := by
  by_cases hlt : e.val < n
  · rw [dif_pos hlt]
    refine pad_apply_of_inside _ _ _ x v h hu (ix1 e) (ix1 ⟨e.val, hlt⟩) (fun a => ?_)
    match a with
    | ⟨0, _⟩ => show e.val = 0 + e.val * (0 + 1); omega
  · rw [dif_neg hlt]
    refine pad_apply_of_not_inside _ _ _ x v h hu (ix1 e) (0 : Fin 1) (fun hin => hlt ?_)
    have h3 : (e.val - 0) / (0 + 1) < n := hin.2.2
    simpa using h3

/-- A matrix of n columns padded behind on its columns to t columns: entry (b, e) is the matrix's entry (b, e) while e < n,
    the padding value from there on. -/
theorem pad_cols_apply {r n t hi : ℕ} (x : (⟨2, ![r, n]⟩ : Shape).Idx → α) {u : Shape} (v : u.Idx → α)
    (h : (⟨2, ![r, n]⟩ : Shape).Pads (![0, 0] : Fin 2 → Nat) ![0, hi] ![0, 0] ⟨2, ![r, t]⟩) (hu : 0 < u.numel)
    (b : Fin r) (e : Fin t) :
    pad ⟨2, ![r, t]⟩ ![0, 0] ![0, hi] ![0, 0] x v h hu (ix2 b e)
      = if hlt : e.val < n then x (ix2 b ⟨e.val, hlt⟩) else v (Shape.Idx.first hu) := by
  by_cases hlt : e.val < n
  · rw [dif_pos hlt]
    refine pad_apply_of_inside _ _ _ x v h hu (ix2 b e) (ix2 b ⟨e.val, hlt⟩) (fun a => ?_)
    match a with
    | ⟨0, _⟩ => show b.val = 0 + b.val * (0 + 1); omega
    | ⟨1, _⟩ => show e.val = 0 + e.val * (0 + 1); omega
  · rw [dif_neg hlt]
    refine pad_apply_of_not_inside _ _ _ x v h hu (ix2 b e) (1 : Fin 2) (fun hin => hlt ?_)
    have h3 : (e.val - 0) / (0 + 1) < n := hin.2.2
    simpa using h3

/-- The integer zero converted to a float is the real 0. -/
theorem sitofp_zero_word : (FloatOps.sitofp (F := Ideal) .f32 (0#32 : BitVec 32) : EReal) = 0 := by
  show ((((0#32 : BitVec 32).toInt : ℤ) : ℝ) : EReal) = 0
  simp

end PadRead

variable (m : (ℓ : Loc nD τ sig) → Buf (Elt Ideal) ℓ) (c : Dev nD) (outs : Gen.Outs (F := Ideal))

/-! ## Before the first region -/

/-- Row `row` of the index pairs, cut out, flattened, padded with the zero word and written as one row, is the
    specification's padded row. -/
theorem padded_row (idx : S2x1600000.Idx → BitVec 32) (row : Fin 2) (o : ℕ) (ho : row.val = o)
    (hs : S2x1600000.Slices ![o, 0] S1x1600000) :
    shapeCast S1x1601536
        (pad S1601536 ![0] ![1536] ![0]
          (shapeCast S1600000 (extractStridedSlice S1x1600000 ![o, 0] idx hs) shapeCasts_S1x1600000_S1600000)
          (constantI S_ 32 0#32) pads_S1600000_S1601536_015360 h_S_)
        shapeCasts_S1601536_S1x1601536
      = Cert.Spec.padIdx idx row := by
  funext j
  obtain ⟨u, k, rfl⟩ : ∃ (u : Fin 1) (k : Fin 1601536), j = ix2 u k := ⟨j 0, j 1, eq_ix2 j⟩
  refine (shapeCast_a_1a_apply _ _ u k).trans ?_
  refine (pad_vec_apply _ _ _ _ k).trans ?_
  show _ = if h : k.val < 1600000 then idx (ix2 row ⟨k.val, h⟩) else 0#32
  by_cases hlt : k.val < 1600000
  · rw [dif_pos hlt, dif_pos hlt]
    refine (shapeCast_1a_a_apply _ _ ⟨k.val, hlt⟩).trans ?_
    exact slice2_axis0_apply o idx hs (0 : Fin 1) ⟨k.val, hlt⟩ row (by rw [ho]; rfl)
  · rw [dif_neg hlt, dif_neg hlt]
    rfl

/-- The source row the first region reads: row 0 of the index pairs, padded. -/
theorem V9_src : Gen.V9 m c main_v9 = Cert.Spec.padIdx (m ((c : Thread nD τ).loc main_arg3)) 0 := by
  refine Eq.trans ?_ (padded_row (m ((c : Thread nD τ).loc main_arg3)) 0 0 rfl slices_S2x1600000_S1x1600000_0_0)
  dsimp only [Gen.V9, Gen.hostOps0_8]
  after_results
  simp only [TRef.ofBuf, TRef.toBuf, cast_eq, id]
  rfl

/-- The destination row the second region reads: row 1 of the index pairs, padded. -/
theorem V9_dst : Gen.V9 m c main_v10 = Cert.Spec.padIdx (m ((c : Thread nD τ).loc main_arg3)) 1 := by
  refine Eq.trans ?_ (padded_row (m ((c : Thread nD τ).loc main_arg3)) 1 1 rfl slices_S2x1600000_S1x1600000_1_0)
  dsimp only [Gen.V9, Gen.hostOps0_8]
  after_results
  simp only [TRef.ofBuf, TRef.toBuf, cast_eq, id]
  rfl

/-- The edge values padded with the converted integer zero and written as one row are the specification's padded values. -/
theorem padded_vals (v : S1600000.Idx → EReal) :
    shapeCast S1x1601536
        (pad S1601536 ![0] ![1536] ![0] v
          (sitofp (F := Ideal) .f32 (constantI S_ 32 0#32)) pads_S1600000_S1601536_015360 h_S_)
        shapeCasts_S1601536_S1x1601536
      = Cert.Spec.padVal v := by
  funext j
  obtain ⟨u, k, rfl⟩ : ∃ (u : Fin 1) (k : Fin 1601536), j = ix2 u k := ⟨j 0, j 1, eq_ix2 j⟩
  refine (shapeCast_a_1a_apply _ _ u k).trans ?_
  refine (pad_vec_apply _ _ _ _ k).trans ?_
  show _ = if h : k.val < 1600000 then v (ix1 ⟨k.val, h⟩) else (0 : EReal)
  by_cases hlt : k.val < 1600000
  · rw [dif_pos hlt, dif_pos hlt]
  · rw [dif_neg hlt, dif_neg hlt]
    exact sitofp_zero_word

/-- The edge values the first region reads: the values, padded. -/
theorem V9_vals : Gen.V9 m c main_v11 = Cert.Spec.padVal (m ((c : Thread nD τ).loc main_arg1)) := by
  refine Eq.trans ?_ (padded_vals (m ((c : Thread nD τ).loc main_arg1)))
  dsimp only [Gen.V9, Gen.hostOps0_8]
  after_results
  simp only [TRef.ofBuf, TRef.toBuf, cast_eq, id]
  rfl

/-- The features with the trailing unit axis dropped and the columns padded with the converted integer zero are the
    specification's padded features. -/
theorem padded_x (x : S16x50000x1.Idx → EReal) :
    pad S16x51200 ![0, 0] ![0, 1200] ![0, 0] (shapeCast S16x50000 x shapeCasts_S16x50000x1_S16x50000)
        (sitofp (F := Ideal) .f32 (constantI S_ 32 0#32)) pads_S16x50000_S16x51200_000_012000 h_S_
      = Cert.Spec.padX x := by
  funext j
  obtain ⟨b, k, rfl⟩ : ∃ (b : Fin 16) (k : Fin 51200), j = ix2 b k := ⟨j 0, j 1, eq_ix2 j⟩
  refine (pad_cols_apply _ _ _ _ b k).trans ?_
  show _ = if h : k.val < 50000 then x (ix3 b ⟨k.val, h⟩ (0 : Fin 1)) else (0 : EReal)
  by_cases hlt : k.val < 50000
  · rw [dif_pos hlt, dif_pos hlt]
    refine shapeCast_apply x _ (ix2 b ⟨k.val, hlt⟩) (ix3 b ⟨k.val, hlt⟩ (0 : Fin 1)) ?_
    rw [Shape.rowMajor_val_three, Shape.rowMajor_val_two]
    show (b.val * 50000 + k.val) * 1 + 0 = b.val * 50000 + k.val
    omega
  · rw [dif_neg hlt, dif_neg hlt]
    exact sitofp_zero_word

/-- The features the first region reads: the features, padded (the reshapes after the padding do not touch them). -/
theorem V9_x : Gen.V9 m c main_v8 = Cert.Spec.padX (m ((c : Thread nD τ).loc main_arg0)) := by
  refine Eq.trans ?_ (padded_x (m ((c : Thread nD τ).loc main_arg0)))
  refine (Gen.V9_of m c main_v8 (by decide)).trans ?_
  dsimp only [Gen.V8, Gen.hostOps0_7]
  after_results
  simp only [TRef.ofBuf, TRef.toBuf, cast_eq, id]
  rfl

/-! ## The regions' outputs -/

/-- After the first region the message array holds what the region left there. -/
theorem V10_msg : Gen.V10 m outs c main_v12 = outs 10 main_v12 c := by
  simp only [Gen.V10, Function.update_self]

/-- The first region leaves the destination row as it was. -/
theorem V10_dst : Gen.V10 m outs c main_v10 = Gen.V9 m c main_v10 :=
  Gen.V10_of m outs c main_v10 (by decide)

/-- After the second region the scattered array holds what the region left there. -/
theorem V11_out : Gen.V11 m outs c main_v13 = outs 11 main_v13 c := by
  simp only [Gen.V11, Function.update_self]

/-! ## After the second region -/

/-- The last host stretch from any contents W: the first 50000 columns of the second region's array plus the bias row, the
    trailing unit axis restored. -/
theorem tail_term (W : Valuation τ sig (Elt Ideal)) :
    (StableHlo.after (Gen.hostOps2 (F := Ideal)) W main_v19 : S16x50000x1.Idx → EReal)
      = broadcastInDim S16x50000x1 ![0, 1] bcast_S16x50000_S16x50000x1_0_1
          (addf (F := Ideal) (φ := .f32)
            (extractStridedSlice S16x50000 ![0, 0] (W main_v13 : S16x51200.Idx → EReal) slices_S16x51200_S16x50000_0_0)
            (broadcastInDim S16x50000 ![0, 1] bcast_S1x50000_S16x50000_0_1
              (broadcastInDim S1x50000 ![1] bcast_S50000_S1x50000_1
                (shapeCast S50000 (W main_arg2 : S50000x1.Idx → EReal) shapeCasts_S50000x1_S50000)))) := by
  dsimp only [Gen.hostOps2]
  after_results
  rfl

/-- That term at entry (b, n, 0). -/
theorem tail_apply (A : FVec Ideal S16x51200 .f32) (B : FVec Ideal S50000x1 .f32) (j : S16x50000x1.Idx) :
    broadcastInDim S16x50000x1 ![0, 1] bcast_S16x50000_S16x50000x1_0_1
        (addf (F := Ideal) (φ := .f32)
          (extractStridedSlice S16x50000 ![0, 0] A slices_S16x51200_S16x50000_0_0)
          (broadcastInDim S16x50000 ![0, 1] bcast_S1x50000_S16x50000_0_1
            (broadcastInDim S1x50000 ![1] bcast_S50000_S1x50000_1
              (shapeCast S50000 B shapeCasts_S50000x1_S50000)))) j
      = (A (ix2 (j 0) (Cert.Spec.colOf (j 1))) : EReal) + (B (ix2 (j 1) (0 : Fin 1)) : EReal) := by
  obtain ⟨b, n, z, rfl⟩ : ∃ (b : Fin 16) (n : Fin 50000) (z : Fin 1), j = ix3 b n z := ⟨j 0, j 1, j 2, eq_ix3 j⟩
  show _ = (A (ix2 b (Cert.Spec.colOf n)) : EReal) + (B (ix2 n (0 : Fin 1)) : EReal)
  refine (broadcastInDim_apply _ _ _ (ix3 b n z) (ix2 b n) (fun a => ?_)).trans ?_
  · match a with
    | ⟨0, _⟩ => rfl
    | ⟨1, _⟩ => rfl
  refine (addf_apply _ _ (ix2 b n)).trans ?_
  congr 1
  · exact slice2_axis1_apply 0 A slices_S16x51200_S16x50000_0_0 b n (Cert.Spec.colOf n) (by show n.val = 0 + n.val; omega)
  · refine (broadcastInDim_apply _ _ _ (ix2 b n) (ix2 (0 : Fin 1) n) (fun a => ?_)).trans ?_
    · match a with
      | ⟨0, _⟩ => rfl
      | ⟨1, _⟩ => rfl
    refine (broadcastInDim_apply _ _ _ (ix2 (0 : Fin 1) n) (ix1 n) (fun a => ?_)).trans ?_
    · match a with
      | ⟨0, _⟩ => rfl
    refine shapeCast_apply B _ (ix1 n) (ix2 n (0 : Fin 1)) ?_
    rw [Shape.rowMajor_val_two, Shape.rowMajor_val_one]
    show n.val * 1 + 0 = n.val
    omega

/-- The result at entry (b, n, 0): the second region's entry (b, n) plus the bias entry (n, 0). -/
theorem V12_result (j : S16x50000x1.Idx) :
    @Eq EReal (Gen.V12 m outs c main_v19 j)
      (HAdd.hAdd (α := EReal) (β := EReal) (γ := EReal)
        (Gen.V11 m outs c main_v13 (ix2 (j 0) (Cert.Spec.colOf (j 1))))
        (m ((c : Thread nD τ).loc main_arg2) (ix2 (j 1) (0 : Fin 1)))) := by
  have hb : Gen.V11 m outs c main_arg2 = m ((c : Thread nD τ).loc main_arg2) :=
    (Gen.V12_of m outs c main_arg2 (by decide)).symm.trans (Gen.V12_main_arg2 m outs c)
  have e := congrFun (tail_term (Gen.V11 m outs c)) j
  refine e.trans ?_
  rw [hb]
  exact tail_apply _ _ j

end Cert.KernelIdeal.Hand
end
-- ==== Proof.Bridge.lean ====
/-
  The kernel's route computes the specification: pure arithmetic over the extended reals.

  Entry (b, m, 0) of the kernel's function is the scattered array at column m plus the bias at m, and the scattered array
  is a sum over the 1601536 padded edges of message · [word m = destination word]. Three facts turn it into the
  specification's sum.

  (1) A padded edge carries the value 0, so its message (a selected feature times that value) is 0: y · 0 = 0 for every
      extended real y. The 1536 padded edges therefore drop out of the sum.
  (2) At a real edge the source word w is below 50000. A number n below 2³² has word w exactly when n is w read as a
      natural number, so among the 51200 padded columns the selector picks exactly column w, which is a column of x, not
      of the padding: the message is x[b, source, 0] · value.
  (3) A number m below 2³¹ has word w' exactly when w' read signed is m, so the second selector is the
      specification's "edge ends at m".

  Splitting the sum over 1601536 = 1600000 + 1536 positions and using the two selector sums of the specification module
  finishes it.
-/
import proofs.«430482_j26018911879781_1_alg».proof.Proof.SpecK
import Mathlib.Data.EReal.Operations
import Mathlib.Algebra.BigOperators.Fin

open Idealize.ShloMosaic Idealize.ShloMosaic.ValueIdx
open scoped BigOperators

noncomputable section

namespace Cert.Spec

/-- A number below 2³² is the number of its own word, so its word is w exactly when the number is w's. -/
theorem nodeWord_eq_iff_toNat (n : ℕ) (hn : n < 2 ^ 32) (w : BitVec 32) : nodeWord n = w ↔ n = w.toNat := by
  unfold nodeWord
  constructor
  · intro h; rw [← h, BitVec.toNat_ofNat, Nat.mod_eq_of_lt hn]
  · intro h; apply BitVec.eq_of_toNat_eq; rw [BitVec.toNat_ofNat, Nat.mod_eq_of_lt hn, h]

/-- A number below 2³¹ has a word whose signed reading is the number itself, and no other word reads signed as it. -/
theorem nodeWord_eq_iff_toInt (m : ℕ) (hm : m < 2 ^ 31) (w : BitVec 32) : nodeWord m = w ↔ w.toInt = (m : Int) := by
  have hw : w.toNat < 2 ^ 32 := w.isLt
  rw [nodeWord_eq_iff_toNat m (by omega) w, BitVec.toInt_eq_toNat_cond]
  constructor
  · intro h; subst h; rw [if_pos (by omega)]
  · intro h; split at h <;> omega

section Route

variable (x : FVec Ideal SX .f32) (v : FVec Ideal SVal .f32) (idx : IVec SIdx 32)

/-- (1) A padded edge carries the value 0, so its message is 0 whatever the selected feature is. -/
theorem msg_pad (b : Fin 16) (e' : Fin 1601536) (h : ¬ e'.val < 1600000) :
    (msgArr (padIdx idx 0) (padVal v) (padX x) (ix2 b e') : EReal) = 0 := by
  have hv : (padVal v (ix2 (0 : Fin 1) e') : EReal) = 0 := dif_neg h
  show (∑ n : Fin 51200, (padX x (ix2 b n) : EReal)
      * (if nodeWord n.val = padIdx idx 0 (ix2 (0 : Fin 1) e') then (1 : EReal) else 0))
    * (padVal v (ix2 (0 : Fin 1) e') : EReal) = 0
  rw [hv, mul_zero]

/-- (2) At a real edge whose source word is below 50000 the selector picks exactly the source's column, so the message
    is the source's feature times the edge's value. -/
theorem msg_real (hsrc : ∀ e : Fin 1600000, (idx (ix2 (0 : Fin 2) e)).toNat < 50000)
    (b : Fin 16) (e' : Fin 1601536) (h : e'.val < 1600000) :
    (msgArr (padIdx idx 0) (padVal v) (padX x) (ix2 b e') : EReal)
      = (x (ix3 b (srcOf idx ⟨e'.val, h⟩) (0 : Fin 1)) : EReal) * (v (ix1 ⟨e'.val, h⟩) : EReal) := by
  have hv : (padVal v (ix2 (0 : Fin 1) e') : EReal) = v (ix1 ⟨e'.val, h⟩) := dif_pos h
  have hw : padIdx idx 0 (ix2 (0 : Fin 1) e') = idx (ix2 (0 : Fin 2) ⟨e'.val, h⟩) := dif_pos h
  have hlt : (idx (ix2 (0 : Fin 2) ⟨e'.val, h⟩)).toNat < 50000 := hsrc _
  have hsel : ∀ n : Fin 51200, (nodeWord n.val = idx (ix2 (0 : Fin 2) ⟨e'.val, h⟩))
      ↔ n = ⟨(idx (ix2 (0 : Fin 2) ⟨e'.val, h⟩)).toNat, by omega⟩ := by
    intro n
    rw [nodeWord_eq_iff_toNat n.val (by have := n.isLt; omega)]
    exact ⟨fun hn => Fin.ext hn, fun hn => congrArg Fin.val hn⟩
  have hcol : (padX x (ix2 b (⟨(idx (ix2 (0 : Fin 2) ⟨e'.val, h⟩)).toNat, by omega⟩ : Fin 51200)) : EReal)
      = x (ix3 b (srcOf idx ⟨e'.val, h⟩) (0 : Fin 1)) := by
    have hs : srcOf idx ⟨e'.val, h⟩ = ⟨(idx (ix2 (0 : Fin 2) ⟨e'.val, h⟩)).toNat, hlt⟩ :=
      Fin.ext (Nat.mod_eq_of_lt hlt)
    rw [hs]
    exact dif_pos hlt
  show (∑ n : Fin 51200, (padX x (ix2 b n) : EReal)
      * (if nodeWord n.val = padIdx idx 0 (ix2 (0 : Fin 1) e') then (1 : EReal) else 0))
    * (padVal v (ix2 (0 : Fin 1) e') : EReal) = _
  rw [hv, hw]
  refine congrArg (· * (v (ix1 ⟨e'.val, h⟩) : EReal)) ?_
  refine (Finset.sum_congr rfl fun n _ => ?_).trans
    ((sum_mul_indicator_eq (fun n : Fin 51200 => (padX x (ix2 b n) : EReal)) _).trans hcol)
  rw [if_congr (hsel n) rfl rfl]

/-- (3a) A padded edge contributes 0 to every output column. -/
theorem out_term_pad (b : Fin 16) (m : Fin 50000) (p : Fin 1536) :
    (msgArr (padIdx idx 0) (padVal v) (padX x) (ix2 b (Fin.natAdd 1600000 p : Fin 1601536)) : EReal)
      * (if nodeWord (colOf m).val = padIdx idx 1 (ix2 (0 : Fin 1) (Fin.natAdd 1600000 p : Fin 1601536)) then (1 : EReal) else 0) = 0 := by
  rw [msg_pad x v idx b _ (by rw [Fin.coe_natAdd]; omega), zero_mul]

/-- (3b) A real edge contributes its message to column m exactly when its destination word, read signed, is m. -/
theorem out_term_real (hsrc : ∀ e : Fin 1600000, (idx (ix2 (0 : Fin 2) e)).toNat < 50000)
    (b : Fin 16) (m : Fin 50000) (e : Fin 1600000) :
    (msgArr (padIdx idx 0) (padVal v) (padX x) (ix2 b (Fin.castAdd 1536 e : Fin 1601536)) : EReal)
      * (if nodeWord (colOf m).val = padIdx idx 1 (ix2 (0 : Fin 1) (Fin.castAdd 1536 e : Fin 1601536)) then (1 : EReal) else 0)
      = ((x (ix3 b (srcOf idx e) (0 : Fin 1)) : EReal) * (v (ix1 e) : EReal))
        * (if endsAt idx m e then (1 : EReal) else 0) := by
  have h : (Fin.castAdd 1536 e : Fin 1601536).val < 1600000 := e.isLt
  have hw : padIdx idx 1 (ix2 (0 : Fin 1) (Fin.castAdd 1536 e : Fin 1601536)) = idx (ix2 (1 : Fin 2) e) := dif_pos h
  rw [msg_real x v idx hsrc b _ h, hw]
  refine congrArg (((x (ix3 b (srcOf idx e) (0 : Fin 1)) : EReal) * (v (ix1 e) : EReal)) * ·) ?_
  exact if_congr (nodeWord_eq_iff_toInt m.val (by have := m.isLt; omega) _) rfl rfl

/-- (3) The scattered array at column m < 50000 is the sum, over the edges ending at m, of source feature times value. -/
theorem out_eq (hsrc : ∀ e : Fin 1600000, (idx (ix2 (0 : Fin 2) e)).toNat < 50000) (b : Fin 16) (m : Fin 50000) :
    (outArr (padIdx idx 1) (msgArr (padIdx idx 0) (padVal v) (padX x)) (ix2 b (colOf m)) : EReal)
      = ∑ e ∈ Finset.univ.filter (endsAt idx m),
          (x (ix3 b (srcOf idx e) (0 : Fin 1)) : EReal) * (v (ix1 e) : EReal) := by
  rw [← sum_mul_indicator_filter (endsAt idx m)]
  refine (Fin.sum_univ_add (a := 1600000) (b := 1536) (fun e' : Fin 1601536 =>
      (msgArr (padIdx idx 0) (padVal v) (padX x) (ix2 b e') : EReal)
        * (if nodeWord (colOf m).val = padIdx idx 1 (ix2 (0 : Fin 1) e') then (1 : EReal) else 0))).trans ?_
  rw [Finset.sum_eq_zero (s := (Finset.univ : Finset (Fin 1536))) (fun p _ => out_term_pad x v idx b m p), add_zero]
  exact Finset.sum_congr rfl fun e _ => out_term_real x v idx hsrc b m e

end Route

/-- The kernel's route computes the specification: entry (b, m, 0) of both is the sum over the edges ending at m of
    source feature times value, plus the bias at m. -/
theorem kernelFn_eq (x : FVec Ideal SX .f32) (v : FVec Ideal SVal .f32) (bias : FVec Ideal SBias .f32) (idx : IVec SIdx 32)
    (hsrc : ∀ e : Fin 1600000, (idx (ix2 (0 : Fin 2) e)).toNat < 50000) :
    kernelFn x v bias idx = G x v bias idx := by
  funext j
  exact congrArg (· + (bias (ix2 (j 1) (0 : Fin 1)) : EReal)) (out_eq x v idx hsrc (j 0) (j 1))

end Cert.Spec

end
-- ==== Proof.KI.Value.lean ====
/-
  The kernel program's result buffer, after its run, is the specification of its arguments.

  The result buffer is what the last host stretch writes: the scattered array's first 50000 columns plus the bias. The
  scattered array is what the second kernel region leaves, a function of the destination words and of the message array it
  finds; the message array is what the first region leaves, a function of the padded source words, edge values and features.
  Reading each stage as its pure function composes to the kernel's route `kernelFn`, which is the specification whenever
  every source word is below 50000.
-/
import proofs.«430482_j26018911879781_1_alg».proof.Proof.KI.RunValue
import proofs.«430482_j26018911879781_1_alg».proof.Proof.KI.Val0
import proofs.«430482_j26018911879781_1_alg».proof.Proof.KI.Val1
import proofs.«430482_j26018911879781_1_alg».proof.Proof.KI.Host
import proofs.«430482_j26018911879781_1_alg».proof.Proof.Bridge

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The message array region 1 finds is the one region 0 leaves: the pure message function of the padded arguments. -/
theorem msg_found (c : Dev nD) :
    Vin1 m c main_v12
      = Cert.Spec.msgArr (Cert.Spec.padIdx (m ((c : Thread nD τ).loc main_arg3)) 0) (Cert.Spec.padVal (m ((c : Thread nD τ).loc main_arg1)))
          (Cert.Spec.padX (m ((c : Thread nD τ).loc main_arg0))) := by
  show Gen.V10 m (outs0 m) c main_v12 = _
  rw [V10_msg]
  show W10 m c main_v12 = _
  rw [show W10 m c main_v12 = (dat0 (Vin0 m) c).arrAt 3 cfg0.N from Pipeline.withArrays_arr spec0 launch0.win.arr_inj c _ _ 3,
    arr0_fn (Vin0 m) c]
  show Cert.Spec.msgArr (Gen.V9 m c main_v9) (Gen.V9 m c main_v11) (Gen.V9 m c main_v8) = _
  rw [V9_src, V9_vals, V9_x]

/-- The destination words region 1 finds are the padded destination row. -/
theorem dst_found (c : Dev nD) :
    Vin1 m c main_v10 = Cert.Spec.padIdx (m ((c : Thread nD τ).loc main_arg3)) 1 := by
  show Gen.V10 m (outs0 m) c main_v10 = _
  rw [V10_dst, V9_dst]

/-- The scattered array region 1 leaves, as the pure function of the padded arguments. -/
theorem out_left (c : Dev nD) :
    Gen.V11 m (outs m) c main_v13
      = Cert.Spec.outArr (Cert.Spec.padIdx (m ((c : Thread nD τ).loc main_arg3)) 1)
          (Cert.Spec.msgArr (Cert.Spec.padIdx (m ((c : Thread nD τ).loc main_arg3)) 0) (Cert.Spec.padVal (m ((c : Thread nD τ).loc main_arg1)))
            (Cert.Spec.padX (m ((c : Thread nD τ).loc main_arg0)))) := by
  rw [V11_out, outs_11, arr1_fn (Vin1 m) c, dst_found, msg_found]

/-- The result buffer after the run, under the source-range hypothesis. -/
theorem result_eq (c : Dev nD)
    (hsrc : ∀ e : Fin 1600000, ((m ((c : Thread nD τ).loc main_arg3)) (ix2 (0 : Fin 2) e)).toNat < 50000) :
    Gen.V12 m (outs m) c main_v19
      = Cert.Spec.G (m ((c : Thread nD τ).loc main_arg0)) (m ((c : Thread nD τ).loc main_arg1)) (m ((c : Thread nD τ).loc main_arg2)) (m ((c : Thread nD τ).loc main_arg3)) := by
  rw [← Cert.Spec.kernelFn_eq _ _ _ _ hsrc]
  funext j
  refine (V12_result m c (outs m) j).trans ?_
  rw [out_left]
  rfl

end Cert.KernelIdeal.Hand

end
-- ==== Proof.LibScatterRows.lean ====
/-
  General lemma: the host's accumulating float scatter of whole rows (a segment sum: every update row is added into the operand
  row its index names), read at an entry, over the extended reals. The operand is [N, C] (or [N, A, B]); the updates are [E, C]
  (or [E, A, B]), one row per scatter index; the scatter indices are a column [E, 1] of row numbers (update_window_dims the trailing axes, inserted_window_dims [0],
  scatter_dims_to_operand_dims [0], index_vector_dim 1). Entry (n, j) of the result is the operand's entry plus the sum, over the
  updates e whose row number read as a signed integer is n, of the update's entry (e, j); a row number outside [0, N) lands nowhere.

  The road: an update index lands at a given operand index exactly when, on every operand axis, the window's start plus the
  window coordinate is that index's coordinate (the in-range test is then automatic). For these dimension numbers the start is
  the row number on axis 0 and zero elsewhere, and the window coordinate is zero on axis 0 and the update's own trailing
  coordinate elsewhere. So update (e, j') lands at (n, j) exactly when row number e is n and j' = j, and the sum over the landing
  update indices is re-indexed by e alone.
-/
import Idealize.ShloMosaic.PureOps.Ideal
import Idealize.ShloMosaic.PureOps.Contract
import Idealize.ShloMosaic.Lib.ValueIdx

open Idealize.ShloMosaic Idealize.ShloMosaic.ValueIdx

noncomputable section

namespace Cert.Lib.ScatterRows

/-- An update index lands at the operand index `i` exactly when, on every operand axis, the window's start (a signed integer)
    plus the window coordinate is `i`'s coordinate: the test that the sum lies inside the operand is then met by itself. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro heq a
      have ha : (d.start j idx a + d.window j a).toNat = (i a).val :=
        congrArg Fin.val (congrFun (Option.some.inj heq) a)
      have h0 := (h a).1
      omega
    · intro hall
      refine congrArg some (funext fun a => Fin.ext ?_)
      show (d.start j idx a + d.window j a).toNat = (i a).val
      have := hall a
      omega
  · rw [dif_neg h]
    constructor
    · intro heq
      cases heq
    · intro hall
      refine absurd (fun a => ?_) h
      have h1 := hall a
      have h2 : (i a).val < s.size a := (i a).isLt
      constructor <;> omega

/-- The dimension numbers of a whole-row scatter into `[N, C]` by a column `[E, 1]` of row numbers from `[E, C]`. -/
abbrev rowDims2 (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a whole-row scatter into `[N, A, B]` by a column `[E, 1]` of row numbers from `[E, A, B]`. -/
abbrev rowDims3 (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

/-! ## Rank 2 -/

section Rank2
variable {N E C w : Nat}
  (wf : ScatterDims.WF ⟨2, ![N, C]⟩ ⟨2, ![E, 1]⟩ ⟨2, ![E, C]⟩ [1] [0] [0] 1)
  (idx : IVec ⟨2, ![E, 1]⟩ w) (e : Fin E) (j' : Fin C)

/-- On the row axis the window of update (e, j') starts at the row number `idx[e, 0]`, read signed. -/
theorem start2_row :
    (rowDims2 N E C wf).start (ix2 e j') idx (0 : Fin 2) = (idx (ix2 e (0 : Fin 1))).toInt := by
  unfold ScatterDims.start
  rw [dif_pos (show (0 : Fin 2) ∈ (rowDims2 N E C wf).scatterDimsToOperandDims from List.mem_singleton.mpr rfl)]
  have hsi : (rowDims2 N E C wf).siIdx (ix2 e j') ⟨List.idxOf (0 : Fin 2) (rowDims2 N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter indices do not address, the window starts at 0. -/
theorem start2_col :
    (rowDims2 N E C wf).start (ix2 e j') idx (1 : Fin 2) = 0 := by
  unfold ScatterDims.start
  rw [dif_neg (show (1 : Fin 2) ∉ (rowDims2 N E C wf).scatterDimsToOperandDims from
    fun h => absurd (congrArg Fin.val (List.mem_singleton.mp h)) Nat.one_ne_zero)]

/-- The row axis is an inserted window axis: the window coordinate there is 0. -/
theorem window2_row :
    (rowDims2 N E C wf).window (ix2 e j') (0 : Fin 2) = 0 := by
  unfold ScatterDims.window
  rw [dif_neg (show (0 : Fin 2) ∉ (rowDims2 N E C wf).sKept from (by decide : (0 : Fin 2) ∉ ([1] : List (Fin 2))))]

/-- The column axis carries the update's column unchanged. -/
theorem window2_col :
    (rowDims2 N E C wf).window (ix2 e j') (1 : Fin 2) = j'.val := by
  unfold ScatterDims.window
  rw [dif_pos (show (1 : Fin 2) ∈ (rowDims2 N E C wf).sKept from (by decide : (1 : Fin 2) ∈ ([1] : List (Fin 2))))]
  rfl

/-- Update (e, j') lands at (n, j) exactly when its row number, read signed, is n and its column is j. -/
theorem resultIdx2_eq_some_iff (n : Fin N) (j : Fin C) :
    (rowDims2 N E C wf).resultIdx? (ix2 e j') idx = some (ix2 n j)
      ↔ (idx (ix2 e (0 : Fin 1))).toInt = (n.val : Int) ∧ j' = j := by
  rw [resultIdx?_eq_some_iff]
  constructor
  · intro h
    have h0 : (rowDims2 N E C wf).start (ix2 e j') idx (0 : Fin 2)
        + ((rowDims2 N E C wf).window (ix2 e j') (0 : Fin 2) : Int) = (n.val : Int) := h 0
    have h1 : (rowDims2 N E C wf).start (ix2 e j') idx (1 : Fin 2)
        + ((rowDims2 N E C wf).window (ix2 e j') (1 : Fin 2) : Int) = (j.val : Int) := h 1
    rw [start2_row, window2_row] at h0
    rw [start2_col, window2_col] at h1
    exact ⟨by omega, Fin.ext (by omega)⟩
  · rintro ⟨hz, rfl⟩ a
    match a with
    | ⟨0, _⟩ =>
      show (rowDims2 N E C wf).start (ix2 e j') idx (0 : Fin 2)
        + ((rowDims2 N E C wf).window (ix2 e j') (0 : Fin 2) : Int) = (n.val : Int)
      rw [start2_row, window2_row]; omega
    | ⟨1, _⟩ =>
      show (rowDims2 N E C wf).start (ix2 e j') idx (1 : Fin 2)
        + ((rowDims2 N E C wf).window (ix2 e j') (1 : Fin 2) : Int) = (j'.val : Int)
      rw [start2_col, window2_col]; omega

end Rank2

/-- The row scatter-add into a matrix, read at (n, j). -/
theorem scatterAdd_rows2_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (j : Fin C) :
    Host.scatterAdd (rowDims2 N E C wf) x idx upd (ix2 n j)
      = x (ix2 n j) + ∑ e ∈ Finset.univ.filter (fun e : Fin E => (idx (ix2 e (0 : Fin 1))).toInt = (n.val : Int)), upd (ix2 e j) := by
  unfold Host.scatterAdd
  rw [Ideal.hostScatterAdd_def]
  unfold Ideal.hostScatterAdd
  refine congrArg (x (ix2 n j) + ·) ?_
  refine Finset.sum_nbij' (fun p => (p 0 : Fin E)) (fun e => ix2 e j) ?_ ?_ ?_ ?_ ?_
  · intro p hp
    obtain ⟨e, j', rfl⟩ : ∃ (e : Fin E) (j' : Fin C), p = ix2 e j' := ⟨p 0, p 1, eq_ix2 p⟩
    exact Finset.mem_filter.mpr ⟨Finset.mem_univ _,
      ((resultIdx2_eq_some_iff wf idx e j' n j).mp (Finset.mem_filter.mp hp).2).1⟩
  · intro e he
    exact Finset.mem_filter.mpr ⟨Finset.mem_univ _,
      (resultIdx2_eq_some_iff wf idx e j n j).mpr ⟨(Finset.mem_filter.mp he).2, rfl⟩⟩
  · intro p hp
    obtain ⟨e, j', rfl⟩ : ∃ (e : Fin E) (j' : Fin C), p = ix2 e j' := ⟨p 0, p 1, eq_ix2 p⟩
    obtain rfl : j' = j := ((resultIdx2_eq_some_iff wf idx e j' n j).mp (Finset.mem_filter.mp hp).2).2
    rfl
  · intro e _
    rfl
  · intro p hp
    obtain ⟨e, j', rfl⟩ : ∃ (e : Fin E) (j' : Fin C), p = ix2 e j' := ⟨p 0, p 1, eq_ix2 p⟩
    obtain rfl : j' = j := ((resultIdx2_eq_some_iff wf idx e j' n j).mp (Finset.mem_filter.mp hp).2).2
    rfl

/-! ## Rank 3 -/

section Rank3
variable {N E A B w : Nat}
  (wf : ScatterDims.WF ⟨3, ![N, A, B]⟩ ⟨2, ![E, 1]⟩ ⟨3, ![E, A, B]⟩ [1, 2] [0] [0] 1)
  (idx : IVec ⟨2, ![E, 1]⟩ w) (e : Fin E) (a' : Fin A) (b' : Fin B)

/-- On the row axis the window of update (e, a', b') starts at the row number `idx[e, 0]`, read signed. -/
theorem start3_row :
    (rowDims3 N E A B wf).start (ix3 e a' b') idx (0 : Fin 3) = (idx (ix2 e (0 : Fin 1))).toInt := by
  unfold ScatterDims.start
  rw [dif_pos (show (0 : Fin 3) ∈ (rowDims3 N E A B wf).scatterDimsToOperandDims from List.mem_singleton.mpr rfl)]
  have hsi : (rowDims3 N E A B wf).siIdx (ix3 e a' b') ⟨List.idxOf (0 : Fin 3) (rowDims3 N E A B wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the second axis, which the scatter indices do not address, the window starts at 0. -/
theorem start3_mid :
    (rowDims3 N E A B wf).start (ix3 e a' b') idx (1 : Fin 3) = 0 := by
  unfold ScatterDims.start
  rw [dif_neg (show (1 : Fin 3) ∉ (rowDims3 N E A B wf).scatterDimsToOperandDims from
    fun h => absurd (congrArg Fin.val (List.mem_singleton.mp h)) Nat.one_ne_zero)]

/-- On the third axis, which the scatter indices do not address, the window starts at 0. -/
theorem start3_last :
    (rowDims3 N E A B wf).start (ix3 e a' b') idx (2 : Fin 3) = 0 := by
  unfold ScatterDims.start
  rw [dif_neg (show (2 : Fin 3) ∉ (rowDims3 N E A B wf).scatterDimsToOperandDims from
    fun h => absurd (congrArg Fin.val (List.mem_singleton.mp h)) (Nat.succ_ne_zero 1))]

/-- The row axis is an inserted window axis: the window coordinate there is 0. -/
theorem window3_row :
    (rowDims3 N E A B wf).window (ix3 e a' b') (0 : Fin 3) = 0 := by
  unfold ScatterDims.window
  rw [dif_neg (show (0 : Fin 3) ∉ (rowDims3 N E A B wf).sKept from (by decide : (0 : Fin 3) ∉ ([1, 2] : List (Fin 3))))]

/-- The second axis carries the update's second coordinate unchanged. -/
theorem window3_mid :
    (rowDims3 N E A B wf).window (ix3 e a' b') (1 : Fin 3) = a'.val := by
  unfold ScatterDims.window
  rw [dif_pos (show (1 : Fin 3) ∈ (rowDims3 N E A B wf).sKept from (by decide : (1 : Fin 3) ∈ ([1, 2] : List (Fin 3))))]
  rfl

/-- The third axis carries the update's third coordinate unchanged. -/
theorem window3_last :
    (rowDims3 N E A B wf).window (ix3 e a' b') (2 : Fin 3) = b'.val := by
  unfold ScatterDims.window
  rw [dif_pos (show (2 : Fin 3) ∈ (rowDims3 N E A B wf).sKept from (by decide : (2 : Fin 3) ∈ ([1, 2] : List (Fin 3))))]
  rfl

/-- Update (e, a', b') lands at (n, a, b) exactly when its row number, read signed, is n and its trailing coordinates are
    (a, b). -/
theorem resultIdx3_eq_some_iff (n : Fin N) (a : Fin A) (b : Fin B) :
    (rowDims3 N E A B wf).resultIdx? (ix3 e a' b') idx = some (ix3 n a b)
      ↔ (idx (ix2 e (0 : Fin 1))).toInt = (n.val : Int) ∧ a' = a ∧ b' = b := by
  rw [resultIdx?_eq_some_iff]
  constructor
  · intro h
    have h0 : (rowDims3 N E A B wf).start (ix3 e a' b') idx (0 : Fin 3)
        + ((rowDims3 N E A B wf).window (ix3 e a' b') (0 : Fin 3) : Int) = (n.val : Int) := h 0
    have h1 : (rowDims3 N E A B wf).start (ix3 e a' b') idx (1 : Fin 3)
        + ((rowDims3 N E A B wf).window (ix3 e a' b') (1 : Fin 3) : Int) = (a.val : Int) := h 1
    have h2 : (rowDims3 N E A B wf).start (ix3 e a' b') idx (2 : Fin 3)
        + ((rowDims3 N E A B wf).window (ix3 e a' b') (2 : Fin 3) : Int) = (b.val : Int) := h 2
    rw [start3_row, window3_row] at h0
    rw [start3_mid, window3_mid] at h1
    rw [start3_last, window3_last] at h2
    exact ⟨by omega, Fin.ext (by omega), Fin.ext (by omega)⟩
  · rintro ⟨hz, rfl, rfl⟩ c
    match c with
    | ⟨0, _⟩ =>
      show (rowDims3 N E A B wf).start (ix3 e a' b') idx (0 : Fin 3)
        + ((rowDims3 N E A B wf).window (ix3 e a' b') (0 : Fin 3) : Int) = (n.val : Int)
      rw [start3_row, window3_row]; omega
    | ⟨1, _⟩ =>
      show (rowDims3 N E A B wf).start (ix3 e a' b') idx (1 : Fin 3)
        + ((rowDims3 N E A B wf).window (ix3 e a' b') (1 : Fin 3) : Int) = (a'.val : Int)
      rw [start3_mid, window3_mid]; omega
    | ⟨2, _⟩ =>
      show (rowDims3 N E A B wf).start (ix3 e a' b') idx (2 : Fin 3)
        + ((rowDims3 N E A B wf).window (ix3 e a' b') (2 : Fin 3) : Int) = (b'.val : Int)
      rw [start3_last, window3_last]; omega

end Rank3

/-- The row scatter-add into a rank-3 array, read at (n, a, b). -/
theorem scatterAdd_rows3_apply {N E A B w : Nat} {φ : FTy}
    (wf : ScatterDims.WF ⟨3, ![N, A, B]⟩ ⟨2, ![E, 1]⟩ ⟨3, ![E, A, B]⟩ [1, 2] [0] [0] 1)
    (x : FVec Ideal ⟨3, ![N, A, B]⟩ φ) (idx : IVec ⟨2, ![E, 1]⟩ w) (upd : FVec Ideal ⟨3, ![E, A, B]⟩ φ)
    (n : Fin N) (a : Fin A) (b : Fin B) :
    Host.scatterAdd (rowDims3 N E A B wf) x idx upd (ix3 n a b)
      = x (ix3 n a b) + ∑ e ∈ Finset.univ.filter (fun e : Fin E => (idx (ix2 e (0 : Fin 1))).toInt = (n.val : Int)), upd (ix3 e a b) := by
  unfold Host.scatterAdd
  rw [Ideal.hostScatterAdd_def]
  unfold Ideal.hostScatterAdd
  refine congrArg (x (ix3 n a b) + ·) ?_
  refine Finset.sum_nbij' (fun p => (p 0 : Fin E)) (fun e => ix3 e a b) ?_ ?_ ?_ ?_ ?_
  · intro p hp
    obtain ⟨e, a', b', rfl⟩ : ∃ (e : Fin E) (a' : Fin A) (b' : Fin B), p = ix3 e a' b' := ⟨p 0, p 1, p 2, eq_ix3 p⟩
    exact Finset.mem_filter.mpr ⟨Finset.mem_univ _,
      ((resultIdx3_eq_some_iff wf idx e a' b' n a b).mp (Finset.mem_filter.mp hp).2).1⟩
  · intro e he
    exact Finset.mem_filter.mpr ⟨Finset.mem_univ _,
      (resultIdx3_eq_some_iff wf idx e a b n a b).mpr ⟨(Finset.mem_filter.mp he).2, rfl, rfl⟩⟩
  · intro p hp
    obtain ⟨e, a', b', rfl⟩ : ∃ (e : Fin E) (a' : Fin A) (b' : Fin B), p = ix3 e a' b' := ⟨p 0, p 1, p 2, eq_ix3 p⟩
    obtain ⟨-, rfl, rfl⟩ := (resultIdx3_eq_some_iff wf idx e a' b' n a b).mp (Finset.mem_filter.mp hp).2
    rfl
  · intro e _
    rfl
  · intro p hp
    obtain ⟨e, a', b', rfl⟩ : ∃ (e : Fin E) (a' : Fin A) (b' : Fin B), p = ix3 e a' b' := ⟨p 0, p 1, p 2, eq_ix3 p⟩
    obtain ⟨-, rfl, rfl⟩ := (resultIdx3_eq_some_iff wf idx e a' b' n a b).mp (Finset.mem_filter.mp hp).2
    rfl

end Cert.Lib.ScatterRows

end
-- ==== Proof.Ref.lean ====
import proofs.«430482_j26018911879781_1_alg».proof.Proof.Gen.ReferenceIdeal.Run
import proofs.«430482_j26018911879781_1_alg».proof.Proof.Gen.ReferenceIdeal.Read
import proofs.«430482_j26018911879781_1_alg».proof.Proof.Gen.Pre_finite_inputs
import proofs.«430482_j26018911879781_1_alg».proof.Proof.Spec
import proofs.«430482_j26018911879781_1_alg».proof.Proof.LibScatterRows
import proofs.«430482_j26018911879781_1_alg».proof.Defs
import Idealize.ShloMosaic.Lib.ValueIdx
import Idealize.ShloMosaic.Lib.Pipeline.Value
import Idealize.ShloMosaic.PureOps.Ideal.Laws

/-!
  The reference program ends at the specification.

  The reference reads the source row of the edge list, adds 50000 to a source word that is negative read signed, takes
  x[b, source, 0] for every edge by a gather whose start index (source, 0) is clamped into the array, multiplies by the
  edge weight, adds the 16-entry rows into a zero [50000, 16] array by the destination word (a row whose destination is
  outside [0, 50000) lands nowhere), transposes back and adds the bias.

  Under the hypothesis that every source word is below 50000 the word is not negative read signed, so the correction is
  not applied; and the clamp to [0, 49999] leaves it as it is. Hence the gathered entry (b, e) is x[b, source e, 0], and
  output entry (b, m, 0) is 0 + (the sum over the edges e whose destination word read signed is m of
  x[b, source e, 0] · v[e]) + bias[m, 0], which is the specification's entry.

  The gather is read through a general lemma for this pattern of dimension numbers (operand [B, N, 1], start indices
  [E, 2], whole leading axis kept, the two trailing axes collapsed): on the leading axis the operand index is the
  result's row, on the middle axis the first start component clamped to N − 1, on the last axis (extent 1) it is 0
  whatever the second start component is.
-/

noncomputable section

open Idealize.ShloMosaic Idealize.ShloMosaic.ValueIdx Idealize.ShloMosaic.TcCoe Idealize.SL.Sem
open scoped BigOperators

namespace Cert.ReferenceIdeal.Hand

open Cert.ReferenceIdeal Cert.ReferenceIdeal.Gen Cert.ReferenceIdeal.Read

/-! ## A gather of x[:, n, 0] by start indices (n, z), read at an index -/

section Gather
variable {α : Type}

/-- The dimension numbers: operand [B, N, 1], start indices [E, 2] (a row per result column), result [B, E]; the
    leading operand axis is kept whole, the other two are collapsed and addressed by the two start components. -/
abbrev colDims (B N E : Nat)
    (wf : GatherDims.WF ⟨3, ![B, N, 1]⟩ ⟨2, ![E, 2]⟩ ⟨2, ![B, E]⟩ [0] [1, 2] [] [1, 2] [] 1 ![B, 1, 1]) :
    GatherDims ⟨3, ![B, N, 1]⟩ ⟨2, ![E, 2]⟩ ⟨2, ![B, E]⟩ where
  offsetDims := [0]
  collapsedSliceDims := [1, 2]
  operandBatchingDims := []
  startIndicesBatchingDims := []
  startIndexMap := [1, 2]
  indexVectorDim := 1
  sliceSizes := ![B, 1, 1]
  wf := wf

section
variable {B N E w : Nat}
  (wf : GatherDims.WF ⟨3, ![B, N, 1]⟩ ⟨2, ![E, 2]⟩ ⟨2, ![B, E]⟩ [0] [1, 2] [] [1, 2] [] 1 ![B, 1, 1])
  (idx : IVec ⟨2, ![E, 2]⟩ w) (b : Fin B) (e : Fin E)

/-- On the leading axis (not addressed by the start index, kept whole) the operand index is the result's row. -/
theorem operandIdx_lead :
    ((colDims B N E wf).operandIdx (ix2 b e) idx (0 : Fin 3)).val = b.val := by
  show (colDims B N E wf).start (ix2 b e) idx 0 + (colDims B N E wf).batchCoord (ix2 b e) 0
    + (colDims B N E wf).offCoord (ix2 b e) 0 = _
  have h0 : (0 : Fin 3) ∈ (colDims B N E wf).sKept := by
    rw [GatherDims.mem_sKept]
    exact ⟨(by decide : (0 : Fin 3) ∉ ([1, 2] : List (Fin 3))), List.not_mem_nil⟩
  rw [GatherDims.batchCoord_eq_zero _ _ _ List.not_mem_nil]
  unfold GatherDims.start
  rw [dif_neg (show (0 : Fin 3) ∉ (colDims B N E wf).startIndexMap from
    (by decide : (0 : Fin 3) ∉ ([1, 2] : List (Fin 3))))]
  unfold GatherDims.offCoord
  rw [dif_pos h0]
  simp only [Nat.zero_add, Nat.add_zero]
  rfl

/-- On the middle axis (collapsed) the operand index is the first start component, read signed and clamped to N − 1. -/
theorem operandIdx_node :
    ((colDims B N E wf).operandIdx (ix2 b e) idx (1 : Fin 3)).val = min (idx (ix2 e (0 : Fin 2))).toInt.toNat (N - 1) := by
  show (colDims B N E wf).start (ix2 b e) idx 1 + (colDims B N E wf).batchCoord (ix2 b e) 1
    + (colDims B N E wf).offCoord (ix2 b e) 1 = _
  rw [GatherDims.batchCoord_eq_zero _ _ _ List.not_mem_nil,
    GatherDims.offCoord_eq_zero _ _ _ (fun h => ((GatherDims.mem_sKept _ _).mp h).1
      (by decide : (1 : Fin 3) ∈ ([1, 2] : List (Fin 3))))]
  simp only [Nat.add_zero]
  unfold GatherDims.start
  rw [dif_pos (show (1 : Fin 3) ∈ (colDims B N E wf).startIndexMap from
    (by decide : (1 : Fin 3) ∈ ([1, 2] : List (Fin 3))))]
  have hsi : (colDims B N E wf).siIdx (ix2 b e) ⟨List.idxOf (1 : Fin 3) (colDims B N E wf).startIndexMap,
      List.idxOf_lt_length_iff.2 (by decide : (1 : Fin 3) ∈ ([1, 2] : List (Fin 3)))⟩ = ix2 e (0 : Fin 2) := by
    funext a; refine Fin.ext ?_
    match a with
    | ⟨0, _⟩ => rfl
    | ⟨1, _⟩ => rfl
  rw [hsi]
  rfl

/-- On the last axis (extent 1, collapsed) the clamp leaves only 0, whatever the second start component is. -/
theorem operandIdx_last :
    ((colDims B N E wf).operandIdx (ix2 b e) idx (2 : Fin 3)).val = 0 := by
  show (colDims B N E wf).start (ix2 b e) idx 2 + (colDims B N E wf).batchCoord (ix2 b e) 2
    + (colDims B N E wf).offCoord (ix2 b e) 2 = _
  rw [GatherDims.batchCoord_eq_zero _ _ _ List.not_mem_nil,
    GatherDims.offCoord_eq_zero _ _ _ (fun h => ((GatherDims.mem_sKept _ _).mp h).1
      (by decide : (2 : Fin 3) ∈ ([1, 2] : List (Fin 3))))]
  have h : (colDims B N E wf).start (ix2 b e) idx 2 ≤ 0 := (colDims B N E wf).start_le (ix2 b e) idx 2
  omega

end

/-- The gather read at (b, e): the operand at row b, at the first start component of e read signed and clamped into
    [0, N − 1], and at 0. -/
theorem gather_cols_apply {B N E w : Nat} (hN : 0 < N)
    (wf : GatherDims.WF ⟨3, ![B, N, 1]⟩ ⟨2, ![E, 2]⟩ ⟨2, ![B, E]⟩ [0] [1, 2] [] [1, 2] [] 1 ![B, 1, 1])
    (x : (⟨3, ![B, N, 1]⟩ : Shape).Idx → α) (idx : IVec ⟨2, ![E, 2]⟩ w) (b : Fin B) (e : Fin E) :
    Host.gather (colDims B N E wf) x idx (ix2 b e)
      = x (ix3 b ⟨min (idx (ix2 e (0 : Fin 2))).toInt.toNat (N - 1), by omega⟩ (0 : Fin 1)) := by
  unfold Host.gather
  congr 1
  funext a
  refine Fin.ext ?_
  match a with
  | ⟨0, _⟩ => exact operandIdx_lead wf idx b e
  | ⟨1, _⟩ => exact operandIdx_node wf idx b e
  | ⟨2, _⟩ => exact operandIdx_last wf idx b e

end Gather

/-! ## A 32-bit word below 50000 -/

/-- Such a word is not negative read signed: the comparison with 0 answers 0. -/
theorem slt_zero_of_lt (w : BitVec 32) (h : w.toNat < 50000) : IntOp.cmpi .slt w 0#32 = 0#1 := by
  have hi : w.toInt = (w.toNat : Int) := by
    rw [BitVec.toInt_eq_toNat_cond, if_pos (by omega)]
  have hz : (0#32 : BitVec 32).toInt = 0 := by decide
  have hs : w.slt 0#32 = false := by
    unfold BitVec.slt
    rw [hi, hz]
    exact decide_eq_false (by omega)
  show BitVec.ofBool (w.slt 0#32) = 0#1
  rw [hs]
  rfl

/-- Read signed and then as a natural number it is itself. -/
theorem toInt_toNat_of_lt (w : BitVec 32) (h : w.toNat < 50000) : w.toInt.toNat = w.toNat := by
  rw [BitVec.toInt_eq_toNat_cond, if_pos (by omega)]
  exact Int.toNat_natCast _

/-! ## The reference's stages at an index -/

section Stages
variable (x : FVec Ideal S16x50000x1 .f32) (v : FVec Ideal S1600000 .f32) (bias : FVec Ideal S50000x1 .f32)
  (idx : IVec S2x1600000 32)

/-- The source row, flattened: entry e is idx[0, e]. -/
theorem v1_at (e : Fin 1600000) : val_main_v1 (F := Ideal) idx (ix1 e) = idx (ix2 (0 : Fin 2) e) := by
  rw [val_main_v1_apply, val_main_v0_apply]
  refine congrArg idx (funext fun a => Fin.ext ?_)
  match a with
  | ⟨0, _⟩ => rfl
  | ⟨1, _⟩ => exact Nat.mod_eq_of_lt e.isLt

/-- The destination row, flattened: entry e is idx[1, e]. -/
theorem v3_at (e : Fin 1600000) : val_main_v3 (F := Ideal) idx (ix1 e) = idx (ix2 (1 : Fin 2) e) := by
  rw [val_main_v3_apply, val_main_v2_apply]
  refine congrArg idx (funext fun a => Fin.ext ?_)
  match a with
  | ⟨0, _⟩ => rfl
  | ⟨1, _⟩ => exact Nat.mod_eq_of_lt e.isLt

/-- A source word below 50000 is not corrected: the select keeps it. -/
theorem v8_at (e : Fin 1600000) (h : (idx (ix2 (0 : Fin 2) e)).toNat < 50000) :
    val_main_v8 (F := Ideal) idx (ix1 e) = idx (ix2 (0 : Fin 2) e) := by
  rw [val_main_v8_apply, val_main_v5_apply, val_main_v4_apply, val_main_c_apply, v1_at,
    slt_zero_of_lt _ h, select_zero]

/-- The start indices' first column is the source word. -/
theorem v13_at (e : Fin 1600000) (h : (idx (ix2 (0 : Fin 2) e)).toNat < 50000) :
    val_main_v13 (F := Ideal) idx (ix2 e (0 : Fin 2)) = idx (ix2 (0 : Fin 2) e) := by
  unfold val_main_v13
  refine (concatenate_pair_apply_left 1 _ _ concatenates_S1600000x1_S1600000x1_S1600000x2_d1 (ix2 e (0 : Fin 2)) rfl
    (ix2 e (0 : Fin 1)) (fun b => ?_)).trans ?_
  · match b with
    | ⟨0, _⟩ => rfl
    | ⟨1, _⟩ => rfl
  · rw [val_main_v11_apply]
    have hi : idx_main_v11 (ix2 e (0 : Fin 1)) = ix1 e := by
      funext a
      match a with
      | ⟨0, _⟩ => rfl
    rw [hi]
    exact v8_at idx e h

/-- The gathered entry (b, e) is x[b, source e, 0]. -/
theorem v14_at (hsrc : ∀ e : Fin 1600000, (idx (ix2 (0 : Fin 2) e)).toNat < 50000) (b : Fin 16) (e : Fin 1600000) :
    val_main_v14 (F := Ideal) x idx (ix2 b e) = x (ix3 b (Cert.Spec.srcOf idx e) (0 : Fin 1)) := by
  unfold val_main_v14
  refine (gather_cols_apply (by decide : 0 < 50000) gather_S16x50000x1_S1600000x2_S16x1600000_0_12_n_n_12_1_1611_wf
    x (val_main_v13 (F := Ideal) idx) b e).trans ?_
  refine congrArg (fun n : Fin 50000 => x (ix3 b n (0 : Fin 1))) (Fin.ext ?_)
  show min (val_main_v13 (F := Ideal) idx (ix2 e (0 : Fin 2))).toInt.toNat (50000 - 1) = (idx (ix2 (0 : Fin 2) e)).toNat % 50000
  rw [v13_at idx e (hsrc e), toInt_toNat_of_lt _ (hsrc e), Nat.mod_eq_of_lt (hsrc e)]
  have := hsrc e
  omega

/-- The weights broadcast over the rows: entry (b, e) is v[e]. -/
theorem v16_at (b : Fin 16) (e : Fin 1600000) : val_main_v16 (F := Ideal) v (ix2 b e) = v (ix1 e) := by
  rw [val_main_v16_apply, val_main_v15_apply]
  refine congrArg v (funext fun a => ?_)
  match a with
  | ⟨0, _⟩ => rfl

/-- The update rows: entry (e, b) is x[b, source e, 0] · v[e]. -/
theorem v18_at (hsrc : ∀ e : Fin 1600000, (idx (ix2 (0 : Fin 2) e)).toNat < 50000) (e : Fin 1600000) (b : Fin 16) :
    val_main_v18 (F := Ideal) x v idx (ix2 e b)
      = (x (ix3 b (Cert.Spec.srcOf idx e) (0 : Fin 1)) : EReal) * (v (ix1 e) : EReal) := by
  rw [val_main_v18_apply]
  have hi : idx_main_v18 (ix2 e b) = ix2 b e := by
    funext a
    match a with
    | ⟨0, _⟩ => rfl
    | ⟨1, _⟩ => rfl
  rw [hi, val_main_v17_apply, Ideal.mulf_def, v14_at x idx hsrc b e, v16_at v b e]

/-- The array scattered into is zero. -/
theorem v19_at (m : Fin 50000) (b : Fin 16) : val_main_v19 (F := Ideal) (ix2 m b) = 0 := by
  rw [val_main_v19_apply, val_main_cst_apply, Ideal.ofBits_def, Ideal.ofBits_zero_f32]

/-- The scatter's index column is the destination word. -/
theorem v20_at (e : Fin 1600000) : val_main_v20 (F := Ideal) idx (ix2 e (0 : Fin 1)) = idx (ix2 (1 : Fin 2) e) := by
  rw [val_main_v20_apply]
  have hi : idx_main_v20 (ix2 e (0 : Fin 1)) = ix1 e := by
    funext a
    match a with
    | ⟨0, _⟩ => rfl
  rw [hi, v3_at]

/-- The segment sum: entry (m, b) is the sum over the edges ending at m of x[b, source e, 0] · v[e]. -/
theorem v21_at (hsrc : ∀ e : Fin 1600000, (idx (ix2 (0 : Fin 2) e)).toNat < 50000) (m : Fin 50000) (b : Fin 16) :
    val_main_v21 (F := Ideal) x v idx (ix2 m b)
      = ∑ e ∈ Finset.univ.filter (Cert.Spec.endsAt idx m),
          (x (ix3 b (Cert.Spec.srcOf idx e) (0 : Fin 1)) : EReal) * (v (ix1 e) : EReal) := by
  unfold val_main_v21
  refine (Cert.Lib.ScatterRows.scatterAdd_rows2_apply scatter_S50000x16_S1600000x1_S1600000x16_1_0_0_1_wf
    (val_main_v19 (F := Ideal)) (val_main_v20 (F := Ideal) idx) (val_main_v18 (F := Ideal) x v idx) m b).trans ?_
  rw [v19_at, zero_add]
  refine Finset.sum_congr (Finset.filter_congr fun e _ => ?_) (fun e _ => v18_at x v idx hsrc e b)
  rw [v20_at]
  exact Iff.rfl

/-- The bias broadcast over the rows: entry (b, m) is bias[m, 0]. -/
theorem v25_at (b : Fin 16) (m : Fin 50000) : val_main_v25 (F := Ideal) bias (ix2 b m) = bias (ix2 m (0 : Fin 1)) := by
  rw [val_main_v25_apply, val_main_v24_apply, val_main_v23_apply]
  refine congrArg bias (funext fun a => Fin.ext ?_)
  match a with
  | ⟨0, _⟩ => exact Nat.div_one _
  | ⟨1, _⟩ => rfl

end Stages

/-! ## The result -/

/-- The reference's result is the specification, when every source word is below 50000. -/
theorem ref_term_eq (x : FVec Ideal S16x50000x1 .f32) (v : FVec Ideal S1600000 .f32) (bias : FVec Ideal S50000x1 .f32)
    (idx : IVec S2x1600000 32)
    (hsrc : ∀ e : Fin 1600000, (idx (ix2 (0 : Fin 2) e)).toNat < 50000) :
    val_main_v27 (F := Ideal) x v bias idx = Cert.Spec.G x v bias idx := by
  funext j
  obtain ⟨b, m, z, rfl⟩ : ∃ (b : Fin 16) (m : Fin 50000) (z : Fin 1), j = ix3 b m z := ⟨j 0, j 1, j 2, eq_ix3 j⟩
  rw [val_main_v27_apply]
  have hi : idx_main_v27 (ix3 b m z) = ix2 b m := by
    funext a
    match a with
    | ⟨0, _⟩ => rfl
    | ⟨1, _⟩ => rfl
  rw [hi, val_main_v26_apply, Ideal.addf_def, val_main_v22_apply]
  have hi2 : idx_main_v22 (ix2 b m) = ix2 m b := by
    funext a
    match a with
    | ⟨0, _⟩ => rfl
    | ⟨1, _⟩ => rfl
  rw [hi2, v21_at x v idx hsrc m b, v25_at bias b m]
  rfl

/-- The run, with the result named: every weakly fair execution of the reference ends with its result at the
    specification of its arguments and the arguments unchanged, when every source word is below 50000. -/
theorem ref_run (m' : (ℓ : Loc nD τ sig) → Buf (Elt Ideal) ℓ) (ρ' : Dev nD → PrngReg)
    (hsrc : ∀ (c : Dev nD) (e : Fin 1600000), ((m' ((c.tc : Thread nD τ).loc main_arg3)) (ix2 (0 : Fin 2) e)).toNat < 50000) :
    θ_run (defs (F := Ideal)) (onTc (τ := τ) (main (F := Ideal))) ⟨m', fun _ => 0, ρ'⟩ (fun r => ∀ c : Dev nD,
        r.2.mem ((c.tc : Thread nD τ).loc main_v27) = Cert.Spec.G (m' ((c.tc : Thread nD τ).loc main_arg0)) (m' ((c.tc : Thread nD τ).loc main_arg1)) (m' ((c.tc : Thread nD τ).loc main_arg2)) (m' ((c.tc : Thread nD τ).loc main_arg3))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)) :=
  (θ_run (defs (F := Ideal)) _ _).mono
    (fun _ h c => ⟨(h c).1.trans ((val_main_v27_eq (F := Ideal) _ _ _ _).trans (ref_term_eq _ _ _ _ (hsrc c))), (h c).2⟩)
    (Cert.ReferenceIdeal.Value.run (F := Ideal) m' ρ')

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.Hand

end
-- ==== Proof.PreDecode.lean ====
/-
  The precondition, decoded at the source words. The precondition is a conjunction of four "every element" tests; its
  last conjunct says of row 0 of the edge table that every word w satisfies 0 ≤ w and w < 50000, both read signed.
  A 32-bit word in [0, 50000) signed is below 50000 unsigned. The row is taken by a unit-stride slice at offset (0, 0)
  of extent [1 × 1600000], then flattened to [1600000]: element e of the flattened row is the table at (0, e).
-/
import proofs.«430482_j26018911879781_1_alg».proof.Pre_finite_inputs
import proofs.«430482_j26018911879781_1_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value

noncomputable section

namespace Cert.Pre_finite_inputs.Hand

open Idealize.ShloMosaic Cert.Pre_finite_inputs

/-- A 32-bit word whose signed value lies in [0, 50000) has unsigned value below 50000: a word with its top bit set
    reads negative, so a nonnegative signed value is the unsigned value. -/
theorem toNat_lt_of_signed (w : BitVec 32) (h0 : (0#32 : BitVec 32).toInt ≤ w.toInt)
    (h1 : w.toInt < (50000#32 : BitVec 32).toInt) : w.toNat < 50000 := by
  have e0 : (0#32 : BitVec 32).toInt = 0 := by decide
  have e1 : (50000#32 : BitVec 32).toInt = 50000 := by decide
  rw [e0] at h0
  rw [e1] at h1
  have hw := w.isLt
  rw [BitVec.toInt_eq_toNat_cond] at h0 h1
  by_cases hc : 2 * w.toNat < 2 ^ 32
  · rw [if_pos hc] at h1; omega
  · rw [if_neg hc] at h0; omega

/-- The scalar shape has one index. -/
instance : Subsingleton S_.Idx := ⟨fun a b => funext fun d => d.elim0⟩

/-- Element e of the flattened row 0 of the edge table is the table's word at (0, e): the flattening keeps row-major
    position (0 · 1600000 + e = e) and the slice starts at offset (0, 0). -/
theorem row0_apply [Facts] (idx : IVec S2x1600000 32) (e : Fin 1600000) :
    shapeCast S1600000 (extractStridedSlice S1x1600000 ![0, 0] idx Facts.slices_S2x1600000_S1x1600000_0_0)
        Facts.shapeCasts_S1x1600000_S1600000 (ValueIdx.ix1 e)
      = idx (ValueIdx.ix2 (0 : Fin 2) e) := by
  refine (shapeCast_apply _ _ (ValueIdx.ix1 e) (ValueIdx.ix2 (0 : Fin 1) e) ?_).trans ?_
  · rw [Shape.rowMajor_val_two, Shape.rowMajor_val_one]
    show 0 * 1600000 + e.val = e.val
    omega
  · refine extractStridedSlice_apply _ _ _ _ _ fun a => ?_
    match a with
    | ⟨0, _⟩ => rfl
    | ⟨1, _⟩ => show e.val = 0 + e.val; omega

/-- THE PRECONDITION DECODED: every source word (row 0 of the edge table) names one of the 50000 nodes. -/
theorem src_lt_of_pre {F : FTy → Type} [FloatOps F] [Cert.Pre_finite_inputs.Facts]
    (x : FVec F S16x50000x1 .f32) (v : FVec F S1600000 .f32) (bias : FVec F S50000x1 .f32) (idx : IVec S2x1600000 32)
    (h : Cert.Pre_finite_inputs.fn (F := F) x v bias idx = fun _ => 1#1) :
    ∀ e : Fin 1600000, (idx (ValueIdx.ix2 (0 : Fin 2) e)).toNat < 50000 := by
  intro e
  have h0 := congrFun h ValueIdx.ix0
  dsimp only [fn, fn_part1] at h0
  -- the fourth conjunct: the "every element" test of the range check on the source words
  obtain ⟨-, hall⟩ := IntOp.andi_eq_one.1 h0
  have he := Host.reduce_andi_all _ _ _ _ _ hall (ValueIdx.ix1 e)
  obtain ⟨hge, hlt⟩ := IntOp.andi_eq_one.1 he
  have hge' := IntOp.cmpi_sge.1 hge
  have hlt' := IntOp.cmpi_slt.1 hlt
  rw [row0_apply] at hge' hlt'
  exact toNat_lt_of_signed _ hge' hlt'

end Cert.Pre_finite_inputs.Hand

end
-- ==== Proof.lean ====
/-
  The certificate's claim: the kernel program and its reading over the extended reals both run to the end without a
  fault and leave their inputs unchanged, likewise the reference, and the idealized kernel and the idealized reference
  end with equal results.

  The result, entry (b, m, 0), is the sum over the edges ending at node m of the source node's feature times the edge's
  weight, plus the bias of m (Proof/Spec.lean). The reference computes it by a gather and a segment sum. The kernel pads
  its inputs to whole tiles and replaces the gather and the scatter by products with one-hot matrices, accumulated tile by
  tile in a scratch buffer; on the extended reals a product with a 0/1 matrix selects, so the two routes agree whenever
  every source index is in range, which the precondition states. The frames are proved once for any float instance and
  used at both.
-/
import proofs.«430482_j26018911879781_1_alg».proof.Defs
import proofs.«430482_j26018911879781_1_alg».proof.Proof.Gen.Kernel
import proofs.«430482_j26018911879781_1_alg».proof.Proof.Gen.KernelIdeal
import proofs.«430482_j26018911879781_1_alg».proof.Proof.Gen.ReferenceIdeal
import proofs.«430482_j26018911879781_1_alg».proof.Proof.Gen.Pre_finite_inputs
import proofs.«430482_j26018911879781_1_alg».proof.Proof.K.Run
import proofs.«430482_j26018911879781_1_alg».proof.Proof.KI.Value
import proofs.«430482_j26018911879781_1_alg».proof.Proof.Ref
import proofs.«430482_j26018911879781_1_alg».proof.Proof.PreDecode
import Idealize.ShloMosaic.Adequacy
import Idealize.ShloMosaic.Init

noncomputable section

namespace Cert.Proof

open Idealize.ShloMosaic Idealize.ShloMosaic.TcCoe Idealize.SL.Sem

/-- The word-level program's frame. -/
theorem frame_p : Cert.frame_Kernel := fun m ρ _ => Cert.Kernel.Hand.frame m ρ

/-- The idealized program's frame. -/
theorem frame_pi : Cert.frame_KernelIdeal := fun m ρ _ => Cert.KernelIdeal.Hand.frame m ρ

/-- Both idealized programs end at the specification of their (agreeing) arguments. -/
theorem algebraic : Cert.algebraic_KernelIdeal_ReferenceIdeal := by
  intro m ρ m' ρ' hpre hagree
  have hsrc : ∀ (c : Dev Cert.KernelIdeal.nD) (e : Fin 1600000),
      ((m ((c.tc : Thread Cert.KernelIdeal.nD Cert.KernelIdeal.τ).loc Cert.KernelIdeal.main_arg3)) (ValueIdx.ix2 (0 : Fin 2) e)).toNat < 50000 :=
    fun c => Cert.Pre_finite_inputs.Hand.src_lt_of_pre _ _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.result_eq m c (hsrc c)), (h c).2⟩)
      (Cert.KernelIdeal.Hand.run_value m ρ)
  · refine (θ_run Cert.ReferenceIdeal.defs _ _).mono (fun _ h c => ⟨?_, (h c).2⟩)
      (Cert.ReferenceIdeal.Hand.ref_run m' ρ' (fun c e => by rw [(hagree c).2.2.2]; exact hsrc c e))
    rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_p, frame_pi, Cert.ReferenceIdeal.Hand.frame_ri, trivial, algebraic⟩

end Cert.Proof

end
